-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000 : Shape := ⟨1, ![50000]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000 : S_.BroadcastsInDim S50000 (![] : Fin 0 → Fin S50000.rank)
  reducesTo_S50000_S_d0 : S50000.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_v14 : IVec S_ 1) (main_v16 : IVec S800000 32) (main_c_4 : IVec S_ 32) : IVec S_ 1 :=
  let main_v17 : IVec S800000 32 := broadcastInDim S800000 ![] bcast_S_S800000 main_c_4
  let main_v18 : IVec S800000 1 := cmpi .slt main_v16 main_v17
  let main_c_5 : IVec S_ 1 := constantI S_ 1 1#1
  let main_v19 : IVec S_ 1 := (fun x v => Host.reduce IntOp.andi x v reducesTo_S800000_S_d0 h_S_) main_v18 main_c_5
  let main_v20 : IVec S_ 1 := andi main_v14 main_v19
  main_v20

def fn {F : FTy → Type} [FloatOps F] (main_arg0 : FVec F S50000x64 .f32) (main_arg1 : FVec F S50000 .f32) (main_arg2 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : IVec S1x800000 32 := (extractStridedSlice S1x800000 ![0, 0] · slices_S2x800000_S1x800000_0_0) main_arg2
  let main_v10 : IVec S800000 32 := shapeCast S800000 main_v9 shapeCasts_S1x800000_S800000
  let main_c_2 : IVec S_ 32 := constantI S_ 32 0#32
  let main_v11 : IVec S800000 32 := broadcastInDim S800000 ![] bcast_S_S800000 main_c_2
  let main_v12 : IVec S800000 1 := cmpi .sge main_v10 main_v11
  let main_c_3 : IVec S_ 1 := constantI S_ 1 1#1
  let main_v13 : IVec S_ 1 := (fun x v => Host.reduce IntOp.andi x v reducesTo_S800000_S_d0 h_S_) main_v12 main_c_3
  let main_v14 : IVec S_ 1 := andi main_v8 main_v13
  let main_v15 : IVec S1x800000 32 := (extractStridedSlice S1x800000 ![0, 0] · slices_S2x800000_S1x800000_0_0) main_arg2
  let main_v16 : IVec S800000 32 := shapeCast S800000 main_v15 shapeCasts_S1x800000_S800000
  let main_c_4 : IVec S_ 32 := constantI S_ 32 50000#32
  fn_part1 (F := F) main_v14 main_v16 main_c_4
-- ==== Kernel.lean ====
abbrev S50000x64 : Shape := ⟨2, ![50000, 64]⟩
abbrev S50000 : Shape := ⟨1, ![50000]⟩
abbrev S2x800000 : Shape := ⟨2, ![2, 800000]⟩
abbrev S_ : Shape := ⟨0, ![]⟩
abbrev S50176 : Shape := ⟨1, ![50176]⟩
abbrev S50176x1 : Shape := ⟨2, ![50176, 1]⟩
abbrev S50176x64 : Shape := ⟨2, ![50176, 64]⟩
abbrev S1x800000 : Shape := ⟨2, ![1, 800000]⟩
abbrev S800000 : Shape := ⟨1, ![800000]⟩
abbrev S800000x64 : Shape := ⟨2, ![800000, 64]⟩
abbrev S1x6400 : Shape := ⟨2, ![1, 6400]⟩
abbrev S1024x64 : Shape := ⟨2, ![1024, 64]⟩
abbrev S6400x64 : Shape := ⟨2, ![6400, 64]⟩
abbrev S1024x1 : Shape := ⟨2, ![1024, 1]⟩
abbrev S1024x6400 : Shape := ⟨2, ![1024, 6400]⟩

abbrev nBuf : Space → Nat
  | .hbm => 43
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S50000, .f32⟩
  | .hbm, ⟨2, _⟩ => ⟨S2x800000, .i32⟩
  | .hbm, ⟨3, _⟩ => ⟨S_, .f32⟩
  | .hbm, ⟨4, _⟩ => ⟨S50000, .f32⟩
  | .hbm, ⟨5, _⟩ => ⟨S50000, .f32⟩
  | .hbm, ⟨6, _⟩ => ⟨S_, .f32⟩
  | .hbm, ⟨7, _⟩ => ⟨S50000, .f32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50176, .f32⟩
  | .hbm, ⟨15, _⟩ => ⟨S50176x1, .f32⟩
  | .hbm, ⟨16, _⟩ => ⟨S50176x64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S50000x64, .bf16⟩
  | .hbm, ⟨24, _⟩ => ⟨S_, .i32⟩
  | .hbm, ⟨25, _⟩ => ⟨S_, .bf16⟩
  | .hbm, ⟨26, _⟩ => ⟨S50176x64, .bf16⟩
  | .hbm, ⟨27, _⟩ => ⟨S800000x64, .bf16⟩
  | .hbm, ⟨28, _⟩ => ⟨S_, .i32⟩
  | .hbm, ⟨29, _⟩ => ⟨S_, .f32⟩
  | .hbm, ⟨30, _⟩ => ⟨S50176x64, .f32⟩
  | .hbm, ⟨31, _⟩ => ⟨S50176x64, .f32⟩
  | .hbm, ⟨32, _⟩ => ⟨S50000x64, .f32⟩
  | .hbm, ⟨33, _⟩ => ⟨S50000x64, .bf16⟩
  | .hbm, ⟨34, _⟩ => ⟨S_, .i32⟩
  | .hbm, ⟨35, _⟩ => ⟨S_, .bf16⟩
  | .hbm, ⟨36, _⟩ => ⟨S50176x64, .bf16⟩
  | .hbm, ⟨37, _⟩ => ⟨S800000x64, .bf16⟩
  | .hbm, ⟨38, _⟩ => ⟨S_, .i32⟩
  | .hbm, ⟨39, _⟩ => ⟨S_, .f32⟩
  | .hbm, ⟨40, _⟩ => ⟨S50176x64, .f32⟩
  | .hbm, ⟨41, _⟩ => ⟨S50176x64, .f32⟩
  | .hbm, ⟨42, _⟩ => ⟨S50000x64, .f32⟩
  | .local _ .vmem, ⟨0, _⟩ => ⟨S1x6400, .i32⟩
  | .local _ .vmem, ⟨1, _⟩ => ⟨S1x6400, .i32⟩
  | .local _ .vmem, ⟨2, _⟩ => ⟨S1024x64, .bf16⟩
  | .local _ .vmem, ⟨3, _⟩ => ⟨S1024x64, .bf16⟩
  | .local _ .vmem, ⟨4, _⟩ => ⟨S6400x64, .bf16⟩
  | .local _ .vmem, ⟨5, _⟩ => ⟨S6400x64, .bf16⟩
  | .local _ .vmem, ⟨6, _⟩ => ⟨S6400x64, .f32⟩
  | .local _ .vmem, ⟨7, _⟩ => ⟨S1x6400, .i32⟩
  | .local _ .vmem, ⟨8, _⟩ => ⟨S1x6400, .i32⟩
  | .local _ .vmem, ⟨9, _⟩ => ⟨S6400x64, .bf16⟩
  | .local _ .vmem, ⟨10, _⟩ => ⟨S6400x64, .bf16⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1x6400, .i32⟩
  | .local _ .vmem, ⟨19, _⟩ => ⟨S1x6400, .i32⟩
  | .local _ .vmem, ⟨20, _⟩ => ⟨S1024x64, .bf16⟩
  | .local _ .vmem, ⟨21, _⟩ => ⟨S1024x64, .bf16⟩
  | .local _ .vmem, ⟨22, _⟩ => ⟨S6400x64, .bf16⟩
  | .local _ .vmem, ⟨23, _⟩ => ⟨S6400x64, .bf16⟩
  | .local _ .vmem, ⟨24, _⟩ => ⟨S6400x64, .f32⟩
  | .local _ .vmem, ⟨25, _⟩ => ⟨S1x6400, .i32⟩
  | .local _ .vmem, ⟨26, _⟩ => ⟨S1x6400, .i32⟩
  | .local _ .vmem, ⟨27, _⟩ => ⟨S6400x64, .bf16⟩
  | .local _ .vmem, ⟨28, _⟩ => ⟨S6400x64, .bf16⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call3_v0 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_call4_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![125, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6400x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 125], ![false, false]⟩

def k1_cond2 (i : grid1.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x6400 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S6400x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![125, 49], ![false, false]⟩

def k2_cond2 (i : grid2.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x6400 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S6400x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![49, 125], ![false, false]⟩

def k3_cond2 (i : grid3.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x6400 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S6400x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bcast_S_S50000 : S_.BroadcastsInDim S50000 (![] : Fin 0 → Fin S50000.rank)
  pads_S50000_S50176_01760 : S50000.Pads (![0] : Fin 1 → Nat) ![176] ![0] S50176
  h_S_ : 0 < S_.numel
  bcast_S50176_S50176x1_0 : S50176.BroadcastsInDim S50176x1 (![0] : Fin 1 → Fin S50176x1.rank)
  bcast_S50176x1_S50176x64_0_1 : S50176x1.BroadcastsInDim S50176x64 (![0, 1] : Fin 2 → Fin S50176x64.rank)
  slices_S2x800000_S1x800000_0_0 : S2x800000.Slices ![0, 0] S1x800000
  shapeCasts_S1x800000_S800000 : S1x800000.ShapeCasts S800000
  shapeCasts_S800000_S1x800000 : S800000.ShapeCasts S1x800000
  slices_S2x800000_S1x800000_1_0 : S2x800000.Slices ![1, 0] S1x800000
  bitsLt_bf16_f32 : FTy.bits .bf16 < FTy.bits .f32
  pads_S50000x64_S50176x64_01760_000 : S50000x64.Pads (![0, 0] : Fin 2 → Nat) ![176, 0] ![0, 0] S50176x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  iota_S1024x1_d0_w32 : S1024x1.Iotas .tc 32 [0]
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1024x1_S1024x6400 : S1024x1.Broadcasts S1024x6400
  broadcasts_S1x6400_S1024x6400 : S1x6400.Broadcasts S1024x6400
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S6400x64_S6400x64_0_0 : (Rect.unit (s := S6400x64) ![0, 0] S6400x64.size inb_S6400x64_S6400x64_0_0).PackedRows (EltTy.packing .bf16)
  slices_S50176x64_S50000x64_0_0 : S50176x64.Slices ![0, 0] S50000x64
  dot_S1024x6400_S1024x64_S6400x64_0_0_1_1_n_n_wf : DotDims.WF S1024x6400 S1024x64 S6400x64 [0] [0] [1] [1] [] []
  dot_S1024x6400_S6400x64_S1024x64_1_0_0_1_n_n_wf : DotDims.WF S1024x6400 S6400x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400.size a ≤ S1x800000.size a
  hwx0_0 : ∀ i : grid0.Coords, EltTy.bits .i32 = 32 ∨ (Rect.block (s := S1x800000) S1x6400.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S50176x64.size a
  hwx0_1 : ∀ i : grid0.Coords, EltTy.bits .bf16 = 32 ∨ (Rect.block (s := S50176x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S800000x64.size a
  hwx0_2 : ∀ i : grid0.Coords, EltTy.bits .bf16 = 32 ∨ (Rect.block (s := S800000x64) S6400x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6400.size a ≤ S1x800000.size a
  hwx1_0 : ∀ i : grid1.Coords, EltTy.bits .i32 = 32 ∨ (Rect.block (s := S1x800000) S1x6400.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S800000x64.size a
  hwx1_1 : ∀ i : grid1.Coords, EltTy.bits .bf16 = 32 ∨ (Rect.block (s := S800000x64) S6400x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .f32 = 32 ∨ (Rect.block (s := S50176x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S50176x64.size a
  hwx1_3 : ∀ i : grid1.Coords, EltTy.bits .f32 = 32 ∨ (Rect.block (s := S50176x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S50176x64.size a
  hwx1_4 : ∀ i : grid1.Coords, EltTy.bits .f32 = 32 ∨ (Rect.block (s := S50176x64) S1024x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x6400.size a ≤ S1x800000.size a
  hwx2_0 : ∀ i : grid2.Coords, EltTy.bits .i32 = 32 ∨ (Rect.block (s := S1x800000) S1x6400.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S50176x64.size a
  hwx2_1 : ∀ i : grid2.Coords, EltTy.bits .bf16 = 32 ∨ (Rect.block (s := S50176x64) S1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S800000x64.size a
  hwx2_2 : ∀ i : grid2.Coords, EltTy.bits .bf16 = 32 ∨ (Rect.block (s := S800000x64) S6400x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x6400.size a ≤ S1x800000.size a
  hwx3_0 : ∀ i : grid3.Coords, EltTy.bits .i32 = 32 ∨ (Rect.block (s := S1x800000) S1x6400.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x64.size a ≤ S800000x64.size a
  hwx3_1 : ∀ i : grid3.Coords, EltTy.bits .bf16 = 32 ∨ (Rect.block (s := S800000x64) S6400x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S50176x64.size a
  hwx3_2 : ∀ i : grid3.Coords, EltTy.bits .f32 = 32 ∨ (Rect.block (s := S50176x64) S1024x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S50176x64.size a
  hwx3_3 : ∀ i : grid3.Coords, EltTy.bits .f32 = 32 ∨ (Rect.block (s := S50176x64) S1024x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S50176x64.size a
  hwx3_4 : ∀ i : grid3.Coords, EltTy.bits .f32 = 32 ∨ (Rect.block (s := S50176x64) S1024x64.size (cc3_transform_4 i) (hinb3_4 i)).WholeWords (EltTy.packing .f32)

variable [Facts₀]

def dot_S1024x6400_S1024x64_S6400x64_0_0_1_1_n_n : DotDims S1024x6400 S1024x64 S6400x64 where
  lhsContracting := [0]
  rhsContracting := [0]
  lhsNonContracting := [1]
  rhsNonContracting := [1]
  lhsBatch := []
  rhsBatch := []
  wf := dot_S1024x6400_S1024x64_S6400x64_0_0_1_1_n_n_wf
def dot_S1024x6400_S6400x64_S1024x64_1_0_0_1_n_n : DotDims S1024x6400 S6400x64 S1024x64 where
  lhsContracting := [1]
  rhsContracting := [0]
  lhsNonContracting := [0]
  rhsNonContracting := [1]
  lhsBatch := []
  rhsBatch := []
  wf := dot_S1024x6400_S6400x64_S1024x64_1_0_0_1_n_n_wf

abbrev win0_0 : Pipeline.Window sig grid0 :=
  Pipeline.Window.ofSpec (Memref.whole main_v11) S1x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S6400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S1x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v11) S1x6400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v14) S1x6400.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S6400x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1024x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v25) S1024x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S50000 : Shape := ⟨1, ![50000]⟩
abbrev S2x800000 : Shape := ⟨2, ![2, 800000]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S50000x1 : Shape := ⟨2, ![50000, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000, .f32⟩
  | .hbm, ⟨2, _⟩ => ⟨S2x800000, .i32⟩
  | .hbm, ⟨3, _⟩ => ⟨S_, .f32⟩
  | .hbm, ⟨4, _⟩ => ⟨S50000, .f32⟩
  | .hbm, ⟨5, _⟩ => ⟨S50000, .f32⟩
  | .hbm, ⟨6, _⟩ => ⟨S_, .f32⟩
  | .hbm, ⟨7, _⟩ => ⟨S50000, .f32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Gather0.lean ====
/-
  Region 0 of the kernel's program: the one-hot gather, on a grid of 125 edge blocks by 49 node blocks.
  At grid point (i, j) the body compares the 1024 node numbers of block j with the 6400 source indices of edge
  block i, multiplies the resulting 0/1 matrix (transposed) with the node block's rows, and adds the product to
  an accumulator it keeps in a scratch buffer across the 49 points of a row of the grid: the accumulator is
  reset at j = 0 and written to the output block at j = 48.  This module names what the accumulator holds after
  every point, gives the pipeline's proof data over it, and proves the body obligation at every point.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid, and where the windows are idle -/

/-- The first branch's condition, from the grid coordinates: the node-block coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 49). -/
theorem hcond0_0 : ∀ t : Fin cfg0.N, cond0_0 (grid0.coords t) ↔ t.val % 49 = 0 :=
  (by decide +kernel : ∀ t : Fin grid0.N, cond0_0 (grid0.coords t) ↔ t.val % 49 = 0)

/-- The second branch's condition: the node-block coordinate is 48. -/
abbrev cond0_1 (i : grid0.Coords) : Prop := k0_cond2 i = 1#1
/-- It holds at the points ≡ 48 (mod 49). -/
theorem hcond0_1 : ∀ t : Fin cfg0.N, cond0_1 (grid0.coords t) ↔ t.val % 49 = 48 :=
  (by decide +kernel : ∀ t : Fin grid0.N, cond0_1 (grid0.coords t) ↔ t.val % 49 = 48)

/-- The two input windows are never idle. -/
theorem liveAt0_0 (t : Fin cfg0.N) : cfg0.idle 0 (grid0.coords t) = false := rfl
theorem liveAt0_1 (t : Fin cfg0.N) : cfg0.idle 1 (grid0.coords t) = false := rfl
/-- The output window is idle exactly where the second condition fails. -/
theorem idle0_2_eq (t : Fin cfg0.N) : cfg0.idle 2 (grid0.coords t) = !(k0_cond2 (grid0.coords t) == 1#1) := rfl
theorem idleAt0_2 (t : Fin cfg0.N) (h : t.val % 49 ≠ 48) : cfg0.idle 2 (grid0.coords t) = true := by
  rw [idle0_2_eq]
  have hc : ¬ k0_cond2 (grid0.coords t) = 1#1 := fun hc => h ((hcond0_1 t).mp hc)
  simp only [Bool.not_eq_true', beq_eq_false_iff_ne, ne_eq]; exact hc
theorem liveAt0_2 (t : Fin cfg0.N) (h : t.val % 49 = 48) : cfg0.idle 2 (grid0.coords t) = false := by
  rw [idle0_2_eq]
  have hc : k0_cond2 (grid0.coords t) = 1#1 := (hcond0_1 t).mpr h
  rw [hc]; rfl
/-- Away from the last point of a row the output block is not written back. -/
theorem noFlush0_2 (t : Fin cfg0.N) (h : t.val % 49 ≠ 48) : (cfg0.win 2).flush t = false :=
  Bool.eq_false_iff.mpr fun hf => h ((flush0_2 t).mp hf)

/-! ## The kernel function on whole memrefs, case by case -/

/-- Both offsets of every access of the body are zero. -/
theorem hz0 : (![0, 0] : Fin 2 → Nat) = fun _ => 0 := funext fun a => by fin_cases a <;> rfl

/-- One store through the whole buffer covers it. -/
theorem cover_whole0 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- The first point of a row: the accumulator, whatever it held, is reset to zero and then updated; nothing else is written. -/
theorem run0_first (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : cond0_0 i) (hc1 : ¬cond0_1 i)
    (x0 : Vec F S1x6400 .i32) (x1 : Vec F S1024x64 .bf16) (xo : Vec F S6400x64 .bf16)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k0_pay2 i x0 (k0_pay1 (F := F)) x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  sl_unfold_words
  rw [View.read_writes_eq_canon _ _ _ (cover_whole0 hz0 _ _ _), View.canon_cons_unit_zero (S := S6400x64) hz0,
    View.readCov_unit_zero (S := S6400x64) _ hz0]
  simp only [View.readAt_eq_ld, harg2.read_unread, harg3.read_unread,
    View.ld_unit_zero (S := S1x6400) hz0, View.ld_unit_zero (S := S1024x64) hz0]

set_option maxHeartbeats 1000000 in
/-- A point that is neither the first nor the last of its row: the accumulator is updated, nothing else is written. -/
theorem run0_mid (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond0_0 i) (hc1 : ¬cond0_1 i)
    (x0 : Vec F S1x6400 .i32) (x1 : Vec F S1024x64 .bf16) (xo : Vec F S6400x64 .bf16) (xs : Vec F S6400x64 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  rw [View.read_writes_eq_canon _ _ _ (cover_whole0 hz0 _ _ _), View.canon_unit_zero hz0]
  simp only [View.readAt_eq_ld, harg2.read_unread, harg3.read_unread, harg5.read_unread,
    View.ld_unit_zero (S := S1x6400) hz0, View.ld_unit_zero (S := S1024x64) hz0, View.ld_unit_zero (S := S6400x64) hz0]

set_option maxHeartbeats 1000000 in
/-- The last point of a row: the accumulator is updated and, rounded, stored over the whole output block. -/
theorem run0_last (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond0_0 i) (hc1 : cond0_1 i)
    (x0 : Vec F S1x6400 .i32) (x1 : Vec F S1024x64 .bf16) (xs : Vec F S6400x64 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 i x0 xs x1)) ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [View.read_writes_eq_canon _ _ _ (cover_whole0 hz0 _ _ _), View.canon_unit_zero hz0,
      View.readCov_unit_zero (S := S6400x64) _ hz0]
    simp only [View.readAt_eq_ld, harg2.read_unread, harg3.read_unread, harg5.read_unread,
      View.ld_unit_zero (S := S1x6400) hz0, View.ld_unit_zero (S := S1024x64) hz0, View.ld_unit_zero (S := S6400x64) hz0]
  iexists _; isplitr
  swap; · iexact HS
  ipureintro
  sl_unfold_words
  rw [View.read_writes_eq_canon _ _ _ (cover_whole0 hz0 _ _ _), View.canon_unit_zero hz0]
  simp only [View.readAt_eq_ld, harg2.read_unread, harg3.read_unread, harg5.read_unread,
    View.ld_unit_zero (S := S1x6400) hz0, View.ld_unit_zero (S := S1024x64) hz0, View.ld_unit_zero (S := S6400x64) hz0]

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source indices of the point's edge block, and the rows of its node block, at their literal types. -/
abbrev srcBlk0 (c : Dev nD) (t : Fin cfg0.N) : Vec F S1x6400 .i32 := iblk0 V c 0 t
abbrev rowBlk0 (c : Dev nD) (t : Fin cfg0.N) : Vec F S1024x64 .bf16 := iblk0 V c 1 t

/-- What the accumulator holds after the body at position `n`: the point's product added to zero at the first
    point of a row of the grid (n ≡ 0 mod 49), and to what the point before left otherwise. -/
def acc0 (c : Dev nD) : (n : ℕ) → n < cfg0.N → Vec F S6400x64 .f32
  | 0, hn => k0_pay2 (grid0.coords ⟨0, hn⟩) (srcBlk0 V c ⟨0, hn⟩) (k0_pay1 (F := F)) (rowBlk0 V c ⟨0, hn⟩)
  | n + 1, hn => k0_pay2 (grid0.coords ⟨n + 1, hn⟩) (srcBlk0 V c ⟨n + 1, hn⟩)
      (if (n + 1) % 49 = 0 then k0_pay1 (F := F) else acc0 c n (Nat.lt_of_succ_lt hn)) (rowBlk0 V c ⟨n + 1, hn⟩)

theorem acc0_first (c : Dev nD) (t : Fin cfg0.N) (h : t.val % 49 = 0) :
    acc0 V c t.val t.isLt = k0_pay2 (grid0.coords t) (srcBlk0 V c t) (k0_pay1 (F := F)) (rowBlk0 V c t) := by
  obtain ⟨n, hn⟩ := t
  cases n with
  | zero => rfl
  | succ n =>
    have h' : (n + 1) % 49 = 0 := h
    show acc0 V c (n + 1) hn = _
    rw [acc0, if_pos h']

theorem acc0_next (c : Dev nD) (t : Fin cfg0.N) (h : t.val % 49 ≠ 0) :
    acc0 V c t.val t.isLt = k0_pay2 (grid0.coords t) (srcBlk0 V c t)
      (acc0 V c (t.val - 1) (Nat.lt_of_le_of_lt (Nat.sub_le _ _) t.isLt)) (rowBlk0 V c t) := by
  obtain ⟨n, hn⟩ := t
  cases n with
  | zero => exact absurd (Nat.zero_mod 49) h
  | succ n =>
    have h' : ¬ (n + 1) % 49 = 0 := h
    show acc0 V c (n + 1) hn = _
    rw [acc0, if_neg h']
    rfl

/-- The scratch operand, whole. -/
abbrev scM0 : Memref sig .tc .vmem S6400x64 .f32 := Memref.whole cc0_scratch0

/-- The region invariant before position `n`: before the first point what the launch hands the region (every scoped
    buffer that is no staging buffer at anything, the generator register at some state); afterwards the scratch at what
    the point before left in it, the other such buffers unopened, and the register. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The body obligation, at a generic point -/

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Each window's current staging memref at point `t`, at its literal type, and its wholeness. -/
abbrev ms0_0 (t : Fin cfg0.N) : Memref sig .tc .vmem S1x6400 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6400x64 .bf16 := win0_2.stage (cfg0.slots t 2)
abbrev hs0_2 (t : Fin cfg0.N) : (ms0_2 t).IsWhole := hstage0_2 ((cfg0.slots t 2).cast nbuf0_2)

/-- What the launch hands the region, with the scratch split off the scoped rest and owned at some contents. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; try rfl

theorem Phi0_zero (c : Dev nD) (n : ℕ) (h : n ≤ cfg0.N) (hz : n = 0) : Phi0 V c n h = Pipeline.ΦA spec0 c := by
  subst hz; rfl

/-- Before a position that is not the first: the scratch at what the point before left. -/
theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem Phi0_castSucc (c : Dev nD) (t : Fin cfg0.N) :
    (dat0 V c).Φ t.castSucc = Phi0 V c t.val (Nat.le_of_lt t.isLt) := by
  first | rfl | (dsimp only [dat0]; simp only [Fin.coe_castSucc])

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position in its row of the grid says which of
    the three runs applies; the invariant hands the body the scratch at what the point before left (at anything at the first
    point of a row) and takes it back at this point's accumulator; the output block is handed back as found except at the
    last point of a row, where it holds the rounded accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(owns (c : Thread nD τ) scM0 fullShare (acc0 V c t.val t.isLt)
      ∗ Pipeline.scopedRestBut (Ix := Unit) (Name := ℕ) (U := UR sig nD τ) (Lvl := ℕ) (Val := Elt F) spec0 c [cc0_scratch0]
      ∗ (∃ r, prngReg c r)) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 6125 := lt_of_lt_of_eq t.isLt (show cfg0.N = 6125 from N_0)
  by_cases h0 : t.val % 49 = 0
  · have h1 : t.val % 49 ≠ 48 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t h1) (noFlush0_2 t h1)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨HS, HR, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    by_cases h1 : t.val % 49 = 48
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t h1], after0_2]
      rw [acc0_next V c t h0]
      rw [Phi0_castSucc V c t, Phi0_pos V c _ _ hz]
      iintro ⟨⟨HS, HR, Hg⟩, Ho, ⟨%d0, H0⟩, ⟨%d1, H1⟩, ⟨%d2, H2⟩⟩
      iapply (run0_last c (grid0.coords t) _ _ _ _ _ _ _ _ hc0 hc1 (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t h1) (noFlush0_2 t h1)]
      rw [acc0_next V c t h0]
      rw [Phi0_castSucc V c t, Phi0_pos V c _ _ hz]
      iintro ⟨⟨HS, HR, Hg⟩, Ho, ⟨%d0, H0⟩, ⟨%d1, H1⟩, ⟨%d2, H2⟩⟩
      iapply (run0_mid c (grid0.coords t) _ _ _ _ _ _ _ _ hc0 hc1 (iblk0 V c 0 t) (iblk0 V c 1 t) _
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  first | done | exact Idealize.SL.BI.Entails.refl _

/-- After any position but the first the invariant gives back what the launch handed the region. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, HR, Hg⟩
  isplitl [HS HR]
  · isplitl [HS]
    · iexists _; iexact HS
    iexact HR
  iexact Hg

/-- After the last point the invariant gives it back, the accumulator's contents forgotten. -/
theorem hout0 (c : Dev nD) : (dat0 V c).Φ (Fin.last cfg0.N) ⊢ Pipeline.ΦA spec0 c := by
  exact Phi0_out V c _ (by rw [Fin.val_last]; have : cfg0.N = 6125 := N_0; omega)

end Region0

end Cert.KernelIdeal.Hand

end
-- ==== Proof.Scatter1.lean ====
/-
  Region 1 of the kernel's program: the one-hot scatter-add and the closing scaling, on a grid of 49 node blocks by
  125 edge blocks.  At grid point (n, e) the body compares the 1024 node numbers of block n with the 6400
  destination indices of edge block e, multiplies the resulting 0/1 matrix with the edge block's gathered rows,
  and adds the product to an accumulator it keeps in a scratch buffer across the 125 points of a row of the grid:
  the accumulator is reset at e = 0, and at e = 124 the output block is (rows + 1/2 · accumulator) · scale.  This
  module names what the accumulator holds after every point, gives the pipeline's proof data over it, and proves
  the body obligation at every point.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions and where the output window is idle -/

/-- The first branch condition of the body, from the grid coordinates. -/
abbrev cond1_0 (i : grid1.Coords) : Prop := (Scalar.cmpi .ne (Scalar.extui (Scalar.cmpi .eq (BitVec.ofNat 32 (i 1).val) 0#32)) 0#32) = 1#1
/-- The second. -/
abbrev cond1_1 (i : grid1.Coords) : Prop := k1_cond2 i = 1#1

/-- The second grid coordinate of point `t` is `t` modulo 125. -/
theorem coord1_1 (t : Fin cfg1.N) : (grid1.coords t 1).val = t.val % 125 := by
  show t.val / grid1.stride 1 % grid1.bound 1 = t.val % 125
  rw [show grid1.stride 1 = 1 from by decide, show grid1.bound 1 = 125 from by decide, Nat.div_one]

/-- The first condition holds exactly at coordinate 0 (decided over the 125 values of the coordinate). -/
theorem hcond1_0' : ∀ x : Fin 125, ((Scalar.cmpi .ne (Scalar.extui (Scalar.cmpi .eq (BitVec.ofNat 32 x.val) 0#32)) 0#32) = 1#1) ↔ x.val = 0 := by
  decide +kernel

/-- So it holds at the points ≡ 0 (mod 125). -/
theorem hcond1_0 (t : Fin cfg1.N) : cond1_0 (grid1.coords t) ↔ t.val % 125 = 0 := by
  rw [← coord1_1 t]
  exact hcond1_0' (grid1.coords t 1)

/-- The second condition holds exactly at coordinate 124. -/
theorem hcond1_1' : ∀ x : Fin 125, ((Scalar.cmpi .ne (Scalar.extui (Scalar.cmpi .eq (BitVec.ofNat 32 x.val) 124#32)) 0#32) = 1#1) ↔ x.val = 124 := by
  decide +kernel

/-- So it holds at the points ≡ 124 (mod 125). -/
theorem hcond1_1 (t : Fin cfg1.N) : cond1_1 (grid1.coords t) ↔ t.val % 125 = 124 := by
  rw [← coord1_1 t]
  exact hcond1_1' (grid1.coords t 1)

/-- No input window is ever idle. -/
theorem live1_in (w : Fin cfg1.W) (hw : w ≠ 4) (i : grid1.Coords) : cfg1.idle w i = false := by
  fin_cases w <;> first | rfl | exact absurd rfl hw

/-- The output window is idle exactly where the second condition fails. -/
theorem idle1_4 (i : grid1.Coords) : cfg1.idle 4 i = !(k1_cond2 i == 1#1) := rfl

theorem idleAt1_4 (t : Fin cfg1.N) (h : t.val % 125 ≠ 124) : cfg1.idle 4 (grid1.coords t) = true := by
  rw [idle1_4]; have := mt (hcond1_1 t).mp h
  simpa using this

theorem liveAt1_4 (t : Fin cfg1.N) (h : t.val % 125 = 124) : cfg1.idle 4 (grid1.coords t) = false := by
  rw [idle1_4]; have := (hcond1_1 t).mpr h
  simpa using this

/-- Off the points ≡ 124 (mod 125) the output block is not written back. -/
theorem noFlush1_4 (t : Fin cfg1.N) (h : t.val % 125 ≠ 124) : (cfg1.win 4).flush t = false := by
  have := mt (flush1_4 t).mp h
  simpa using this

/-! ## The body on any whole memrefs, case by case -/

/-- The zero offsets, however spelt. -/
theorem hzero1 : (![0, 0] : Fin 2 → ℕ) = fun _ => 0 := by funext a; fin_cases a <;> rfl

/-- A store of the whole block, last, covers it. -/
theorem cover1_acc (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons.mpr (Or.inl rfl), View.mem_set_unit_zero hzero1 inb_S1024x64_S1024x64_0_0 y⟩

set_option maxHeartbeats 1000000 in
/-- The body at a point where the second grid coordinate is 0, on whole memrefs: the destination indices at `x0`, the gathered
    rows at `x1`, the scratch at anything. It resets the scratch to zero and adds the point's product, so the scratch is left
    at `k1_pay2 i x0 k1_pay1 x1`; the two inputs are as they were, and the other operands are not touched. -/
theorem run1_first (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1x6400 .i32) (x1 : Vec F S6400x64 .bf16) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 i x0 (k1_pay1 (F := F)) x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (cover1_acc _ _), View.canon_cons_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

set_option maxHeartbeats 1000000 in
/-- The body at a point where the second grid coordinate is neither 0 nor 124: the scratch, at `xs`, is left at
    `k1_pay2 i x0 xs x1`; the two inputs are as they were, and the other operands are not touched. -/
theorem run1_mid (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1x6400 .i32) (x1 : Vec F S6400x64 .bf16) (xs : Vec F S1024x64 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 i x0 xs x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1_acc _ _), View.canon_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

set_option maxHeartbeats 1000000 in
/-- The body at a point where the second grid coordinate is 124: the scratch, at `xs`, is left at `k1_pay2 i x0 xs x1`, and the
    output block, at anything before, is left at `k1_pay3` of the node rows `x2`, that accumulator and the scale `x3`; the
    four inputs are as they were. -/
theorem run1_last (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1x6400 .i32) (x1 : Vec F S6400x64 .bf16) (x2 x3 xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay3 x2 (k1_pay2 i x0 xs x1) x3)
            ∗ owns (c : Thread nD τ) arg7 fullShare (k1_pay2 i x0 xs x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover1_acc _ _), View.canon_unit_zero hzero1]
    simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]
  iexists _; isplitr
  swap; · iexact HS
  ipureintro
  sl_unfold_words
  rw [View.read_writes_eq_canon _ _ _ (cover1_acc _ _), View.canon_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's blocks at their literal types: the destination indices of its edge block, the gathered rows of that
    edge block, the node block's own rows, and the node block's scale. -/
abbrev dstBlk1 (c : Dev nD) (t : Fin cfg1.N) : Vec F S1x6400 .i32 := iblk1 V c 0 t
abbrev gatBlk1 (c : Dev nD) (t : Fin cfg1.N) : Vec F S6400x64 .bf16 := iblk1 V c 1 t
abbrev rowBlk1 (c : Dev nD) (t : Fin cfg1.N) : Vec F S1024x64 .f32 := iblk1 V c 2 t
abbrev sclBlk1 (c : Dev nD) (t : Fin cfg1.N) : Vec F S1024x64 .f32 := iblk1 V c 3 t

/-- What the accumulator holds after the body at position `n`: the point's product added to zero at the first
    point of a row of the grid (n ≡ 0 mod 125), and to what the point before left otherwise. -/
def acc1 (c : Dev nD) : (n : ℕ) → n < cfg1.N → Vec F S1024x64 .f32
  | 0, hn => k1_pay2 (grid1.coords ⟨0, hn⟩) (dstBlk1 V c ⟨0, hn⟩) (k1_pay1 (F := F)) (gatBlk1 V c ⟨0, hn⟩)
  | n + 1, hn => k1_pay2 (grid1.coords ⟨n + 1, hn⟩) (dstBlk1 V c ⟨n + 1, hn⟩)
      (if (n + 1) % 125 = 0 then k1_pay1 (F := F) else acc1 c n (Nat.lt_of_succ_lt hn)) (gatBlk1 V c ⟨n + 1, hn⟩)

theorem acc1_first (c : Dev nD) (t : Fin cfg1.N) (h : t.val % 125 = 0) :
    acc1 V c t.val t.isLt = k1_pay2 (grid1.coords t) (dstBlk1 V c t) (k1_pay1 (F := F)) (gatBlk1 V c t) := by
  obtain ⟨n, hn⟩ := t
  cases n with
  | zero => rfl
  | succ n =>
    have h' : (n + 1) % 125 = 0 := h
    show k1_pay2 _ _ (if (n + 1) % 125 = 0 then k1_pay1 (F := F) else acc1 V c n _) _ = _
    rw [if_pos h']

theorem acc1_next (c : Dev nD) (t : Fin cfg1.N) (h : t.val % 125 ≠ 0) :
    acc1 V c t.val t.isLt = k1_pay2 (grid1.coords t) (dstBlk1 V c t)
      (acc1 V c (t.val - 1) (Nat.lt_of_le_of_lt (Nat.sub_le _ _) t.isLt)) (gatBlk1 V c t) := by
  obtain ⟨n, hn⟩ := t
  cases n with
  | zero => exact absurd (Nat.zero_mod _) h
  | succ n =>
    have h' : ¬ (n + 1) % 125 = 0 := h
    show k1_pay2 _ _ (if (n + 1) % 125 = 0 then k1_pay1 (F := F) else acc1 V c n _) _ = _
    rw [if_neg h']
    rfl

/-- The scratch operand, whole. -/
abbrev scM1 : Memref sig .tc .vmem S1024x64 .f32 := Memref.whole cc1_scratch0

/-- The region invariant before position `n`: before the first point what the launch hands the region (every scoped
    buffer that is no staging buffer at anything, the generator register at some state); afterwards the scratch at what
    the point before left in it, the other such buffers unopened, and the register. -/
def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- Before a position that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- What the launch hands the region, with the scratch as a memref owned at some contents. -/
theorem PhiA1_eq (c : Dev nD) :
    (Pipeline.ΦA spec1 c : sProp 𝕄)
      = iprop(iprop(iprop(∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (rowBlk1 V c t) (acc1 V c t.val t.isLt) (sclBlk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (rowBlk1 V c t) (acc1 V c t.val t.isLt) (sclBlk1 V c t) := by dsimp only [dat1]

/-- No input window is ever idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- After point `n` the scratch holds that point's accumulator. -/
theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_zero (c : Dev nD) (n : ℕ) (h : n ≤ cfg1.N) (hz : n = 0) : Phi1 V c n h = Pipeline.ΦA spec1 c := by
  subst hz; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the three cases of the second grid coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).Φ t.castSucc = Phi1 V c t.val (Nat.le_of_lt t.isLt) from rfl]
  have hN : t.val < 6125 := lt_of_lt_of_eq t.isLt (show cfg1.N = 6125 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 125 = 0
  · have h1 : t.val % 125 ≠ 124 := by omega
    rw [Dat.leavesExact_idle (dat1 V c) 4 t (idleAt1_4 t h1) (noFlush1_4 t h1)]
    rw [acc1_first V c t h0]
    by_cases hz : t.val = 0
    · rw [Phi1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((hcond1_0 t).mpr h0) (fun h => h1 ((hcond1_1 t).mp h)) (dstBlk1 V c t) (gatBlk1 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi1_pos V c _ _ hz]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((hcond1_0 t).mpr h0) (fun h => h1 ((hcond1_1 t).mp h)) (dstBlk1 V c t) (gatBlk1 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi1_pos V c _ _ hz, acc1_next V c t h0]
    by_cases h1 : t.val % 125 = 124
    · rw [show (dat1 V c).leavesExact 4 t = owns (c : Thread nD τ) (st1_4 t) fullShare ((dat1 V c).after 4 t) from by
        unfold Dat.leavesExact; rw [liveAt1_4 t h1], after1_4, acc1_next V c t h0]
      iintro ⟨⟨HS, HR, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((hcond1_0 t).mp h)) ((hcond1_1 t).mpr h1) (dstBlk1 V c t) (gatBlk1 V c t) (rowBlk1 V c t) (sclBlk1 V c t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      iintro ⟨⟨HS, HR, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h)) (dstBlk1 V c t) (gatBlk1 V c t)
        (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl]
  exact Idealize.SL.BI.Entails.refl _

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 6125 := N_1; omega), PhiA1_eq]
  iintro ⟨HS, HR, Hg⟩
  isplitl [HS HR]
  · isplitl [HS]
    · iexists _; iexact HS
    iexact HR
  iexact Hg

end Region1

end Cert.KernelIdeal.Hand

end
-- ==== Proof.Gather2.lean ====
/-
  Region 0 of the kernel's program: the one-hot gather, on a grid of 125 edge blocks by 49 node blocks.
  At grid point (i, j) the body compares the 1024 node numbers of block j with the 6400 source indices of edge
  block i, multiplies the resulting 0/1 matrix (transposed) with the node block's rows, and adds the product to
  an accumulator it keeps in a scratch buffer across the 49 points of a row of the grid: the accumulator is
  reset at j = 0 and written to the output block at j = 48.  This module names what the accumulator holds after
  every point, gives the pipeline's proof data over it, and proves the body obligation at every point.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid, and where the windows are idle -/

/-- The first branch's condition, from the grid coordinates: the node-block coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 49). -/
theorem hcond2_0 : ∀ t : Fin cfg2.N, cond2_0 (grid2.coords t) ↔ t.val % 49 = 0 :=
  (by decide +kernel : ∀ t : Fin grid2.N, cond2_0 (grid2.coords t) ↔ t.val % 49 = 0)

/-- The second branch's condition: the node-block coordinate is 48. -/
abbrev cond2_1 (i : grid2.Coords) : Prop := k2_cond2 i = 1#1
/-- It holds at the points ≡ 48 (mod 49). -/
theorem hcond2_1 : ∀ t : Fin cfg2.N, cond2_1 (grid2.coords t) ↔ t.val % 49 = 48 :=
  (by decide +kernel : ∀ t : Fin grid2.N, cond2_1 (grid2.coords t) ↔ t.val % 49 = 48)

/-- The two input windows are never idle. -/
theorem liveAt2_0 (t : Fin cfg2.N) : cfg2.idle 0 (grid2.coords t) = false := rfl
theorem liveAt2_1 (t : Fin cfg2.N) : cfg2.idle 1 (grid2.coords t) = false := rfl
/-- The output window is idle exactly where the second condition fails. -/
theorem idle2_2_eq (t : Fin cfg2.N) : cfg2.idle 2 (grid2.coords t) = !(k2_cond2 (grid2.coords t) == 1#1) := rfl
theorem idleAt2_2 (t : Fin cfg2.N) (h : t.val % 49 ≠ 48) : cfg2.idle 2 (grid2.coords t) = true := by
  rw [idle2_2_eq]
  have hc : ¬ k2_cond2 (grid2.coords t) = 1#1 := fun hc => h ((hcond2_1 t).mp hc)
  simp only [Bool.not_eq_true', beq_eq_false_iff_ne, ne_eq]; exact hc
theorem liveAt2_2 (t : Fin cfg2.N) (h : t.val % 49 = 48) : cfg2.idle 2 (grid2.coords t) = false := by
  rw [idle2_2_eq]
  have hc : k2_cond2 (grid2.coords t) = 1#1 := (hcond2_1 t).mpr h
  rw [hc]; rfl
/-- Away from the last point of a row the output block is not written back. -/
theorem noFlush2_2 (t : Fin cfg2.N) (h : t.val % 49 ≠ 48) : (cfg2.win 2).flush t = false :=
  Bool.eq_false_iff.mpr fun hf => h ((flush2_2 t).mp hf)

/-! ## The kernel function on whole memrefs, case by case -/

/-- Both offsets of every access of the body are zero. -/
theorem hz2 : (![0, 0] : Fin 2 → Nat) = fun _ => 0 := funext fun a => by fin_cases a <;> rfl

/-- One store through the whole buffer covers it. -/
theorem cover_whole2 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- The first point of a row: the accumulator, whatever it held, is reset to zero and then updated; nothing else is written. -/
theorem run2_first (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : cond2_0 i) (hc1 : ¬cond2_1 i)
    (x0 : Vec F S1x6400 .i32) (x1 : Vec F S1024x64 .bf16) (xo : Vec F S6400x64 .bf16)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k2_pay2 i x0 (k2_pay1 (F := F)) x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  sl_unfold_words
  rw [View.read_writes_eq_canon _ _ _ (cover_whole2 hz2 _ _ _), View.canon_cons_unit_zero (S := S6400x64) hz2,
    View.readCov_unit_zero (S := S6400x64) _ hz2]
  simp only [View.readAt_eq_ld, harg2.read_unread, harg3.read_unread,
    View.ld_unit_zero (S := S1x6400) hz2, View.ld_unit_zero (S := S1024x64) hz2]

set_option maxHeartbeats 1000000 in
/-- A point that is neither the first nor the last of its row: the accumulator is updated, nothing else is written. -/
theorem run2_mid (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond2_0 i) (hc1 : ¬cond2_1 i)
    (x0 : Vec F S1x6400 .i32) (x1 : Vec F S1024x64 .bf16) (xo : Vec F S6400x64 .bf16) (xs : Vec F S6400x64 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k2_pay2 i x0 xs x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  rw [View.read_writes_eq_canon _ _ _ (cover_whole2 hz2 _ _ _), View.canon_unit_zero hz2]
  simp only [View.readAt_eq_ld, harg2.read_unread, harg3.read_unread, harg5.read_unread,
    View.ld_unit_zero (S := S1x6400) hz2, View.ld_unit_zero (S := S1024x64) hz2, View.ld_unit_zero (S := S6400x64) hz2]

set_option maxHeartbeats 1000000 in
/-- The last point of a row: the accumulator is updated and, rounded, stored over the whole output block. -/
theorem run2_last (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond2_0 i) (hc1 : cond2_1 i)
    (x0 : Vec F S1x6400 .i32) (x1 : Vec F S1024x64 .bf16) (xs : Vec F S6400x64 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k2_pay3 (k2_pay2 i x0 xs x1)) ∗ owns (c : Thread nD τ) arg5 fullShare (k2_pay2 i x0 xs x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [View.read_writes_eq_canon _ _ _ (cover_whole2 hz2 _ _ _), View.canon_unit_zero hz2,
      View.readCov_unit_zero (S := S6400x64) _ hz2]
    simp only [View.readAt_eq_ld, harg2.read_unread, harg3.read_unread, harg5.read_unread,
      View.ld_unit_zero (S := S1x6400) hz2, View.ld_unit_zero (S := S1024x64) hz2, View.ld_unit_zero (S := S6400x64) hz2]
  iexists _; isplitr
  swap; · iexact HS
  ipureintro
  sl_unfold_words
  rw [View.read_writes_eq_canon _ _ _ (cover_whole2 hz2 _ _ _), View.canon_unit_zero hz2]
  simp only [View.readAt_eq_ld, harg2.read_unread, harg3.read_unread, harg5.read_unread,
    View.ld_unit_zero (S := S1x6400) hz2, View.ld_unit_zero (S := S1024x64) hz2, View.ld_unit_zero (S := S6400x64) hz2]

section Region0
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source indices of the point's edge block, and the rows of its node block, at their literal types. -/
abbrev srcBlk2 (c : Dev nD) (t : Fin cfg2.N) : Vec F S1x6400 .i32 := iblk2 V c 0 t
abbrev rowBlk2 (c : Dev nD) (t : Fin cfg2.N) : Vec F S1024x64 .bf16 := iblk2 V c 1 t

/-- What the accumulator holds after the body at position `n`: the point's product added to zero at the first
    point of a row of the grid (n ≡ 0 mod 49), and to what the point before left otherwise. -/
def acc2 (c : Dev nD) : (n : ℕ) → n < cfg2.N → Vec F S6400x64 .f32
  | 0, hn => k2_pay2 (grid2.coords ⟨0, hn⟩) (srcBlk2 V c ⟨0, hn⟩) (k2_pay1 (F := F)) (rowBlk2 V c ⟨0, hn⟩)
  | n + 1, hn => k2_pay2 (grid2.coords ⟨n + 1, hn⟩) (srcBlk2 V c ⟨n + 1, hn⟩)
      (if (n + 1) % 49 = 0 then k2_pay1 (F := F) else acc2 c n (Nat.lt_of_succ_lt hn)) (rowBlk2 V c ⟨n + 1, hn⟩)

theorem acc2_first (c : Dev nD) (t : Fin cfg2.N) (h : t.val % 49 = 0) :
    acc2 V c t.val t.isLt = k2_pay2 (grid2.coords t) (srcBlk2 V c t) (k2_pay1 (F := F)) (rowBlk2 V c t) := by
  obtain ⟨n, hn⟩ := t
  cases n with
  | zero => rfl
  | succ n =>
    have h' : (n + 1) % 49 = 0 := h
    show acc2 V c (n + 1) hn = _
    rw [acc2, if_pos h']

theorem acc2_next (c : Dev nD) (t : Fin cfg2.N) (h : t.val % 49 ≠ 0) :
    acc2 V c t.val t.isLt = k2_pay2 (grid2.coords t) (srcBlk2 V c t)
      (acc2 V c (t.val - 1) (Nat.lt_of_le_of_lt (Nat.sub_le _ _) t.isLt)) (rowBlk2 V c t) := by
  obtain ⟨n, hn⟩ := t
  cases n with
  | zero => exact absurd (Nat.zero_mod 49) h
  | succ n =>
    have h' : ¬ (n + 1) % 49 = 0 := h
    show acc2 V c (n + 1) hn = _
    rw [acc2, if_neg h']
    rfl

/-- The scratch operand, whole. -/
abbrev scM2 : Memref sig .tc .vmem S6400x64 .f32 := Memref.whole cc2_scratch0

/-- The region invariant before position `n`: before the first point what the launch hands the region (every scoped
    buffer that is no staging buffer at anything, the generator register at some state); afterwards the scratch at what
    the point before left in it, the other such buffers unopened, and the register. -/
def Phi2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data of pipeline 0 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-! ## The body obligation, at a generic point -/

/-- Each input's current staging buffer holds its block at every point, fetched there or not: unfetched, the block
    index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Each window's current staging memref at point `t`, at its literal type, and its wholeness. -/
abbrev ms2_0 (t : Fin cfg2.N) : Memref sig .tc .vmem S1x6400 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6400x64 .bf16 := win2_2.stage (cfg2.slots t 2)
abbrev hs2_2 (t : Fin cfg2.N) : (ms2_2 t).IsWhole := hstage2_2 ((cfg2.slots t 2).cast nbuf2_2)

/-- What the launch hands the region, with the scratch split off the scoped rest and owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

theorem Phi2_zero (c : Dev nD) (n : ℕ) (h : n ≤ cfg2.N) (hz : n = 0) : Phi2 V c n h = Pipeline.ΦA spec2 c := by
  subst hz; rfl

/-- Before a position that is not the first: the scratch at what the point before left. -/
theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  first | rfl | (dsimp only [dat2]; simp only [Fin.coe_castSucc])

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's position in its row of the grid says which of
    the three runs applies; the invariant hands the body the scratch at what the point before left (at anything at the first
    point of a row) and takes it back at this point's accumulator; the output block is handed back as found except at the
    last point of a row, where it holds the rounded accumulator; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(owns (c : Thread nD τ) scM2 fullShare (acc2 V c t.val t.isLt)
      ∗ Pipeline.scopedRestBut (Ix := Unit) (Name := ℕ) (U := UR sig nD τ) (Lvl := ℕ) (Val := Elt F) spec2 c [cc2_scratch0]
      ∗ (∃ r, prngReg c r)) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 6125 := lt_of_lt_of_eq t.isLt (show cfg2.N = 6125 from N_2)
  by_cases h0 : t.val % 49 = 0
  · have h1 : t.val % 49 ≠ 48 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t h1) (noFlush2_2 t h1)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩⟩
      iapply (run2_first c (grid2.coords t) _ _ _ _ _ _ _ _ hc0 hc1 (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi2_castSucc V c t, Phi2_pos V c _ _ hz]
      iintro ⟨⟨HS, HR, Hg⟩, Ho, ⟨%d0, H0⟩, ⟨%d1, H1⟩, ⟨%d2, H2⟩⟩
      iapply (run2_first c (grid2.coords t) _ _ _ _ _ _ _ _ hc0 hc1 (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    have hc0 : ¬cond2_0 (grid2.coords t) := fun h => h0 ((hcond2_0 t).mp h)
    by_cases h1 : t.val % 49 = 48
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t h1], after2_2]
      rw [acc2_next V c t h0]
      rw [Phi2_castSucc V c t, Phi2_pos V c _ _ hz]
      iintro ⟨⟨HS, HR, Hg⟩, Ho, ⟨%d0, H0⟩, ⟨%d1, H1⟩, ⟨%d2, H2⟩⟩
      iapply (run2_last c (grid2.coords t) _ _ _ _ _ _ _ _ hc0 hc1 (iblk2 V c 0 t) (iblk2 V c 1 t)
        (acc2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t h1) (noFlush2_2 t h1)]
      rw [acc2_next V c t h0]
      rw [Phi2_castSucc V c t, Phi2_pos V c _ _ hz]
      iintro ⟨⟨HS, HR, Hg⟩, Ho, ⟨%d0, H0⟩, ⟨%d1, H1⟩, ⟨%d2, H2⟩⟩
      iapply (run2_mid c (grid2.coords t) _ _ _ _ _ _ _ _ hc0 hc1 (iblk2 V c 0 t) (iblk2 V c 1 t) _
        (acc2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]
  first | done | exact Idealize.SL.BI.Entails.refl _

/-- After any position but the first the invariant gives back what the launch handed the region. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨HS, HR, Hg⟩
  isplitl [HS HR]
  · isplitl [HS]
    · iexists _; iexact HS
    iexact HR
  iexact Hg

/-- After the last point the invariant gives it back, the accumulator's contents forgotten. -/
theorem hout2 (c : Dev nD) : (dat2 V c).Φ (Fin.last cfg2.N) ⊢ Pipeline.ΦA spec2 c := by
  exact Phi2_out V c _ (by rw [Fin.val_last]; have : cfg2.N = 6125 := N_2; omega)

end Region0

end Cert.KernelIdeal.Hand

end
-- ==== Proof.Scatter3.lean ====
/-
  Region 1 of the kernel's program: the one-hot scatter-add and the closing scaling, on a grid of 49 node blocks by
  125 edge blocks.  At grid point (n, e) the body compares the 1024 node numbers of block n with the 6400
  destination indices of edge block e, multiplies the resulting 0/1 matrix with the edge block's gathered rows,
  and adds the product to an accumulator it keeps in a scratch buffer across the 125 points of a row of the grid:
  the accumulator is reset at e = 0, and at e = 124 the output block is (rows + 1/2 · accumulator) · scale.  This
  module names what the accumulator holds after every point, gives the pipeline's proof data over it, and proves
  the body obligation at every point.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions and where the output window is idle -/

/-- The first branch condition of the body, from the grid coordinates. -/
abbrev cond3_0 (i : grid3.Coords) : Prop := (Scalar.cmpi .ne (Scalar.extui (Scalar.cmpi .eq (BitVec.ofNat 32 (i 1).val) 0#32)) 0#32) = 1#1
/-- The second. -/
abbrev cond3_1 (i : grid3.Coords) : Prop := k3_cond2 i = 1#1

/-- The second grid coordinate of point `t` is `t` modulo 125. -/
theorem coord3_1 (t : Fin cfg3.N) : (grid3.coords t 1).val = t.val % 125 := by
  show t.val / grid3.stride 1 % grid3.bound 1 = t.val % 125
  rw [show grid3.stride 1 = 1 from by decide, show grid3.bound 1 = 125 from by decide, Nat.div_one]

/-- The first condition holds exactly at coordinate 0 (decided over the 125 values of the coordinate). -/
theorem hcond3_0' : ∀ x : Fin 125, ((Scalar.cmpi .ne (Scalar.extui (Scalar.cmpi .eq (BitVec.ofNat 32 x.val) 0#32)) 0#32) = 1#1) ↔ x.val = 0 := by
  decide +kernel

/-- So it holds at the points ≡ 0 (mod 125). -/
theorem hcond3_0 (t : Fin cfg3.N) : cond3_0 (grid3.coords t) ↔ t.val % 125 = 0 := by
  rw [← coord3_1 t]
  exact hcond3_0' (grid3.coords t 1)

/-- The second condition holds exactly at coordinate 124. -/
theorem hcond3_1' : ∀ x : Fin 125, ((Scalar.cmpi .ne (Scalar.extui (Scalar.cmpi .eq (BitVec.ofNat 32 x.val) 124#32)) 0#32) = 1#1) ↔ x.val = 124 := by
  decide +kernel

/-- So it holds at the points ≡ 124 (mod 125). -/
theorem hcond3_1 (t : Fin cfg3.N) : cond3_1 (grid3.coords t) ↔ t.val % 125 = 124 := by
  rw [← coord3_1 t]
  exact hcond3_1' (grid3.coords t 1)

/-- No input window is ever idle. -/
theorem live3_in (w : Fin cfg3.W) (hw : w ≠ 4) (i : grid3.Coords) : cfg3.idle w i = false := by
  fin_cases w <;> first | rfl | exact absurd rfl hw

/-- The output window is idle exactly where the second condition fails. -/
theorem idle3_4 (i : grid3.Coords) : cfg3.idle 4 i = !(k3_cond2 i == 1#1) := rfl

theorem idleAt3_4 (t : Fin cfg3.N) (h : t.val % 125 ≠ 124) : cfg3.idle 4 (grid3.coords t) = true := by
  rw [idle3_4]; have := mt (hcond3_1 t).mp h
  simpa using this

theorem liveAt3_4 (t : Fin cfg3.N) (h : t.val % 125 = 124) : cfg3.idle 4 (grid3.coords t) = false := by
  rw [idle3_4]; have := (hcond3_1 t).mpr h
  simpa using this

/-- Off the points ≡ 124 (mod 125) the output block is not written back. -/
theorem noFlush3_4 (t : Fin cfg3.N) (h : t.val % 125 ≠ 124) : (cfg3.win 4).flush t = false := by
  have := mt (flush3_4 t).mp h
  simpa using this

/-! ## The body on any whole memrefs, case by case -/

/-- The zero offsets, however spelt. -/
theorem hzero3 : (![0, 0] : Fin 2 → ℕ) = fun _ => 0 := by funext a; fin_cases a <;> rfl

/-- A store of the whole block, last, covers it. -/
theorem cover3_acc (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons.mpr (Or.inl rfl), View.mem_set_unit_zero hzero3 inb_S1024x64_S1024x64_0_0 y⟩

set_option maxHeartbeats 1000000 in
/-- The body at a point where the second grid coordinate is 0, on whole memrefs: the destination indices at `x0`, the gathered
    rows at `x1`, the scratch at anything. It resets the scratch to zero and adds the point's product, so the scratch is left
    at `k3_pay2 i x0 k3_pay1 x1`; the two inputs are as they were, and the other operands are not touched. -/
theorem run3_first (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1x6400 .i32) (x1 : Vec F S6400x64 .bf16) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k3_pay2 i x0 (k3_pay1 (F := F)) x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (cover3_acc _ _), View.canon_cons_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

set_option maxHeartbeats 1000000 in
/-- The body at a point where the second grid coordinate is neither 0 nor 124: the scratch, at `xs`, is left at
    `k3_pay2 i x0 xs x1`; the two inputs are as they were, and the other operands are not touched. -/
theorem run3_mid (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1x6400 .i32) (x1 : Vec F S6400x64 .bf16) (xs : Vec F S1024x64 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k3_pay2 i x0 xs x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover3_acc _ _), View.canon_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

set_option maxHeartbeats 1000000 in
/-- The body at a point where the second grid coordinate is 124: the scratch, at `xs`, is left at `k3_pay2 i x0 xs x1`, and the
    output block, at anything before, is left at `k3_pay3` of the node rows `x2`, that accumulator and the scale `x3`; the
    four inputs are as they were. -/
theorem run3_last (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1x6400 .i32) (x1 : Vec F S6400x64 .bf16) (x2 x3 xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k3_pay3 x2 (k3_pay2 i x0 xs x1) x3)
            ∗ owns (c : Thread nD τ) arg7 fullShare (k3_pay2 i x0 xs x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover3_acc _ _), View.canon_unit_zero hzero3]
    simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]
  iexists _; isplitr
  swap; · iexact HS
  ipureintro
  sl_unfold_words
  rw [View.read_writes_eq_canon _ _ _ (cover3_acc _ _), View.canon_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

section Region1
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The point's blocks at their literal types: the destination indices of its edge block, the gathered rows of that
    edge block, the node block's own rows, and the node block's scale. -/
abbrev dstBlk3 (c : Dev nD) (t : Fin cfg3.N) : Vec F S1x6400 .i32 := iblk3 V c 0 t
abbrev gatBlk3 (c : Dev nD) (t : Fin cfg3.N) : Vec F S6400x64 .bf16 := iblk3 V c 1 t
abbrev rowBlk3 (c : Dev nD) (t : Fin cfg3.N) : Vec F S1024x64 .f32 := iblk3 V c 2 t
abbrev sclBlk3 (c : Dev nD) (t : Fin cfg3.N) : Vec F S1024x64 .f32 := iblk3 V c 3 t

/-- What the accumulator holds after the body at position `n`: the point's product added to zero at the first
    point of a row of the grid (n ≡ 0 mod 125), and to what the point before left otherwise. -/
def acc3 (c : Dev nD) : (n : ℕ) → n < cfg3.N → Vec F S1024x64 .f32
  | 0, hn => k3_pay2 (grid3.coords ⟨0, hn⟩) (dstBlk3 V c ⟨0, hn⟩) (k3_pay1 (F := F)) (gatBlk3 V c ⟨0, hn⟩)
  | n + 1, hn => k3_pay2 (grid3.coords ⟨n + 1, hn⟩) (dstBlk3 V c ⟨n + 1, hn⟩)
      (if (n + 1) % 125 = 0 then k3_pay1 (F := F) else acc3 c n (Nat.lt_of_succ_lt hn)) (gatBlk3 V c ⟨n + 1, hn⟩)

theorem acc3_first (c : Dev nD) (t : Fin cfg3.N) (h : t.val % 125 = 0) :
    acc3 V c t.val t.isLt = k3_pay2 (grid3.coords t) (dstBlk3 V c t) (k3_pay1 (F := F)) (gatBlk3 V c t) := by
  obtain ⟨n, hn⟩ := t
  cases n with
  | zero => rfl
  | succ n =>
    have h' : (n + 1) % 125 = 0 := h
    show k3_pay2 _ _ (if (n + 1) % 125 = 0 then k3_pay1 (F := F) else acc3 V c n _) _ = _
    rw [if_pos h']

theorem acc3_next (c : Dev nD) (t : Fin cfg3.N) (h : t.val % 125 ≠ 0) :
    acc3 V c t.val t.isLt = k3_pay2 (grid3.coords t) (dstBlk3 V c t)
      (acc3 V c (t.val - 1) (Nat.lt_of_le_of_lt (Nat.sub_le _ _) t.isLt)) (gatBlk3 V c t) := by
  obtain ⟨n, hn⟩ := t
  cases n with
  | zero => exact absurd (Nat.zero_mod _) h
  | succ n =>
    have h' : ¬ (n + 1) % 125 = 0 := h
    show k3_pay2 _ _ (if (n + 1) % 125 = 0 then k3_pay1 (F := F) else acc3 V c n _) _ = _
    rw [if_neg h']
    rfl

/-- The scratch operand, whole. -/
abbrev scM3 : Memref sig .tc .vmem S1024x64 .f32 := Memref.whole cc3_scratch0

/-- The region invariant before position `n`: before the first point what the launch hands the region (every scoped
    buffer that is no staging buffer at anything, the generator register at some state); afterwards the scratch at what
    the point before left in it, the other such buffers unopened, and the register. -/
def Phi3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

/-- Before a position that is not the first: the scratch at what the point before left. -/
theorem Phi3_pos (c : Dev nD) (n : ℕ) (h : n ≤ cfg3.N) (hz : n ≠ 0) :
    Phi3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- What the launch hands the region, with the scratch as a memref owned at some contents. -/
theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

/-- The proof data of pipeline 1 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (rowBlk3 V c t) (acc3 V c t.val t.isLt) (sclBlk3 V c t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay3 (rowBlk3 V c t) (acc3 V c t.val t.isLt) (sclBlk3 V c t) := by dsimp only [dat3]

/-- No input window is ever idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-- After point `n` the scratch holds that point's accumulator. -/
theorem Phi3_succ (c : Dev nD) (n : ℕ) (hn : n < cfg3.N) :
    Phi3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

theorem Phi3_zero (c : Dev nD) (n : ℕ) (h : n ≤ cfg3.N) (hz : n = 0) : Phi3 V c n h = Pipeline.ΦA spec3 c := by
  subst hz; rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point, by the three cases of the second grid coordinate. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).Φ t.castSucc = Phi3 V c t.val (Nat.le_of_lt t.isLt) from rfl]
  have hN : t.val < 6125 := lt_of_lt_of_eq t.isLt (show cfg3.N = 6125 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h0 : t.val % 125 = 0
  · have h1 : t.val % 125 ≠ 124 := by omega
    rw [Dat.leavesExact_idle (dat3 V c) 4 t (idleAt3_4 t h1) (noFlush3_4 t h1)]
    rw [acc3_first V c t h0]
    by_cases hz : t.val = 0
    · rw [Phi3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (dstBlk3 V c t) (gatBlk3 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi3_pos V c _ _ hz]
      iintro ⟨⟨HS, HR, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (dstBlk3 V c t) (gatBlk3 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi3_pos V c _ _ hz, acc3_next V c t h0]
    by_cases h1 : t.val % 125 = 124
    · rw [show (dat3 V c).leavesExact 4 t = owns (c : Thread nD τ) (st3_4 t) fullShare ((dat3 V c).after 4 t) from by
        unfold Dat.leavesExact; rw [liveAt3_4 t h1], after3_4, acc3_next V c t h0]
      iintro ⟨⟨HS, HR, Hg⟩, Ho, ⟨%d0, H0⟩, ⟨%d1, H1⟩, ⟨%d2, H2⟩, ⟨%d3, H3⟩, ⟨%d4, H4⟩⟩
      iapply (run3_last c (grid3.coords t) _ _ _ _ _ _ _ _ _ _ _ _ (fun h => h0 ((hcond3_0 t).mp h)) ((hcond3_1 t).mpr h1) (dstBlk3 V c t) (gatBlk3 V c t) (rowBlk3 V c t) (sclBlk3 V c t)
        (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4 t h1) (noFlush3_4 t h1)]
      iintro ⟨⟨HS, HR, Hg⟩, Ho, ⟨%d0, H0⟩, ⟨%d1, H1⟩, ⟨%d2, H2⟩, ⟨%d3, H3⟩, ⟨%d4, H4⟩⟩
      iapply (run3_mid c (grid3.coords t) _ _ _ _ _ _ _ _ _ _ _ _ (fun h => h0 ((hcond3_0 t).mp h)) (fun h => h1 ((hcond3_1 t).mp h)) (dstBlk3 V c t) (gatBlk3 V c t)
        (acc3 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl]
  exact Idealize.SL.BI.Entails.refl _

/-- After the last point the invariant gives it back, the accumulator's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 6125 := N_3; omega), PhiA3_eq]
  iintro ⟨HS, HR, Hg⟩
  isplitl [HS HR]
  · isplitl [HS]
    · iexists _; iexact HS
    iexact HR
  iexact Hg

end Region1

end Cert.KernelIdeal.Hand

end
-- ==== Proof.Vals.lean ====
/-
  The buffers' contents between the items of the kernel's program.  The program is fifteen items: stretches of host
  operations and four kernel launches.  Core c's unscoped buffers hold, after each item, the contents before it with
  the item's results written: after a stretch the fold of its operations, after a launch the launch's arrays at what
  its write-backs leave (the inputs as entered, the output's blocks written).  Each launch's proof data is stated at
  the contents its region is entered with.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Gather0
import proofs.«402452_j12051678232913_1_alg».proof.Proof.Scatter1
import proofs.«402452_j12051678232913_1_alg».proof.Proof.Gather2
import proofs.«402452_j12051678232913_1_alg».proof.Proof.Scatter3
import proofs.«402452_j12051678232913_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- At the first launch's entry. -/
abbrev W4 : Dev nD → Valuation τ sig (Elt F) := fun c => StableHlo.after hostOps0_3 (W3 m c)
abbrev R4 : (c : Dev nD) → (b : Ref sig .tc) → Buf (Elt F) ((c : Thread nD τ).loc b) := fun c b => W4 m c b
/-- At the first launch's exit. -/
def W5 (c : Dev nD) : Valuation τ sig (Elt F) :=
  Pipeline.withArrays spec0 c (W4 m c) fun w => (dat0 (R4 m) c).arrAt w cfg0.N
abbrev W6 : Dev nD → Valuation τ sig (Elt F) := fun c => StableHlo.after hostOps1 (W5 m c)
/-- At the second launch's entry. -/
abbrev W7 : Dev nD → Valuation τ sig (Elt F) := fun c => StableHlo.after hostOps1_1 (W6 m c)
abbrev R7 : (c : Dev nD) → (b : Ref sig .tc) → Buf (Elt F) ((c : Thread nD τ).loc b) := fun c b => W7 m c b
/-- At the second launch's exit. -/
def W8 (c : Dev nD) : Valuation τ sig (Elt F) :=
  Pipeline.withArrays spec1 c (W7 m c) fun w => (dat1 (R7 m) c).arrAt w cfg1.N
abbrev W9 : Dev nD → Valuation τ sig (Elt F) := fun c => StableHlo.after hostOps2 (W8 m c)
/-- At the third launch's entry. -/
abbrev W10 : Dev nD → Valuation τ sig (Elt F) := fun c => StableHlo.after hostOps2_1 (W9 m c)
abbrev R10 : (c : Dev nD) → (b : Ref sig .tc) → Buf (Elt F) ((c : Thread nD τ).loc b) := fun c b => W10 m c b
/-- At the third launch's exit. -/
def W11 (c : Dev nD) : Valuation τ sig (Elt F) :=
  Pipeline.withArrays spec2 c (W10 m c) fun w => (dat2 (R10 m) c).arrAt w cfg2.N
abbrev W12 : Dev nD → Valuation τ sig (Elt F) := fun c => StableHlo.after hostOps3 (W11 m c)
/-- At the fourth launch's entry. -/
abbrev W13 : Dev nD → Valuation τ sig (Elt F) := fun c => StableHlo.after hostOps3_1 (W12 m c)
abbrev R13 : (c : Dev nD) → (b : Ref sig .tc) → Buf (Elt F) ((c : Thread nD τ).loc b) := fun c b => W13 m c b
/-- At the fourth launch's exit. -/
def W14 (c : Dev nD) : Valuation τ sig (Elt F) :=
  Pipeline.withArrays spec3 c (W13 m c) fun w => (dat3 (R13 m) c).arrAt w cfg3.N
/-- At the end. -/
abbrev W15 : Dev nD → Valuation τ sig (Elt F) := fun c => StableHlo.after hostOps4 (W14 m c)

/-! ## What a launch's exit holds -/

theorem W5_arr (c : Dev nD) (w : Fin cfg0.W) :
    W5 m c (Proc.devRef .tc (Pipeline.arrRef spec0 w)) = (dat0 (R4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
theorem W8_arr (c : Dev nD) (w : Fin cfg1.W) :
    W8 m c (Proc.devRef .tc (Pipeline.arrRef spec1 w)) = (dat1 (R7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
theorem W11_arr (c : Dev nD) (w : Fin cfg2.W) :
    W11 m c (Proc.devRef .tc (Pipeline.arrRef spec2 w)) = (dat2 (R10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
theorem W14_arr (c : Dev nD) (w : Fin cfg3.W) :
    W14 m c (Proc.devRef .tc (Pipeline.arrRef spec3 w)) = (dat3 (R13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb

/-! ## What a stretch of host operations leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W6_of (c : Dev nD) (r : Ref sig .tc) (h : r ∉ hostOps1_W) : W6 m c r = W5 m c r :=
  StableHlo.after_of_writes_sub hostOps1 _ hostOps1_writes h
theorem W7_of (c : Dev nD) (r : Ref sig .tc) (h : r ∉ hostOps1_1_W) : W7 m c r = W6 m c r :=
  StableHlo.after_of_writes_sub hostOps1_1 _ hostOps1_1_writes h
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W12_of (c : Dev nD) (r : Ref sig .tc) (h : r ∉ hostOps3_W) : W12 m c r = W11 m c r :=
  StableHlo.after_of_writes_sub hostOps3 _ hostOps3_writes h
theorem W13_of (c : Dev nD) (r : Ref sig .tc) (h : r ∉ hostOps3_1_W) : W13 m c r = W12 m c r :=
  StableHlo.after_of_writes_sub hostOps3_1 _ hostOps3_1_writes h
theorem W15_of (c : Dev nD) (r : Ref sig .tc) (h : r ∉ hostOps4_W) : W15 m c r = W14 m c r :=
  StableHlo.after_of_writes_sub hostOps4 _ hostOps4_writes h

/-! ## The proof data family -/

/-- Every launch's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (R4 m) c
  | ⟨1, _⟩ => fun c => dat1 (R7 m) c
  | ⟨2, _⟩ => fun c => dat2 (R10 m) c
  | ⟨3, _⟩ => fun c => dat3 (R13 m) c

end Cert.KernelIdeal.Hand

end
-- ==== Proof.RunAll.lean ====
/-
  The run of the kernel's program.  Its fifteen items are run in order on every core: a stretch of host operations
  leaves every unscoped buffer at the fold of its operations; a kernel launch is entered with its arrays at the
  contents the item before left, runs its grid (the pipeline library's rule, from the launch's body obligation), and
  leaves its arrays at what the write-backs leave.  Every weakly fair execution terminates, nothing faults, and at
  the end every unscoped buffer holds the last item's contents.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev R5 : (c : Dev nD) → (b : Ref sig .tc) → Buf (Elt F) ((c : Thread nD τ).loc b) := fun c b => W5 m c b
abbrev R8 : (c : Dev nD) → (b : Ref sig .tc) → Buf (Elt F) ((c : Thread nD τ).loc b) := fun c b => W8 m c b
abbrev R11 : (c : Dev nD) → (b : Ref sig .tc) → Buf (Elt F) ((c : Thread nD τ).loc b) := fun c b => W11 m c b
abbrev R14 : (c : Dev nD) → (b : Ref sig .tc) → Buf (Elt F) ((c : Thread nD τ).loc b) := fun c b => W14 m c b

abbrev 𝒱H : Variants := Variants.none
/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at
    nothing. -/
abbrev Rst (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem hF0 (c : Dev nD) (w : Fin cfg0.W) : (dat0 (R4 m) c).arrAt w cfg0.N = R5 m c (Pipeline.arrRef spec0 w) :=
  (W5_arr m c w).symm
theorem hrest0 (c : Dev nD) : ∀ b, b ∉ Finset.univ.image (Pipeline.arrRef spec0) → R5 m c b = R4 m c b :=
  fun b hb => W5_of_ne m c b fun w e => hb (Finset.mem_image.mpr ⟨w, Finset.mem_univ _, e⟩)

set_option backward.isDefEq.respectTransparency.types false in
/-- Launch 0 over the thread state: entered from every unscoped buffer at its entry contents, left at its exit
    contents; its arrays split out of the unscoped buffers and put back; the generator register and the scratch into the
    launch's invariant and out; nothing owed; no semaphore of the kernel's own. -/
def reg0 : Pipeline.RegionSeg (pcfgs (F := F)) adm (pdats m) () defs₀ 𝒱H L0 lv0 0 where
  win := launch0.win.to₀
  block_pos := launch0.block_pos
  stage_whole := launch0.stage_whole
  K := PEmpty
  osem k := k.elim
  ho := Pipeline.OwnSemFacts.none _
  hbody c := (body_obligation0 (R4 m) c).loose
  hwaits := Pipeline.hwaits_of_owed_zero _ _ _ _ L0 lv0 0 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec0 c (R4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (R4 m) c).Φ 0 from rfl]
    have h := hin0 (R4 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (R4 m) c).Φ (Fin.last cfg0.N) from rfl]
    have h := hout0 (R4 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R4 m c) (R5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (R7 m) c).arrAt w cfg1.N = R8 m c (Pipeline.arrRef spec1 w) :=
  (W8_arr m c w).symm
theorem hrest1 (c : Dev nD) : ∀ b, b ∉ Finset.univ.image (Pipeline.arrRef spec1) → R8 m c b = R7 m c b :=
  fun b hb => W8_of_ne m c b fun w e => hb (Finset.mem_image.mpr ⟨w, Finset.mem_univ _, e⟩)

set_option backward.isDefEq.respectTransparency.types false in
/-- Launch 1 over the thread state: entered from every unscoped buffer at its entry contents, left at its exit
    contents; its arrays split out of the unscoped buffers and put back; the generator register and the scratch into the
    launch's invariant and out; nothing owed; no semaphore of the kernel's own. -/
def reg1 : Pipeline.RegionSeg (pcfgs (F := F)) adm (pdats m) () defs₀ 𝒱H L0 lv0 1 where
  win := launch1.win.to₀
  block_pos := launch1.block_pos
  stage_whole := launch1.stage_whole
  K := PEmpty
  osem k := k.elim
  ho := Pipeline.OwnSemFacts.none _
  hbody c := (body_obligation1 (R7 m) c).loose
  hwaits := Pipeline.hwaits_of_owed_zero _ _ _ _ L0 lv0 1 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec1 c (R7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (R7 m) c).Φ 0 from rfl]
    have h := hin1 (R7 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (R7 m) c).Φ (Fin.last cfg1.N) from rfl]
    have h := hout1 (R7 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R7 m c) (R8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (R10 m) c).arrAt w cfg2.N = R11 m c (Pipeline.arrRef spec2 w) :=
  (W11_arr m c w).symm
theorem hrest2 (c : Dev nD) : ∀ b, b ∉ Finset.univ.image (Pipeline.arrRef spec2) → R11 m c b = R10 m c b :=
  fun b hb => W11_of_ne m c b fun w e => hb (Finset.mem_image.mpr ⟨w, Finset.mem_univ _, e⟩)

set_option backward.isDefEq.respectTransparency.types false in
/-- Launch 2 over the thread state: entered from every unscoped buffer at its entry contents, left at its exit
    contents; its arrays split out of the unscoped buffers and put back; the generator register and the scratch into the
    launch's invariant and out; nothing owed; no semaphore of the kernel's own. -/
def reg2 : Pipeline.RegionSeg (pcfgs (F := F)) adm (pdats m) () defs₀ 𝒱H L0 lv0 2 where
  win := launch2.win.to₀
  block_pos := launch2.block_pos
  stage_whole := launch2.stage_whole
  K := PEmpty
  osem k := k.elim
  ho := Pipeline.OwnSemFacts.none _
  hbody c := (body_obligation2 (R10 m) c).loose
  hwaits := Pipeline.hwaits_of_owed_zero _ _ _ _ L0 lv0 2 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec2 c (R10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (R10 m) c).Φ 0 from rfl]
    have h := hin2 (R10 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (R10 m) c).Φ (Fin.last cfg2.N) from rfl]
    have h := hout2 (R10 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R10 m c) (R11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) (w : Fin cfg3.W) : (dat3 (R13 m) c).arrAt w cfg3.N = R14 m c (Pipeline.arrRef spec3 w) :=
  (W14_arr m c w).symm
theorem hrest3 (c : Dev nD) : ∀ b, b ∉ Finset.univ.image (Pipeline.arrRef spec3) → R14 m c b = R13 m c b :=
  fun b hb => W14_of_ne m c b fun w e => hb (Finset.mem_image.mpr ⟨w, Finset.mem_univ _, e⟩)

set_option backward.isDefEq.respectTransparency.types false in
/-- Launch 3 over the thread state: entered from every unscoped buffer at its entry contents, left at its exit
    contents; its arrays split out of the unscoped buffers and put back; the generator register and the scratch into the
    launch's invariant and out; nothing owed; no semaphore of the kernel's own. -/
def reg3 : Pipeline.RegionSeg (pcfgs (F := F)) adm (pdats m) () defs₀ 𝒱H L0 lv0 3 where
  win := launch3.win.to₀
  block_pos := launch3.block_pos
  stage_whole := launch3.stage_whole
  K := PEmpty
  osem k := k.elim
  ho := Pipeline.OwnSemFacts.none _
  hbody c := (body_obligation3 (R13 m) c).loose
  hwaits := Pipeline.hwaits_of_owed_zero _ _ _ _ L0 lv0 3 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec3 c (R13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (R13 m) c).Φ 0 from rfl]
    have h := hin3 (R13 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (R13 m) c).Φ (Fin.last cfg3.N) from rfl]
    have h := hout3 (R13 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R13 m c) (R14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's fifteen items in order. -/
abbrev segsH : List (Pipeline.Seg (pcfgs (F := F)) adm (pdats m) () defs₀ 𝒱H L0 lv0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .host (hseg hostOps1_1 hostOps1_1_sub hostOps1_1_fresh (W6 m)),
    .region (reg1 m),
    .host (hseg hostOps2 hostOps2_sub hostOps2_fresh (W8 m)),
    .host (hseg hostOps2_1 hostOps2_1_sub hostOps2_1_fresh (W9 m)),
    .region (reg2 m),
    .host (hseg hostOps3 hostOps3_sub hostOps3_fresh (W11 m)),
    .host (hseg hostOps3_1 hostOps3_1_sub hostOps3_1_fresh (W12 m)),
    .region (reg3 m),
    .host (hseg hostOps4 hostOps4_sub hostOps4_fresh (W14 m)) ]

set_option backward.isDefEq.respectTransparency.types false in
/-- THE RUN: from any memory with zero counters every weakly fair execution of the program terminates, nothing
    faulting, and every final memory holds every unscoped buffer at the last item's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱H L0 lv0 m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m c) ∗ Rst c) ⊢ _
        iintro ⟨Hh, Hp, HO⟩
        isplitl [Hh Hp]
        · isplitl [Hh]; · iexact Hh
          iexact Hp
        iexact HO⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.ArgsKept.lean ====
/-
  No item of the kernel's program writes an argument array: a stretch of host operations writes only its own results,
  and a launch changes only its output array.  So at the end each argument's buffer holds its launch contents.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W15_main_arg0 (c : Dev nD) : W15 m c main_arg0 = m ((c : Thread nD τ).loc main_arg0) :=
  (W15_of m c main_arg0 (by decide)).trans <| (W14_of_ne m c main_arg0 (by decide)).trans <| (W13_of m c main_arg0 (by decide)).trans <|
  (W12_of m c main_arg0 (by decide)).trans <| (W11_of_ne m c main_arg0 (by decide)).trans <| (W10_of m c main_arg0 (by decide)).trans <|
  (W9_of m c main_arg0 (by decide)).trans <| (W8_of_ne m c main_arg0 (by decide)).trans <| (W7_of m c main_arg0 (by decide)).trans <|
  (W6_of m c main_arg0 (by decide)).trans <| (W5_of_ne m c main_arg0 (by decide)).trans <| (W4_of m c main_arg0 (by decide)).trans <|
  (W3_of m c main_arg0 (by decide)).trans <| (W2_of m c main_arg0 (by decide)).trans <| (W1_of m c main_arg0 (by decide)).trans rfl
theorem W15_main_arg1 (c : Dev nD) : W15 m c main_arg1 = m ((c : Thread nD τ).loc main_arg1) :=
  (W15_of m c main_arg1 (by decide)).trans <| (W14_of_ne m c main_arg1 (by decide)).trans <| (W13_of m c main_arg1 (by decide)).trans <|
  (W12_of m c main_arg1 (by decide)).trans <| (W11_of_ne m c main_arg1 (by decide)).trans <| (W10_of m c main_arg1 (by decide)).trans <|
  (W9_of m c main_arg1 (by decide)).trans <| (W8_of_ne m c main_arg1 (by decide)).trans <| (W7_of m c main_arg1 (by decide)).trans <|
  (W6_of m c main_arg1 (by decide)).trans <| (W5_of_ne m c main_arg1 (by decide)).trans <| (W4_of m c main_arg1 (by decide)).trans <|
  (W3_of m c main_arg1 (by decide)).trans <| (W2_of m c main_arg1 (by decide)).trans <| (W1_of m c main_arg1 (by decide)).trans rfl
theorem W15_main_arg2 (c : Dev nD) : W15 m c main_arg2 = m ((c : Thread nD τ).loc main_arg2) :=
  (W15_of m c main_arg2 (by decide)).trans <| (W14_of_ne m c main_arg2 (by decide)).trans <| (W13_of m c main_arg2 (by decide)).trans <|
  (W12_of m c main_arg2 (by decide)).trans <| (W11_of_ne m c main_arg2 (by decide)).trans <| (W10_of m c main_arg2 (by decide)).trans <|
  (W9_of m c main_arg2 (by decide)).trans <| (W8_of_ne m c main_arg2 (by decide)).trans <| (W7_of m c main_arg2 (by decide)).trans <|
  (W6_of m c main_arg2 (by decide)).trans <| (W5_of_ne m c main_arg2 (by decide)).trans <| (W4_of m c main_arg2 (by decide)).trans <|
  (W3_of m c main_arg2 (by decide)).trans <| (W2_of m c main_arg2 (by decide)).trans <| (W1_of m c main_arg2 (by decide)).trans rfl

end Cert.KernelIdeal.Hand

end
-- ==== Proof.KDefs.lean ====
/-
  The kernel's program as one function of its arguments, at the ideal instance.  A launch of the gather kernel leaves,
  for edge e and feature d, the sum over the 50176 padded node numbers n of [n = source word of e] · row n's feature d
  (a one-hot matrix product); a launch of the scatter kernel leaves, for padded node n and feature d,
  (row + 1/2 · the sum over the 800000 edges of [n = destination word of e] · gathered row e) · scale.  Around them the
  host pads the node rows with 176 zero rows (and the scale with ones), and cuts the result back to 50000 rows.
-/
import proofs.«402452_j12051678232913_1_alg».proof.KernelIdeal
import Idealize.ShloMosaic.PureOps.Ideal
import Idealize.ShloMosaic.Lib.ValueIdx

noncomputable section

namespace Cert.KernelIdeal.KVal

open Cert.KernelIdeal Idealize.ShloMosaic Idealize.ShloMosaic.ValueIdx

variable [Facts]
open Facts₀ Facts

/-- The one-hot weight of two words: 1 where they are equal, else 0. -/
def oh (a b : BitVec 32) : EReal := if a = b then 1 else 0

/-- What a launch of the gather kernel leaves in its output array. -/
def gatherArr (srcA : IVec S1x800000 32) (rows : FVec Ideal S50176x64 .bf16) : FVec Ideal S800000x64 .bf16 :=
  fun j => ∑ n : Fin 50176, oh (BitVec.ofNat 32 n.val) (srcA (ix2 (0 : Fin 1) (⟨(j 0).val, idx2_lt0 j⟩ : Fin 800000)))
    * rows (ix2 n (⟨(j 1).val, idx2_lt1 j⟩ : Fin 64))

/-- What a launch of the scatter kernel leaves in its output array. -/
def scatterArr (dstA : IVec S1x800000 32) (gat : FVec Ideal S800000x64 .bf16) (rows scl : FVec Ideal S50176x64 .f32) :
    FVec Ideal S50176x64 .f32 :=
  fun i => (rows i + Ideal.ofBits .f32 0x3F000000#32
      * ∑ e : Fin 800000, oh (BitVec.ofNat 32 (i 0).val) (dstA (ix2 (0 : Fin 1) e)) * gat (ix2 e (⟨(i 1).val, idx2_lt1 i⟩ : Fin 64)))
    * scl i

/-- The scale 1 / (1 + D/2), as the host computes it. -/
def f2 (D : FVec Ideal S50000 .f32) : FVec Ideal S50000 .f32 :=
  Host.divf (broadcastInDim S50000 ![] bcast_S_S50000 (constant S_ .f32 0x3F800000#32))
    (addf (broadcastInDim S50000 ![] bcast_S_S50000 (constant S_ .f32 0x3F800000#32))
      (mulf (broadcastInDim S50000 ![] bcast_S_S50000 (constant S_ .f32 0x3F000000#32)) D))

/-- The scale padded with ones and repeated along the features. -/
def sclArr (D : FVec Ideal S50000 .f32) : FVec Ideal S50176x64 .f32 :=
  broadcastInDim S50176x64 ![0, 1] bcast_S50176x1_S50176x64_0_1
    (broadcastInDim S50176x1 ![0] bcast_S50176_S50176x1_0
      (pad S50176 ![0] ![176] ![0] (f2 D) (id (constant (F := Ideal) S_ .f32 0x3F800000#32)) pads_S50000_S50176_01760 h_S_))

/-- Rows 0 and 1 of the index array, as [1, 800000] arrays. -/
def srcA (ei : IVec S2x800000 32) : IVec S1x800000 32 :=
  shapeCast S1x800000 (shapeCast S800000 (extractStridedSlice S1x800000 ![0, 0] ei slices_S2x800000_S1x800000_0_0)
    shapeCasts_S1x800000_S800000) shapeCasts_S800000_S1x800000
def dstA (ei : IVec S2x800000 32) : IVec S1x800000 32 :=
  shapeCast S1x800000 (shapeCast S800000 (extractStridedSlice S1x800000 ![1, 0] ei slices_S2x800000_S1x800000_1_0)
    shapeCasts_S1x800000_S800000) shapeCasts_S800000_S1x800000

/-- The node rows padded with 176 zero rows, in the two formats. -/
def padB (x : FVec Ideal S50000x64 .bf16) : FVec Ideal S50176x64 .bf16 :=
  pad S50176x64 ![0, 0] ![176, 0] ![0, 0] x (sitofp (F := Ideal) .bf16 (constantI S_ 32 0#32)) pads_S50000x64_S50176x64_01760_000 h_S_
def padF (x : FVec Ideal S50000x64 .f32) : FVec Ideal S50176x64 .f32 :=
  pad S50176x64 ![0, 0] ![176, 0] ![0, 0] x (sitofp (F := Ideal) .f32 (constantI S_ 32 0#32)) pads_S50000x64_S50176x64_01760_000 h_S_

/-- One step of the kernel's program: gather, scatter, cut back to the nodes. -/
def kstep (ei : IVec S2x800000 32) (D : FVec Ideal S50000 .f32) (h : FVec Ideal S50000x64 .f32) : FVec Ideal S50000x64 .f32 :=
  extractStridedSlice S50000x64 ![0, 0]
    (scatterArr (dstA ei) (gatherArr (srcA ei) (padB (truncf .bf16 h bitsLt_bf16_f32))) (padF h) (sclArr D))
    slices_S50176x64_S50000x64_0_0

/-- The kernel's program: two steps. -/
def K (h : FVec Ideal S50000x64 .f32) (D : FVec Ideal S50000 .f32) (ei : IVec S2x800000 32) : FVec Ideal S50000x64 .f32 :=
  kstep ei D (kstep ei D h)

end Cert.KernelIdeal.KVal

end
-- ==== Proof.RegionVal0.lean ====
/-
  What region 0 leaves in its output array, at the ideal instance: for edge e and feature d, the sum over the 50176
  padded node numbers of the one-hot weight of the node number against the edge's source word, times the node's row.
  The grid walks the 125 edge blocks, and for each the 49 node blocks; the accumulator after the j-th node block of a
  row holds the partial sum over node blocks 0 … j, and the block written back at j = 48 is the whole sum; the 125
  blocks written back tile the output array.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Gather0
import proofs.«402452_j12051678232913_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

/-! ## The grid's index maps -/

/-- The printed index maps over the grid, point by point: at point t = 49·i + j the source window is at column
    block i, the node window at row block j, the output window at row block i, and the body's second grid
    coordinate is j. -/
theorem idx_facts0 : ∀ t : Fin cfg0.N,
    win0_0.index t (0 : Fin 2) = 0 ∧ win0_0.index t (1 : Fin 2) = t.val / 49
    ∧ win0_1.index t (0 : Fin 2) = t.val % 49 ∧ win0_1.index t (1 : Fin 2) = 0
    ∧ win0_2.index t (0 : Fin 2) = t.val / 49 ∧ win0_2.index t (1 : Fin 2) = 0
    ∧ (grid0.coords t (1 : Fin 2)).val = t.val % 49 :=
  (by decide +kernel : ∀ t : Fin grid0.N,
    win0_0.index t (0 : Fin 2) = 0 ∧ win0_0.index t (1 : Fin 2) = t.val / 49
    ∧ win0_1.index t (0 : Fin 2) = t.val % 49 ∧ win0_1.index t (1 : Fin 2) = 0
    ∧ win0_2.index t (0 : Fin 2) = t.val / 49 ∧ win0_2.index t (1 : Fin 2) = 0
    ∧ (grid0.coords t (1 : Fin 2)).val = t.val % 49)

/-! ## The product's operand indices -/

/-! The body's matrix product contracts axis 0 of both operands (the 1024 node numbers of a block): on that axis an
operand's index is the contraction position, on the other axis it is the output's coordinate. -/

theorem lhs_D0_0 (i : S6400x64.Idx) (q : dot_S1024x6400_S1024x64_S6400x64_0_0_1_1_n_n.contr.Idx) :
    (dot_S1024x6400_S1024x64_S6400x64_0_0_1_1_n_n.lhsIdx i q 0).val = (q ⟨0, by decide⟩).val :=
  dot_S1024x6400_S1024x64_S6400x64_0_0_1_1_n_n.lhsIdx_val_of_single rfl i q
theorem lhs_D0_1 (i : S6400x64.Idx) (q : dot_S1024x6400_S1024x64_S6400x64_0_0_1_1_n_n.contr.Idx) :
    (dot_S1024x6400_S1024x64_S6400x64_0_0_1_1_n_n.lhsIdx i q 1).val = (i 0).val := by
  unfold DotDims.lhsIdx
  rw [dif_neg (show ¬(1 : Fin S1024x6400.rank) ∈ dot_S1024x6400_S1024x64_S6400x64_0_0_1_1_n_n.lhsBatch by decide),
    dif_pos (show (1 : Fin S1024x6400.rank) ∈ dot_S1024x6400_S1024x64_S6400x64_0_0_1_1_n_n.lhsNonContracting by decide)]
  rfl
theorem rhs_D0_0 (i : S6400x64.Idx) (q : dot_S1024x6400_S1024x64_S6400x64_0_0_1_1_n_n.contr.Idx) :
    (dot_S1024x6400_S1024x64_S6400x64_0_0_1_1_n_n.rhsIdx i q 0).val = (q ⟨0, by decide⟩).val :=
  dot_S1024x6400_S1024x64_S6400x64_0_0_1_1_n_n.rhsIdx_val_of_single rfl i q
theorem rhs_D0_1 (i : S6400x64.Idx) (q : dot_S1024x6400_S1024x64_S6400x64_0_0_1_1_n_n.contr.Idx) :
    (dot_S1024x6400_S1024x64_S6400x64_0_0_1_1_n_n.rhsIdx i q 1).val = (i 1).val := by
  unfold DotDims.rhsIdx
  rw [dif_neg (show ¬(1 : Fin S1024x64.rank) ∈ dot_S1024x6400_S1024x64_S6400x64_0_0_1_1_n_n.rhsBatch by decide),
    dif_pos (show (1 : Fin S1024x64.rank) ∈ dot_S1024x6400_S1024x64_S6400x64_0_0_1_1_n_n.rhsNonContracting by decide)]
  rfl

/-! ## The body's value at an index -/

/-- The 0/1 entry: the compare bit of two words, widened and converted, is the one-hot weight of the words. -/
theorem onehot_entry0 (a b : BitVec 32) :
    (FloatOps.sitofp (F := Ideal) .f32 ((IntOp.cmpi .eq a b).setWidth 32) : Ideal .f32) = KVal.oh a b := by
  show (((((IntOp.cmpi .eq a b).setWidth 32).toInt : ℝ)) : EReal) = _
  unfold KVal.oh IntOp.cmpi
  by_cases h : a = b
  · subst h; simp
  · have hb : (a == b) = false := by simpa using h
    simp [hb, h]

/-- The node number compared at row k of node block j is 1024·j + k. -/
theorem node_word0 (j k : ℕ) :
    IntOp.addi (Scalar.muli (BitVec.ofNat 32 j) 1024#32) (BitVec.ofNat 32 k) = BitVec.ofNat 32 (1024 * j + k) := by
  show BitVec.ofNat 32 j * 1024#32 + BitVec.ofNat 32 k = _
  rw [BitVec.ofNat_add, BitVec.ofNat_mul, BitVec.mul_comm]

/-- A column [1024, 1] repeated along 6400 columns reads its row. -/
theorem bcast_col0 (x : IVec S1024x1 32) (k : Fin 1024) (p : Fin 6400) :
    broadcastTo S1024x6400 x broadcasts_S1024x1_S1024x6400 (ix2 k p) = x (ix2 k (0 : Fin 1)) :=
  broadcastTo_apply x _ (ix2 k p) (ix2 k (0 : Fin 1)) (fun a => by match a with | ⟨0, _⟩ => rfl | ⟨1, _⟩ => rfl)

/-- A row [1, 6400] repeated along 1024 rows reads its column. -/
theorem bcast_row0 (x : IVec S1x6400 32) (k : Fin 1024) (p : Fin 6400) :
    broadcastTo S1024x6400 x broadcasts_S1x6400_S1024x6400 (ix2 k p) = x (ix2 (0 : Fin 1) p) :=
  broadcastTo_apply x _ (ix2 k p) (ix2 (0 : Fin 1) p) (fun a => by match a with | ⟨0, _⟩ => rfl | ⟨1, _⟩ => rfl)

/-- The body's new accumulator at edge p of the block and feature q: the old accumulator there plus, over the 1024
    nodes of the point's node block, the one-hot weight of the node number against the edge's source word times the
    node's row. -/
theorem pay2_at (i : grid0.Coords) (src : Vec Ideal S1x6400 .i32) (a : Vec Ideal S6400x64 .f32)
    (r : Vec Ideal S1024x64 .bf16) (p : Fin 6400) (q : Fin 64) :
    k0_pay2 i src a r (ix2 p q) = a (ix2 p q) + ∑ k : Fin 1024,
      KVal.oh (BitVec.ofNat 32 (1024 * (i 1).val + k.val)) (src (ix2 (0 : Fin 1) p)) * r (ix2 k q) := by
  unfold k0_pay2
  refine (congrFun (shapeCast_self _ _) (ix2 p q)).trans ?_
  refine (addf_apply _ _ _).trans ?_
  refine congrArg (a (ix2 p q) + ·) ?_
  refine (Ideal.matmul_constant_zero_apply dot_S1024x6400_S1024x64_S6400x64_0_0_1_1_n_n none _ _ (ix2 p q)).trans ?_
  rw [← Equiv.sum_comp (contrEquiv1 dot_S1024x6400_S1024x64_S6400x64_0_0_1_1_n_n 1024 rfl rfl).symm]
  refine Finset.sum_congr rfl fun k _ => ?_
  have hk := contrEquiv1_symm_val dot_S1024x6400_S1024x64_S6400x64_0_0_1_1_n_n 1024 rfl rfl k
  have el : dot_S1024x6400_S1024x64_S6400x64_0_0_1_1_n_n.lhsIdx (ix2 p q)
      ((contrEquiv1 dot_S1024x6400_S1024x64_S6400x64_0_0_1_1_n_n 1024 rfl rfl).symm k) = ix2 k p :=
    funext fun a => Fin.ext (by
      match a with
      | ⟨0, _⟩ => exact (lhs_D0_0 _ _).trans hk
      | ⟨1, _⟩ => exact lhs_D0_1 _ _)
  have er : dot_S1024x6400_S1024x64_S6400x64_0_0_1_1_n_n.rhsIdx (ix2 p q)
      ((contrEquiv1 dot_S1024x6400_S1024x64_S6400x64_0_0_1_1_n_n 1024 rfl rfl).symm k) = ix2 k q :=
    funext fun a => Fin.ext (by
      match a with
      | ⟨0, _⟩ => exact (rhs_D0_0 _ _).trans hk
      | ⟨1, _⟩ => exact rhs_D0_1 _ _)
  rw [el, er]
  refine congrArg₂ (· * ·) ?_ (congrFun (shapeCast_self r _) (ix2 k q))
  refine Eq.trans ?_ (onehot_entry0 _ _)
  show FloatOps.sitofp (F := Ideal) .f32 ((IntOp.cmpi .eq _ _).setWidth 32) = _
  refine congrArg (fun w : BitVec 1 => FloatOps.sitofp (F := Ideal) .f32 (w.setWidth 32)) ?_
  refine congrArg₂ (IntOp.cmpi .eq) ?_ ?_
  · refine (bcast_col0 _ k p).trans ?_
    refine Eq.trans ?_ (node_word0 (i 1).val k.val)
    refine congrArg (IntOp.addi _) ?_
    exact iota_single_apply .tc S1024x1 32 0 iota_S1024x1_d0_w32 (ix2 k (0 : Fin 1))
  · refine (bcast_row0 _ k p).trans ?_
    exact congrFun (shapeCast_self src _) (ix2 (0 : Fin 1) p)

/-- The reset value is zero everywhere. -/
theorem pay1_at (p : Fin 6400) (q : Fin 64) : (k0_pay1 (F := Ideal)) (ix2 p q) = 0 := by
  unfold k0_pay1
  refine (congrFun (shapeCast_self _ _) (ix2 p q)).trans ?_
  exact Ideal.ofBits_zero_f32

/-- The block written back is the accumulator (the change of format is exact). -/
theorem pay3_at (a : Vec Ideal S6400x64 .f32) (p : Fin 6400) (q : Fin 64) : k0_pay3 a (ix2 p q) = a (ix2 p q) := rfl

section Region0
variable (V : (c : Dev nD) → (b : Ref sig .tc) → Buf (Elt Ideal) ((c : Thread nD τ).loc b))

/-! ## The region's two input arrays and the blocks read off them -/

/-- The source words of the 800000 edges, and the 50176 padded node rows, as the region finds them. -/
abbrev srcArr0 (c : Dev nD) : IVec S1x800000 32 := V c main_v11
abbrev rowArr0 (c : Dev nD) : FVec Ideal S50176x64 .bf16 := V c main_v16

/-- Entry p of the source block at point n is the source word of edge 6400·(n / 49) + p. -/
theorem srcBlk0_at (c : Dev nD) (n : ℕ) (hn : n < cfg0.N) (p : Fin 6400) (e : Fin 800000)
    (he : e.val = 6400 * (n / 49) + p.val) :
    srcBlk0 V c ⟨n, hn⟩ (ix2 (0 : Fin 1) p) = srcArr0 V c (ix2 (0 : Fin 1) e) := by
  have f0 : win0_0.index ⟨n, hn⟩ (0 : Fin 2) = 0 := (idx_facts0 ⟨n, hn⟩).1
  have f1 : win0_0.index ⟨n, hn⟩ (1 : Fin 2) = n / 49 := (idx_facts0 ⟨n, hn⟩).2.1
  show iblk0 V c 0 ⟨n, hn⟩ (ix2 (0 : Fin 1) p) = _
  unfold iblk0
  rw [View.read_apply]
  show V c main_v11 _ = V c main_v11 _
  congr 1
  funext a
  apply Fin.ext
  match a with
  | ⟨0, _⟩ => show win0_0.index ⟨n, hn⟩ (0 : Fin 2) * 1 + 1 * 0 = 0; rw [f0]
  | ⟨1, _⟩ => show win0_0.index ⟨n, hn⟩ (1 : Fin 2) * 6400 + 1 * p.val = e.val; rw [f1, he]; omega

/-- Row k of the node block at point n is padded node row 1024·(n % 49) + k. -/
theorem rowBlk0_at (c : Dev nD) (n : ℕ) (hn : n < cfg0.N) (k : Fin 1024) (q : Fin 64) (m : Fin 50176)
    (hm : m.val = 1024 * (n % 49) + k.val) :
    rowBlk0 V c ⟨n, hn⟩ (ix2 k q) = rowArr0 V c (ix2 m q) := by
  have f0 : win0_1.index ⟨n, hn⟩ (0 : Fin 2) = n % 49 := (idx_facts0 ⟨n, hn⟩).2.2.1
  have f1 : win0_1.index ⟨n, hn⟩ (1 : Fin 2) = 0 := (idx_facts0 ⟨n, hn⟩).2.2.2.1
  show iblk0 V c 1 ⟨n, hn⟩ (ix2 k q) = _
  unfold iblk0
  rw [View.read_apply]
  show V c main_v16 _ = V c main_v16 _
  congr 1
  funext a
  apply Fin.ext
  match a with
  | ⟨0, _⟩ => show win0_1.index ⟨n, hn⟩ (0 : Fin 2) * 1024 + 1 * k.val = m.val; rw [f0, hm]; omega
  | ⟨1, _⟩ => show win0_1.index ⟨n, hn⟩ (1 : Fin 2) * 64 + 1 * q.val = q.val; rw [f1]; omega

/-! ## The accumulator across a row of the grid -/

/-- The term of padded node number x in the gather of edge e at feature q: its one-hot weight against the edge's
    source word times its row (zero past the last padded node, so that partial sums can run over naturals). -/
def term0 (c : Dev nD) (e : Fin 800000) (q : Fin 64) (x : ℕ) : EReal :=
  if h : x < 50176 then
    KVal.oh (BitVec.ofNat 32 x) (srcArr0 V c (ix2 (0 : Fin 1) e)) * rowArr0 V c (ix2 (⟨x, h⟩ : Fin 50176) q)
  else 0

/-- One point of the grid: if the accumulator the body finds holds the partial sum over the node numbers below
    1024·j (j the point's node block), the one it leaves holds the partial sum below 1024·(j + 1). -/
theorem step0 (c : Dev nD) (n : ℕ) (hn : n < cfg0.N) (a : Vec Ideal S6400x64 .f32) (p : Fin 6400) (q : Fin 64)
    (e : Fin 800000) (he : e.val = 6400 * (n / 49) + p.val)
    (ha : a (ix2 p q) = ∑ x ∈ Finset.range (1024 * (n % 49)), term0 V c e q x) :
    k0_pay2 (grid0.coords ⟨n, hn⟩) (srcBlk0 V c ⟨n, hn⟩) a (rowBlk0 V c ⟨n, hn⟩) (ix2 p q)
      = ∑ x ∈ Finset.range (1024 * (n % 49 + 1)), term0 V c e q x := by
  have fc : (grid0.coords ⟨n, hn⟩ (1 : Fin 2)).val = n % 49 := (idx_facts0 ⟨n, hn⟩).2.2.2.2.2.2
  refine (pay2_at (grid0.coords ⟨n, hn⟩) (srcBlk0 V c ⟨n, hn⟩) a (rowBlk0 V c ⟨n, hn⟩) p q).trans ?_
  rw [ha, show 1024 * (n % 49 + 1) = 1024 * (n % 49) + 1024 by omega, Finset.sum_range_add,
    ← Fin.sum_univ_eq_sum_range (fun x => term0 V c e q (1024 * (n % 49) + x)) 1024]
  refine congrArg (_ + ·) (Finset.sum_congr rfl fun k _ => ?_)
  have hk : k.val < 1024 := k.isLt
  have hlt : 1024 * (n % 49) + k.val < 50176 := by omega
  rw [fc, srcBlk0_at V c n hn p e he, rowBlk0_at V c n hn k q ⟨1024 * (n % 49) + k.val, hlt⟩ rfl]
  unfold term0
  rw [dif_pos hlt]

/-- The accumulator at two equal positions is the same. -/
theorem acc0_congr (c : Dev nD) (m n : ℕ) (hm : m < cfg0.N) (hn : n < cfg0.N) (h : m = n) :
    acc0 V c m hm = acc0 V c n hn := by subst h; rfl

/-- THE ACCUMULATOR'S CLOSED FORM: after the point n = 49·i + j it holds, at edge p of edge block i and feature q,
    the partial sum of the edge's gather over the padded node numbers below 1024·(j + 1). -/
theorem acc0_at (c : Dev nD) (n : ℕ) : ∀ (hn : n < cfg0.N) (p : Fin 6400) (q : Fin 64) (e : Fin 800000),
    e.val = 6400 * (n / 49) + p.val →
    acc0 V c n hn (ix2 p q) = ∑ x ∈ Finset.range (1024 * (n % 49 + 1)), term0 V c e q x := by
  induction n with
  | zero =>
    intro hn p q e he
    refine (congrFun (acc0_first V c ⟨0, hn⟩ rfl) (ix2 p q)).trans ?_
    exact step0 V c 0 hn (k0_pay1 (F := Ideal)) p q e he ((pay1_at p q).trans (by simp))
  | succ n ih =>
    intro hn p q e he
    by_cases h : (n + 1) % 49 = 0
    · refine (congrFun (acc0_first V c ⟨n + 1, hn⟩ h) (ix2 p q)).trans ?_
      exact step0 V c (n + 1) hn (k0_pay1 (F := Ideal)) p q e he ((pay1_at p q).trans (by rw [h]; simp))
    · refine (congrFun (acc0_next V c ⟨n + 1, hn⟩ h) (ix2 p q)).trans ?_
      refine step0 V c (n + 1) hn _ p q e he ?_
      refine (congrFun (acc0_congr V c ((⟨n + 1, hn⟩ : Fin cfg0.N).val - 1) n _ (Nat.lt_of_succ_lt hn) (Nat.add_sub_cancel n 1)) (ix2 p q)).trans ?_
      rw [ih (Nat.lt_of_succ_lt hn) p q e (by omega)]
      congr 2
      omega

/-- The whole sum over the padded node numbers is the gather. -/
theorem sum_term0 (c : Dev nD) (e : Fin 800000) (q : Fin 64) :
    ∑ x ∈ Finset.range 50176, term0 V c e q x
      = KVal.gatherArr (srcArr0 V c) (rowArr0 V c) (ix2 e q) := by
  rw [← Fin.sum_univ_eq_sum_range (fun x => term0 V c e q x) 50176]
  unfold KVal.gatherArr
  refine Finset.sum_congr rfl fun x _ => ?_
  unfold term0
  rw [dif_pos x.isLt]

/-! ## From the blocks written back to the array -/

/-- WHAT A POINT THAT WRITES BACK WRITES: the block of the gather of the two input arrays at the point's edge block. -/
theorem flushed0_eq (c : Dev nD) (t : Fin cfg0.N) (hf : (cfg0.win 2).flush t = true) :
    (dat0 (F := Ideal) V c).flushed 2 t
      = ((cfg0.win 2).blk t).view.read (Elt Ideal) (KVal.gatherArr (srcArr0 V c) (rowArr0 V c)) := by
  have h48 : t.val % 49 = 48 := (flush0_2 t).mp hf
  have g0 : win0_2.index t (0 : Fin 2) = t.val / 49 := (idx_facts0 t).2.2.2.2.1
  have g1 : win0_2.index t (1 : Fin 2) = 0 := (idx_facts0 t).2.2.2.2.2.1
  have hN : cfg0.N = 6125 := N_0
  have ht : t.val < 6125 := hN ▸ t.isLt
  show (cfg0.win 2).cut (grid0.coords t) ((dat0 (F := Ideal) V c).after 2 t) = _
  rw [after0_2]
  funext y
  obtain ⟨p, q, rfl⟩ : ∃ (p : Fin 6400) (q : Fin 64), y = ix2 p q := ⟨y 0, y 1, eq_ix2 y⟩
  have he : 6400 * (t.val / 49) + p.val < 800000 := by have := p.isLt; omega
  rw [View.read_apply]
  have hL : (cfg0.win 2).cut (grid0.coords t) (k0_pay3 (acc0 V c t.val t.isLt)) (ix2 p q) = acc0 V c t.val t.isLt (ix2 p q) := rfl
  refine hL.trans ?_
  refine Eq.trans ?_ (cast_eq _ (KVal.gatherArr (srcArr0 V c) (rowArr0 V c) (((cfg0.win 2).blk t).view.emb (ix2 p q)))).symm
  rw [acc0_at V c t.val t.isLt p q ⟨6400 * (t.val / 49) + p.val, he⟩ rfl, h48, sum_term0]
  congr 1
  funext a
  apply Fin.ext
  match a with
  | ⟨0, _⟩ => show 6400 * (t.val / 49) + p.val = win0_2.index t (0 : Fin 2) * 6400 + 1 * p.val; rw [g0]; omega
  | ⟨1, _⟩ => show q.val = win0_2.index t (1 : Fin 2) * 64 + 1 * q.val; rw [g1]; omega

/-- An index of the output array is in point t's block iff each coordinate is in the block's range on its axis. -/
theorem mem_blk0 (t : Fin cfg0.N) (i : S800000x64.Idx) :
    i ∈ ((cfg0.win 2).blk t).view.set ↔ ∀ a : Fin 2, win0_2.index t a * S6400x64.size a ≤ (i a).val
      ∧ (i a).val < win0_2.index t a * S6400x64.size a + S6400x64.size a := by
  show i ∈ ((View.whole main_v17).slice (win0_2.rect t)).set ↔ _
  rw [View.set_slice_whole, Rect.mem_set_unit]
  exact Iff.rfl

/-- The output array after the region's last point is the whole-array gather of the region's two input arrays. -/
theorem final0 (c : Dev nD) :
    (dat0 (F := Ideal) V c).arrAt 2 cfg0.N = KVal.gatherArr (V c main_v11) (V c main_v16) := by
  have hN : cfg0.N = 6125 := N_0
  refine (dat0 (F := Ideal) V c).arrAt_eq_of_cover 2 (KVal.gatherArr (srcArr0 V c) (rowArr0 V c))
    (fun t hf => flushed0_eq V c t hf) fun i => ?_
  have hi0 : (i 0).val < 800000 := (i 0).isLt
  have hi1 : (i 1).val < 64 := (i 1).isLt
  have hlt : 49 * ((i 0).val / 6400) + 48 < cfg0.N := by rw [hN]; omega
  refine ⟨⟨49 * ((i 0).val / 6400) + 48, hlt⟩, (flush0_2 _).mpr (by show (49 * ((i 0).val / 6400) + 48) % 49 = 48; omega), ?_⟩
  have g0 : win0_2.index ⟨49 * ((i 0).val / 6400) + 48, hlt⟩ (0 : Fin 2) = (49 * ((i 0).val / 6400) + 48) / 49 :=
    (idx_facts0 ⟨49 * ((i 0).val / 6400) + 48, hlt⟩).2.2.2.2.1
  have g1 : win0_2.index ⟨49 * ((i 0).val / 6400) + 48, hlt⟩ (1 : Fin 2) = 0 :=
    (idx_facts0 ⟨49 * ((i 0).val / 6400) + 48, hlt⟩).2.2.2.2.2.1
  rw [mem_blk0]
  intro a
  match a with
  | ⟨0, _⟩ =>
    show win0_2.index ⟨49 * ((i 0).val / 6400) + 48, hlt⟩ (0 : Fin 2) * 6400 ≤ (i 0).val
      ∧ (i 0).val < win0_2.index ⟨49 * ((i 0).val / 6400) + 48, hlt⟩ (0 : Fin 2) * 6400 + 6400
    rw [g0]; omega
  | ⟨1, _⟩ =>
    show win0_2.index ⟨49 * ((i 0).val / 6400) + 48, hlt⟩ (1 : Fin 2) * 64 ≤ (i 1).val
      ∧ (i 1).val < win0_2.index ⟨49 * ((i 0).val / 6400) + 48, hlt⟩ (1 : Fin 2) * 64 + 64
    rw [g1]; omega

end Region0

end Cert.KernelIdeal.Hand

end
-- ==== Proof.RegionVal1.lean ====
/-
  What region 1 leaves in its output array, at the ideal instance: for padded node n and feature d,
  (row + 1/2 · the sum over the 800000 edges of the one-hot weight of n against the edge's destination word times the
  edge's gathered row) · scale.  The grid walks the 49 node blocks, and for each the 125 edge blocks; the accumulator
  after the e-th edge block of a row holds the partial sum over edge blocks 0 … e, the block written back at e = 124
  uses the whole sum; the 49 blocks written back tile the output array.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Scatter1
import proofs.«402452_j12051678232913_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

/-! ## The body's arithmetic at an index -/

/-- The product's left operand index at output (r, c) and contraction position k is (r, k); -/
theorem dot1L_0 (j : S1024x64.Idx) (k : dot_S1024x6400_S6400x64_S1024x64_1_0_0_1_n_n.contr.Idx) :
    (dot_S1024x6400_S6400x64_S1024x64_1_0_0_1_n_n.lhsIdx j k 0 : ℕ) = j 0 := by
  simp [DotDims.lhsIdx, dot_S1024x6400_S6400x64_S1024x64_1_0_0_1_n_n]; rfl
theorem dot1L_1 (j : S1024x64.Idx) (k : dot_S1024x6400_S6400x64_S1024x64_1_0_0_1_n_n.contr.Idx) :
    (dot_S1024x6400_S6400x64_S1024x64_1_0_0_1_n_n.lhsIdx j k 1 : ℕ) = k ⟨0, by decide⟩ := by
  simp [DotDims.lhsIdx, dot_S1024x6400_S6400x64_S1024x64_1_0_0_1_n_n]; rfl
/-- the right operand's is (k, c). -/
theorem dot1R_0 (j : S1024x64.Idx) (k : dot_S1024x6400_S6400x64_S1024x64_1_0_0_1_n_n.contr.Idx) :
    (dot_S1024x6400_S6400x64_S1024x64_1_0_0_1_n_n.rhsIdx j k 0 : ℕ) = k ⟨0, by decide⟩ := by
  simp [DotDims.rhsIdx, dot_S1024x6400_S6400x64_S1024x64_1_0_0_1_n_n]; rfl
theorem dot1R_1 (j : S1024x64.Idx) (k : dot_S1024x6400_S6400x64_S1024x64_1_0_0_1_n_n.contr.Idx) :
    (dot_S1024x6400_S6400x64_S1024x64_1_0_0_1_n_n.rhsIdx j k 1 : ℕ) = j 1 := by
  simp [DotDims.rhsIdx, dot_S1024x6400_S6400x64_S1024x64_1_0_0_1_n_n]; rfl

/-- The block product into the zero accumulator, at (p, q): the sum over the 6400 contracted positions. -/
theorem blockProduct1_apply (L : FVec Ideal S1024x6400 .bf16) (R : FVec Ideal S6400x64 .bf16) (p : Fin 1024) (q : Fin 64) :
    matmul dot_S1024x6400_S6400x64_S1024x64_1_0_0_1_n_n none L R (constant (F := Ideal) S1024x64 .f32 0x00000000#32) (ix2 p q)
      = ∑ k : Fin 6400, L (ix2 p k) * R (ix2 k q) := by
  simp only [matmul]
  rw [Ideal.matmul_constant_zero_apply,
    ← Equiv.sum_comp (contrEquiv1 dot_S1024x6400_S6400x64_S1024x64_1_0_0_1_n_n 6400 rfl rfl).symm]
  refine Finset.sum_congr rfl fun k _ => ?_
  congr 2
  · apply Shape.idx_ext₂
    · exact dot1L_0 _ _
    · exact (dot1L_1 _ _).trans (contrEquiv1_symm_val _ _ _ _ k)
  · apply Shape.idx_ext₂
    · exact (dot1R_0 _ _).trans (contrEquiv1_symm_val _ _ _ _ k)
    · exact dot1R_1 _ _

/-- The one-hot entry: the compare bit widened and converted is 1 where the two words are equal, else 0. -/
theorem onehot1_entry (a b : BitVec 32) :
    (FloatOps.sitofp (F := Ideal) .f32 ((IntOp.cmpi .eq a b).setWidth 32)) = KVal.oh a b := by
  show ((((IntOp.cmpi .eq a b).setWidth 32).toInt : ℝ) : EReal) = _
  unfold KVal.oh IntOp.cmpi
  by_cases h : a = b
  · subst h
    simp
  · rw [if_neg h]
    have hb : (a == b) = false := by simpa using h
    simp [hb]

/-- The node number the body compares at row p of node block n, as a 32-bit word. -/
theorem node_word1 (n p : ℕ) (hn : n < 49) (hp : p < 1024) :
    IntOp.addi (Scalar.muli (BitVec.ofNat 32 n) 1024#32) (BitVec.ofNat 32 p) = BitVec.ofNat 32 (1024 * n + p) := by
  apply BitVec.eq_of_toNat_eq
  show ((BitVec.ofNat 32 n * 1024#32) + BitVec.ofNat 32 p).toNat = _
  simp only [BitVec.toNat_add, BitVec.toNat_mul, BitVec.toNat_ofNat]
  omega

/-- The reset payload is the zero block. -/
theorem k1_pay1_apply (j : S1024x64.Idx) : k1_pay1 (F := Ideal) j = 0 := by
  unfold k1_pay1
  rw [shapeCast_self]
  show Ideal.ofBits .f32 0x00000000#32 = 0
  exact Ideal.ofBits_zero_f32

/-- The update payload at (p, q) of node block n: the accumulator there plus the sum over the edge block's 6400 edges of the
    one-hot weight of node 1024·n + p against the edge's destination word, times the edge's gathered row at q. -/
theorem k1_pay2_apply (i : grid1.Coords) (n : ℕ) (hi : (i 0).val = n) (hn : n < 49)
    (dstw : Vec Ideal S1x6400 .i32) (a : Vec Ideal S1024x64 .f32) (g : Vec Ideal S6400x64 .bf16) (p : Fin 1024) (q : Fin 64) :
    k1_pay2 (F := Ideal) i dstw a g (ix2 p q)
      = a (ix2 p q) + ∑ k : Fin 6400, KVal.oh (BitVec.ofNat 32 (1024 * n + p.val)) (dstw (ix2 (0 : Fin 1) k)) * g (ix2 k q) := by
  unfold k1_pay2
  simp only [shapeCast_self]
  rw [addf_apply]
  refine congrArg (a (ix2 p q) + ·) ((blockProduct1_apply _ _ p q).trans (Finset.sum_congr rfl fun k _ => ?_))
  refine congrArg (· * g (ix2 k q)) ?_
  refine Eq.trans (onehot1_entry _ _) ?_
  refine congrArg₂ KVal.oh ?_ ?_
  · refine (broadcastTo_apply _ broadcasts_S1024x1_S1024x6400 (ix2 p k) (ix2 p (0 : Fin 1)) (fun a => ?_)).trans ?_
    · match a with
      | ⟨0, _⟩ => rfl
      | ⟨1, _⟩ => rfl
    · show IntOp.addi (Scalar.muli (BitVec.ofNat 32 (i 0).val) 1024#32) (iota Kind.tc S1024x1 32 [0] iota_S1024x1_d0_w32 (ix2 p (0 : Fin 1))) = _
      rw [iota_single_apply, hi]
      exact node_word1 n p.val hn p.isLt
  · exact broadcastTo_apply _ broadcasts_S1x6400_S1024x6400 (ix2 p k) (ix2 (0 : Fin 1) k) (fun a => by
      match a with
      | ⟨0, _⟩ => rfl
      | ⟨1, _⟩ => rfl)

/-- The closing payload at an index: (row + 1/2 · accumulator) · scale. -/
theorem k1_pay3_apply (r a s : Vec Ideal S1024x64 .f32) (j : S1024x64.Idx) :
    k1_pay3 (F := Ideal) r a s j = (r j + Ideal.ofBits .f32 0x3F000000#32 * a j) * s j := by
  unfold k1_pay3
  simp only [shapeCast_self]
  rfl

/-! ## The grid's points and the windows' block indices -/

/-- Point t = 125·n + e is node block n = t / 125 and edge block e = t % 125; the destination words' window sits at
    column block e, the gathered rows' at row block e, and the node rows', the scale's and the output's at row block n. -/
theorem point_facts1 : ∀ t : Fin cfg1.N,
    ((grid1.coords t 0).val = t.val / 125 ∧ (grid1.coords t 1).val = t.val % 125)
    ∧ (win1_0.index t (0 : Fin 2) = 0 ∧ win1_0.index t (1 : Fin 2) = t.val % 125)
    ∧ (win1_1.index t (0 : Fin 2) = t.val % 125 ∧ win1_1.index t (1 : Fin 2) = 0)
    ∧ (win1_2.index t (0 : Fin 2) = t.val / 125 ∧ win1_2.index t (1 : Fin 2) = 0)
    ∧ (win1_3.index t (0 : Fin 2) = t.val / 125 ∧ win1_3.index t (1 : Fin 2) = 0)
    ∧ (win1_4.index t (0 : Fin 2) = t.val / 125 ∧ win1_4.index t (1 : Fin 2) = 0) :=
  (by decide +kernel : ∀ t : Fin grid1.N, _)

section Region1
variable (V : (c : Dev nD) → (b : Ref sig .tc) → Buf (Elt Ideal) ((c : Thread nD τ).loc b))

/-! ## The point's blocks as parts of the region's arrays -/

theorem point_lt1 (t : Fin cfg1.N) : t.val / 125 < 49 ∧ t.val % 125 < 125 := by
  have h : t.val < 6125 := Nat.lt_of_lt_of_eq t.isLt N_1
  omega

/-- The destination words of the point's edge block are words 6400·e … 6400·e + 6399 of the destination array. -/
theorem dstBlk1_apply (c : Dev nD) (t : Fin cfg1.N) (k : Fin 6400) (x : Fin 800000) (hx : x.val = 6400 * (t.val % 125) + k.val) :
    dstBlk1 V c t (ix2 (0 : Fin 1) k) = (V c main_v14 : IVec S1x800000 32) (ix2 (0 : Fin 1) x) := by
  obtain ⟨-, ⟨e0, e1⟩, -⟩ := point_facts1 t
  show iblk1 V c 0 t (ix2 (0 : Fin 1) k) = _
  unfold iblk1
  rw [View.read_apply]
  show V c main_v14 _ = V c main_v14 _
  congr 1
  funext a
  apply Fin.ext
  match a with
  | ⟨0, _⟩ => show win1_0.index t (0 : Fin 2) * 1 + 1 * 0 = 0; rw [e0]
  | ⟨1, _⟩ => show win1_0.index t (1 : Fin 2) * 6400 + 1 * k.val = x.val; rw [e1, hx]; omega

/-- The gathered rows of the point's edge block are rows 6400·e … 6400·e + 6399 of the gathered array. -/
theorem gatBlk1_apply (c : Dev nD) (t : Fin cfg1.N) (k : Fin 6400) (q : Fin 64) (x : Fin 800000) (hx : x.val = 6400 * (t.val % 125) + k.val) :
    gatBlk1 V c t (ix2 k q) = (V c main_v17 : FVec Ideal S800000x64 .bf16) (ix2 x q) := by
  obtain ⟨-, -, ⟨e0, e1⟩, -⟩ := point_facts1 t
  show iblk1 V c 1 t (ix2 k q) = _
  unfold iblk1
  rw [View.read_apply]
  show V c main_v17 _ = V c main_v17 _
  congr 1
  funext a
  apply Fin.ext
  match a with
  | ⟨0, _⟩ => show win1_1.index t (0 : Fin 2) * 6400 + 1 * k.val = x.val; rw [e0, hx]; omega
  | ⟨1, _⟩ => show win1_1.index t (1 : Fin 2) * 64 + 1 * q.val = q.val; rw [e1]; omega

/-- The node rows of the point's node block are rows 1024·n … 1024·n + 1023 of the padded node array. -/
theorem rowBlk1_apply (c : Dev nD) (t : Fin cfg1.N) (p : Fin 1024) (q : Fin 64) (i : S50176x64.Idx)
    (h0 : (i 0).val = 1024 * (t.val / 125) + p.val) (h1 : (i 1).val = q.val) :
    rowBlk1 V c t (ix2 p q) = (V c main_v18 : FVec Ideal S50176x64 .f32) i := by
  obtain ⟨-, -, -, ⟨e0, e1⟩, -⟩ := point_facts1 t
  show iblk1 V c 2 t (ix2 p q) = _
  unfold iblk1
  rw [View.read_apply]
  show V c main_v18 _ = V c main_v18 _
  congr 1
  funext a
  apply Fin.ext
  match a with
  | ⟨0, _⟩ => show win1_2.index t (0 : Fin 2) * 1024 + 1 * p.val = (i 0).val; rw [e0, h0]; omega
  | ⟨1, _⟩ => show win1_2.index t (1 : Fin 2) * 64 + 1 * q.val = (i 1).val; rw [e1, h1]; omega

/-- The scale block likewise. -/
theorem sclBlk1_apply (c : Dev nD) (t : Fin cfg1.N) (p : Fin 1024) (q : Fin 64) (i : S50176x64.Idx)
    (h0 : (i 0).val = 1024 * (t.val / 125) + p.val) (h1 : (i 1).val = q.val) :
    sclBlk1 V c t (ix2 p q) = (V c main_v8 : FVec Ideal S50176x64 .f32) i := by
  obtain ⟨-, -, -, -, ⟨e0, e1⟩, -⟩ := point_facts1 t
  show iblk1 V c 3 t (ix2 p q) = _
  unfold iblk1
  rw [View.read_apply]
  show V c main_v8 _ = V c main_v8 _
  congr 1
  funext a
  apply Fin.ext
  match a with
  | ⟨0, _⟩ => show win1_3.index t (0 : Fin 2) * 1024 + 1 * p.val = (i 0).val; rw [e0, h0]; omega
  | ⟨1, _⟩ => show win1_3.index t (1 : Fin 2) * 64 + 1 * q.val = (i 1).val; rw [e1, h1]; omega

/-! ## The accumulator: the partial sum over the edge blocks walked so far -/

/-- Edge x's term for node number r and feature q: the one-hot weight of r against the edge's destination word times the
    edge's gathered row at q (zero beyond the 800000 edges). -/
def edgeTerm1 (c : Dev nD) (r : ℕ) (q : Fin 64) (x : ℕ) : EReal :=
  if h : x < 800000 then
    KVal.oh (BitVec.ofNat 32 r) ((V c main_v14 : IVec S1x800000 32) (ix2 (0 : Fin 1) (⟨x, h⟩ : Fin 800000)))
      * (V c main_v17 : FVec Ideal S800000x64 .bf16) (ix2 (⟨x, h⟩ : Fin 800000) q)
  else 0

/-- One body's update at (p, q): what the accumulator held plus the terms of the point's 6400 edges. -/
theorem acc1_update_apply (c : Dev nD) (t : Fin cfg1.N) (prev : Vec Ideal S1024x64 .f32) (p : Fin 1024) (q : Fin 64) :
    k1_pay2 (F := Ideal) (grid1.coords t) (dstBlk1 V c t) prev (gatBlk1 V c t) (ix2 p q)
      = prev (ix2 p q) + ∑ x ∈ Finset.range 6400, edgeTerm1 V c (1024 * (t.val / 125) + p.val) q (6400 * (t.val % 125) + x) := by
  obtain ⟨⟨g0, -⟩, -⟩ := point_facts1 t
  obtain ⟨hn, he⟩ := point_lt1 t
  refine (k1_pay2_apply (grid1.coords t) (t.val / 125) g0 hn (dstBlk1 V c t) prev (gatBlk1 V c t) p q).trans ?_
  refine congrArg (prev (ix2 p q) + ·) ?_
  rw [Finset.sum_range]
  refine Finset.sum_congr rfl fun k _ => ?_
  have hlt : 6400 * (t.val % 125) + k.val < 800000 := by have := k.isLt; omega
  unfold edgeTerm1
  rw [dif_pos hlt, dstBlk1_apply V c t k ⟨_, hlt⟩ rfl, gatBlk1_apply V c t k q ⟨_, hlt⟩ rfl]

/-- At the first point of a row of the grid the accumulator is the first edge block's terms. -/
theorem acc1_first_sum (c : Dev nD) (t : Fin cfg1.N) (h : t.val % 125 = 0) (p : Fin 1024) (q : Fin 64) :
    acc1 V c t.val t.isLt (ix2 p q)
      = ∑ x ∈ Finset.range (6400 * (t.val % 125 + 1)), edgeTerm1 V c (1024 * (t.val / 125) + p.val) q x := by
  refine (congrFun (acc1_first V c t h) (ix2 p q)).trans ?_
  refine (acc1_update_apply V c t (k1_pay1 (F := Ideal)) p q).trans ?_
  rw [k1_pay1_apply, zero_add, h]
  refine Finset.sum_congr rfl fun x _ => ?_
  rw [Nat.mul_zero, Nat.zero_add]

/-- After the e-th edge block of node block n the accumulator at (p, q) is the sum of the terms of edges 0 … 6400·(e+1) − 1
    for node 1024·n + p. -/
theorem acc1_sum (c : Dev nD) : ∀ (m : ℕ) (hm : m < cfg1.N) (p : Fin 1024) (q : Fin 64),
    acc1 V c m hm (ix2 p q)
      = ∑ x ∈ Finset.range (6400 * (m % 125 + 1)), edgeTerm1 V c (1024 * (m / 125) + p.val) q x
  | 0, hm, p, q => acc1_first_sum V c ⟨0, hm⟩ rfl p q
  | m + 1, hm, p, q => by
    by_cases h : (m + 1) % 125 = 0
    · exact acc1_first_sum V c ⟨m + 1, hm⟩ h p q
    · refine (congrFun (acc1_next V c ⟨m + 1, hm⟩ h) (ix2 p q)).trans ?_
      refine (acc1_update_apply V c ⟨m + 1, hm⟩ _ p q).trans ?_
      show acc1 V c m _ (ix2 p q) + _ = _
      rw [acc1_sum c m _ p q]
      have e1 : m / 125 = (m + 1) / 125 := by omega
      have e2 : m % 125 + 1 = (m + 1) % 125 := by omega
      rw [e1, e2, show 6400 * ((m + 1) % 125 + 1) = 6400 * ((m + 1) % 125) + 6400 from by ring, Finset.sum_range_add]

/-! ## The block written back, and the whole array -/

/-- The terms of all 125 edge blocks are the sum over the 800000 edges. -/
theorem edgeTerm1_total (c : Dev nD) (r : ℕ) (q : Fin 64) :
    ∑ x ∈ Finset.range 800000, edgeTerm1 V c r q x
      = ∑ e : Fin 800000, KVal.oh (BitVec.ofNat 32 r) ((V c main_v14 : IVec S1x800000 32) (ix2 (0 : Fin 1) e))
          * (V c main_v17 : FVec Ideal S800000x64 .bf16) (ix2 e q) := by
  rw [Finset.sum_range]
  refine Finset.sum_congr rfl fun e _ => ?_
  unfold edgeTerm1
  rw [dif_pos e.isLt]

/-- At the last point of a row of the grid, the closing payload at (p, q) of node block n is the scatter's value at
    node row 1024·n + p, feature q. -/
theorem out_entry1 (c : Dev nD) (t : Fin cfg1.N) (h124 : t.val % 125 = 124) (p : Fin 1024) (q : Fin 64) (i : S50176x64.Idx)
    (h0 : (i 0).val = 1024 * (t.val / 125) + p.val) (h1 : (i 1).val = q.val) :
    k1_pay3 (F := Ideal) (rowBlk1 V c t) (acc1 V c t.val t.isLt) (sclBlk1 V c t) (ix2 p q)
      = KVal.scatterArr (V c main_v14) (V c main_v17) (V c main_v18) (V c main_v8) i := by
  refine (k1_pay3_apply (rowBlk1 V c t) (acc1 V c t.val t.isLt) (sclBlk1 V c t) (ix2 p q)).trans ?_
  rw [rowBlk1_apply V c t p q i h0 h1, sclBlk1_apply V c t p q i h0 h1, acc1_sum V c t.val t.isLt p q, h124,
    show 6400 * (124 + 1) = 800000 from rfl, edgeTerm1_total]
  unfold KVal.scatterArr
  have hq : (⟨(i 1).val, idx2_lt1 i⟩ : Fin 64) = q := Fin.ext h1
  rw [hq, h0]

/-- What a flushing point writes back is its block of the whole-array scatter. -/
theorem flushed1_eq (c : Dev nD) (t : Fin cfg1.N) (hf : (cfg1.win 4).flush t = true) :
    (dat1 (F := Ideal) V c).flushed 4 t = ((cfg1.win 4).blk t).view.read (Elt Ideal)
      (KVal.scatterArr (V c main_v14) (V c main_v17) (V c main_v18) (V c main_v8)) := by
  have h124 : t.val % 125 = 124 := (flush1_4 t).mp hf
  obtain ⟨-, -, -, -, -, ⟨o0, o1⟩⟩ := point_facts1 t
  show (cfg1.win 4).cut (grid1.coords t) ((dat1 (F := Ideal) V c).after 4 t) = _
  rw [after1_4]
  funext j
  obtain ⟨p, q, rfl⟩ : ∃ (p : Fin 1024) (q : Fin 64), j = ix2 p q := ⟨j 0, j 1, eq_ix2 j⟩
  rw [View.read_apply]
  refine out_entry1 V c t h124 p q _ ?_ ?_
  · show win1_4.index t (0 : Fin 2) * 1024 + 1 * p.val = _; rw [o0]; omega
  · show win1_4.index t (1 : Fin 2) * 64 + 1 * q.val = _; rw [o1]; omega

/-- An index of the output array is in point t's block iff each coordinate is in the block's range on its axis. -/
theorem mem_blk1 (t : Fin cfg1.N) (i : S50176x64.Idx) :
    i ∈ ((cfg1.win 4).blk t).view.set
      ↔ ∀ a : Fin 2, win1_4.index t a * S1024x64.size a ≤ (i a).val ∧ (i a).val < win1_4.index t a * S1024x64.size a + S1024x64.size a := by
  show i ∈ ((View.whole main_v19).slice (win1_4.rect t)).set ↔ _
  rw [View.set_slice_whole, Rect.mem_set_unit]
  exact Iff.rfl

/-- Node row r lies in the block written back at the last point of its node block's row of the grid. -/
theorem cover1 (i : S50176x64.Idx) :
    ∃ t : Fin cfg1.N, (cfg1.win 4).flush t = true ∧ i ∈ ((cfg1.win 4).blk t).view.set := by
  have hi0 : (i 0).val < 50176 := idx2_lt0 i
  have hi1 : (i 1).val < 64 := idx2_lt1 i
  have hN : cfg1.N = 6125 := N_1
  refine ⟨⟨125 * ((i 0).val / 1024) + 124, by rw [hN]; omega⟩, ?_, ?_⟩
  · rw [flush1_4]; show (125 * ((i 0).val / 1024) + 124) % 125 = 124; omega
  · obtain ⟨-, -, -, -, -, ⟨o0, o1⟩⟩ := point_facts1 ⟨125 * ((i 0).val / 1024) + 124, by rw [hN]; omega⟩
    rw [mem_blk1]
    intro a
    match a with
    | ⟨0, _⟩ =>
      show win1_4.index _ (0 : Fin 2) * 1024 ≤ (i 0).val ∧ (i 0).val < win1_4.index _ (0 : Fin 2) * 1024 + 1024
      rw [o0]; dsimp only; omega
    | ⟨1, _⟩ =>
      show win1_4.index _ (1 : Fin 2) * 64 ≤ (i 1).val ∧ (i 1).val < win1_4.index _ (1 : Fin 2) * 64 + 64
      rw [o1]; omega

/-- The output array after the region's last point is the whole-array scatter of the region's four input arrays. -/
theorem final1 (c : Dev nD) :
    (dat1 (F := Ideal) V c).arrAt 4 cfg1.N
      = KVal.scatterArr (V c main_v14) (V c main_v17) (V c main_v18) (V c main_v8) :=
  (dat1 (F := Ideal) V c).arrAt_eq_of_cover 4 _ (fun t hf => flushed1_eq V c t hf) cover1

end Region1

end Cert.KernelIdeal.Hand

end
-- ==== Proof.RegionVal2.lean ====
/-
  What region 0 leaves in its output array, at the ideal instance: for edge e and feature d, the sum over the 50176
  padded node numbers of the one-hot weight of the node number against the edge's source word, times the node's row.
  The grid walks the 125 edge blocks, and for each the 49 node blocks; the accumulator after the j-th node block of a
  row holds the partial sum over node blocks 0 … j, and the block written back at j = 48 is the whole sum; the 125
  blocks written back tile the output array.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Gather2
import proofs.«402452_j12051678232913_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

/-! ## The grid's index maps -/

/-- The printed index maps over the grid, point by point: at point t = 49·i + j the source window is at column
    block i, the node window at row block j, the output window at row block i, and the body's second grid
    coordinate is j. -/
theorem idx_facts2 : ∀ t : Fin cfg2.N,
    win2_0.index t (0 : Fin 2) = 0 ∧ win2_0.index t (1 : Fin 2) = t.val / 49
    ∧ win2_1.index t (0 : Fin 2) = t.val % 49 ∧ win2_1.index t (1 : Fin 2) = 0
    ∧ win2_2.index t (0 : Fin 2) = t.val / 49 ∧ win2_2.index t (1 : Fin 2) = 0
    ∧ (grid2.coords t (1 : Fin 2)).val = t.val % 49 :=
  (by decide +kernel : ∀ t : Fin grid2.N,
    win2_0.index t (0 : Fin 2) = 0 ∧ win2_0.index t (1 : Fin 2) = t.val / 49
    ∧ win2_1.index t (0 : Fin 2) = t.val % 49 ∧ win2_1.index t (1 : Fin 2) = 0
    ∧ win2_2.index t (0 : Fin 2) = t.val / 49 ∧ win2_2.index t (1 : Fin 2) = 0
    ∧ (grid2.coords t (1 : Fin 2)).val = t.val % 49)

/-! ## The product's operand indices -/

/-! The body's matrix product contracts axis 0 of both operands (the 1024 node numbers of a block): on that axis an
operand's index is the contraction position, on the other axis it is the output's coordinate. -/

theorem lhs_D2_0 (i : S6400x64.Idx) (q : dot_S1024x6400_S1024x64_S6400x64_0_0_1_1_n_n.contr.Idx) :
    (dot_S1024x6400_S1024x64_S6400x64_0_0_1_1_n_n.lhsIdx i q 0).val = (q ⟨0, by decide⟩).val :=
  dot_S1024x6400_S1024x64_S6400x64_0_0_1_1_n_n.lhsIdx_val_of_single rfl i q
theorem lhs_D2_1 (i : S6400x64.Idx) (q : dot_S1024x6400_S1024x64_S6400x64_0_0_1_1_n_n.contr.Idx) :
    (dot_S1024x6400_S1024x64_S6400x64_0_0_1_1_n_n.lhsIdx i q 1).val = (i 0).val := by
  unfold DotDims.lhsIdx
  rw [dif_neg (show ¬(1 : Fin S1024x6400.rank) ∈ dot_S1024x6400_S1024x64_S6400x64_0_0_1_1_n_n.lhsBatch by decide),
    dif_pos (show (1 : Fin S1024x6400.rank) ∈ dot_S1024x6400_S1024x64_S6400x64_0_0_1_1_n_n.lhsNonContracting by decide)]
  rfl
theorem rhs_D2_0 (i : S6400x64.Idx) (q : dot_S1024x6400_S1024x64_S6400x64_0_0_1_1_n_n.contr.Idx) :
    (dot_S1024x6400_S1024x64_S6400x64_0_0_1_1_n_n.rhsIdx i q 0).val = (q ⟨0, by decide⟩).val :=
  dot_S1024x6400_S1024x64_S6400x64_0_0_1_1_n_n.rhsIdx_val_of_single rfl i q
theorem rhs_D2_1 (i : S6400x64.Idx) (q : dot_S1024x6400_S1024x64_S6400x64_0_0_1_1_n_n.contr.Idx) :
    (dot_S1024x6400_S1024x64_S6400x64_0_0_1_1_n_n.rhsIdx i q 1).val = (i 1).val := by
  unfold DotDims.rhsIdx
  rw [dif_neg (show ¬(1 : Fin S1024x64.rank) ∈ dot_S1024x6400_S1024x64_S6400x64_0_0_1_1_n_n.rhsBatch by decide),
    dif_pos (show (1 : Fin S1024x64.rank) ∈ dot_S1024x6400_S1024x64_S6400x64_0_0_1_1_n_n.rhsNonContracting by decide)]
  rfl

/-! ## The body's value at an index -/

/-- The 0/1 entry: the compare bit of two words, widened and converted, is the one-hot weight of the words. -/
theorem onehot_entry2 (a b : BitVec 32) :
    (FloatOps.sitofp (F := Ideal) .f32 ((IntOp.cmpi .eq a b).setWidth 32) : Ideal .f32) = KVal.oh a b := by
  show (((((IntOp.cmpi .eq a b).setWidth 32).toInt : ℝ)) : EReal) = _
  unfold KVal.oh IntOp.cmpi
  by_cases h : a = b
  · subst h; simp
  · have hb : (a == b) = false := by simpa using h
    simp [hb, h]

/-- The node number compared at row k of node block j is 1024·j + k. -/
theorem node_word2 (j k : ℕ) :
    IntOp.addi (Scalar.muli (BitVec.ofNat 32 j) 1024#32) (BitVec.ofNat 32 k) = BitVec.ofNat 32 (1024 * j + k) := by
  show BitVec.ofNat 32 j * 1024#32 + BitVec.ofNat 32 k = _
  rw [BitVec.ofNat_add, BitVec.ofNat_mul, BitVec.mul_comm]

/-- A column [1024, 1] repeated along 6400 columns reads its row. -/
theorem bcast_col2 (x : IVec S1024x1 32) (k : Fin 1024) (p : Fin 6400) :
    broadcastTo S1024x6400 x broadcasts_S1024x1_S1024x6400 (ix2 k p) = x (ix2 k (0 : Fin 1)) :=
  broadcastTo_apply x _ (ix2 k p) (ix2 k (0 : Fin 1)) (fun a => by match a with | ⟨0, _⟩ => rfl | ⟨1, _⟩ => rfl)

/-- A row [1, 6400] repeated along 1024 rows reads its column. -/
theorem bcast_row2 (x : IVec S1x6400 32) (k : Fin 1024) (p : Fin 6400) :
    broadcastTo S1024x6400 x broadcasts_S1x6400_S1024x6400 (ix2 k p) = x (ix2 (0 : Fin 1) p) :=
  broadcastTo_apply x _ (ix2 k p) (ix2 (0 : Fin 1) p) (fun a => by match a with | ⟨0, _⟩ => rfl | ⟨1, _⟩ => rfl)

/-- The body's new accumulator at edge p of the block and feature q: the old accumulator there plus, over the 1024
    nodes of the point's node block, the one-hot weight of the node number against the edge's source word times the
    node's row. -/
theorem pay2_at2 (i : grid2.Coords) (src : Vec Ideal S1x6400 .i32) (a : Vec Ideal S6400x64 .f32)
    (r : Vec Ideal S1024x64 .bf16) (p : Fin 6400) (q : Fin 64) :
    k2_pay2 i src a r (ix2 p q) = a (ix2 p q) + ∑ k : Fin 1024,
      KVal.oh (BitVec.ofNat 32 (1024 * (i 1).val + k.val)) (src (ix2 (0 : Fin 1) p)) * r (ix2 k q) := by
  unfold k2_pay2
  refine (congrFun (shapeCast_self _ _) (ix2 p q)).trans ?_
  refine (addf_apply _ _ _).trans ?_
  refine congrArg (a (ix2 p q) + ·) ?_
  refine (Ideal.matmul_constant_zero_apply dot_S1024x6400_S1024x64_S6400x64_0_0_1_1_n_n none _ _ (ix2 p q)).trans ?_
  rw [← Equiv.sum_comp (contrEquiv1 dot_S1024x6400_S1024x64_S6400x64_0_0_1_1_n_n 1024 rfl rfl).symm]
  refine Finset.sum_congr rfl fun k _ => ?_
  have hk := contrEquiv1_symm_val dot_S1024x6400_S1024x64_S6400x64_0_0_1_1_n_n 1024 rfl rfl k
  have el : dot_S1024x6400_S1024x64_S6400x64_0_0_1_1_n_n.lhsIdx (ix2 p q)
      ((contrEquiv1 dot_S1024x6400_S1024x64_S6400x64_0_0_1_1_n_n 1024 rfl rfl).symm k) = ix2 k p :=
    funext fun a => Fin.ext (by
      match a with
      | ⟨0, _⟩ => exact (lhs_D2_0 _ _).trans hk
      | ⟨1, _⟩ => exact lhs_D2_1 _ _)
  have er : dot_S1024x6400_S1024x64_S6400x64_0_0_1_1_n_n.rhsIdx (ix2 p q)
      ((contrEquiv1 dot_S1024x6400_S1024x64_S6400x64_0_0_1_1_n_n 1024 rfl rfl).symm k) = ix2 k q :=
    funext fun a => Fin.ext (by
      match a with
      | ⟨0, _⟩ => exact (rhs_D2_0 _ _).trans hk
      | ⟨1, _⟩ => exact rhs_D2_1 _ _)
  rw [el, er]
  refine congrArg₂ (· * ·) ?_ (congrFun (shapeCast_self r _) (ix2 k q))
  refine Eq.trans ?_ (onehot_entry2 _ _)
  show FloatOps.sitofp (F := Ideal) .f32 ((IntOp.cmpi .eq _ _).setWidth 32) = _
  refine congrArg (fun w : BitVec 1 => FloatOps.sitofp (F := Ideal) .f32 (w.setWidth 32)) ?_
  refine congrArg₂ (IntOp.cmpi .eq) ?_ ?_
  · refine (bcast_col2 _ k p).trans ?_
    refine Eq.trans ?_ (node_word2 (i 1).val k.val)
    refine congrArg (IntOp.addi _) ?_
    exact iota_single_apply .tc S1024x1 32 0 iota_S1024x1_d0_w32 (ix2 k (0 : Fin 1))
  · refine (bcast_row2 _ k p).trans ?_
    exact congrFun (shapeCast_self src _) (ix2 (0 : Fin 1) p)

/-- The reset value is zero everywhere. -/
theorem pay1_at2 (p : Fin 6400) (q : Fin 64) : (k2_pay1 (F := Ideal)) (ix2 p q) = 0 := by
  unfold k2_pay1
  refine (congrFun (shapeCast_self _ _) (ix2 p q)).trans ?_
  exact Ideal.ofBits_zero_f32

/-- The block written back is the accumulator (the change of format is exact). -/
theorem pay3_at2 (a : Vec Ideal S6400x64 .f32) (p : Fin 6400) (q : Fin 64) : k2_pay3 a (ix2 p q) = a (ix2 p q) := rfl

section Region0
variable (V : (c : Dev nD) → (b : Ref sig .tc) → Buf (Elt Ideal) ((c : Thread nD τ).loc b))

/-! ## The region's two input arrays and the blocks read off them -/

/-- The source words of the 800000 edges, and the 50176 padded node rows, as the region finds them. -/
abbrev srcArr2 (c : Dev nD) : IVec S1x800000 32 := V c main_v11
abbrev rowArr2 (c : Dev nD) : FVec Ideal S50176x64 .bf16 := V c main_v22

/-- Entry p of the source block at point n is the source word of edge 6400·(n / 49) + p. -/
theorem srcBlk2_at (c : Dev nD) (n : ℕ) (hn : n < cfg2.N) (p : Fin 6400) (e : Fin 800000)
    (he : e.val = 6400 * (n / 49) + p.val) :
    srcBlk2 V c ⟨n, hn⟩ (ix2 (0 : Fin 1) p) = srcArr2 V c (ix2 (0 : Fin 1) e) := by
  have f0 : win2_0.index ⟨n, hn⟩ (0 : Fin 2) = 0 := (idx_facts2 ⟨n, hn⟩).1
  have f1 : win2_0.index ⟨n, hn⟩ (1 : Fin 2) = n / 49 := (idx_facts2 ⟨n, hn⟩).2.1
  show iblk2 V c 0 ⟨n, hn⟩ (ix2 (0 : Fin 1) p) = _
  unfold iblk2
  rw [View.read_apply]
  show V c main_v11 _ = V c main_v11 _
  congr 1
  funext a
  apply Fin.ext
  match a with
  | ⟨0, _⟩ => show win2_0.index ⟨n, hn⟩ (0 : Fin 2) * 1 + 1 * 0 = 0; rw [f0]
  | ⟨1, _⟩ => show win2_0.index ⟨n, hn⟩ (1 : Fin 2) * 6400 + 1 * p.val = e.val; rw [f1, he]; omega

/-- Row k of the node block at point n is padded node row 1024·(n % 49) + k. -/
theorem rowBlk2_at (c : Dev nD) (n : ℕ) (hn : n < cfg2.N) (k : Fin 1024) (q : Fin 64) (m : Fin 50176)
    (hm : m.val = 1024 * (n % 49) + k.val) :
    rowBlk2 V c ⟨n, hn⟩ (ix2 k q) = rowArr2 V c (ix2 m q) := by
  have f0 : win2_1.index ⟨n, hn⟩ (0 : Fin 2) = n % 49 := (idx_facts2 ⟨n, hn⟩).2.2.1
  have f1 : win2_1.index ⟨n, hn⟩ (1 : Fin 2) = 0 := (idx_facts2 ⟨n, hn⟩).2.2.2.1
  show iblk2 V c 1 ⟨n, hn⟩ (ix2 k q) = _
  unfold iblk2
  rw [View.read_apply]
  show V c main_v22 _ = V c main_v22 _
  congr 1
  funext a
  apply Fin.ext
  match a with
  | ⟨0, _⟩ => show win2_1.index ⟨n, hn⟩ (0 : Fin 2) * 1024 + 1 * k.val = m.val; rw [f0, hm]; omega
  | ⟨1, _⟩ => show win2_1.index ⟨n, hn⟩ (1 : Fin 2) * 64 + 1 * q.val = q.val; rw [f1]; omega

/-! ## The accumulator across a row of the grid -/

/-- The term of padded node number x in the gather of edge e at feature q: its one-hot weight against the edge's
    source word times its row (zero past the last padded node, so that partial sums can run over naturals). -/
def term2 (c : Dev nD) (e : Fin 800000) (q : Fin 64) (x : ℕ) : EReal :=
  if h : x < 50176 then
    KVal.oh (BitVec.ofNat 32 x) (srcArr2 V c (ix2 (0 : Fin 1) e)) * rowArr2 V c (ix2 (⟨x, h⟩ : Fin 50176) q)
  else 0

/-- One point of the grid: if the accumulator the body finds holds the partial sum over the node numbers below
    1024·j (j the point's node block), the one it leaves holds the partial sum below 1024·(j + 1). -/
theorem step2 (c : Dev nD) (n : ℕ) (hn : n < cfg2.N) (a : Vec Ideal S6400x64 .f32) (p : Fin 6400) (q : Fin 64)
    (e : Fin 800000) (he : e.val = 6400 * (n / 49) + p.val)
    (ha : a (ix2 p q) = ∑ x ∈ Finset.range (1024 * (n % 49)), term2 V c e q x) :
    k2_pay2 (grid2.coords ⟨n, hn⟩) (srcBlk2 V c ⟨n, hn⟩) a (rowBlk2 V c ⟨n, hn⟩) (ix2 p q)
      = ∑ x ∈ Finset.range (1024 * (n % 49 + 1)), term2 V c e q x := by
  have fc : (grid2.coords ⟨n, hn⟩ (1 : Fin 2)).val = n % 49 := (idx_facts2 ⟨n, hn⟩).2.2.2.2.2.2
  refine (pay2_at2 (grid2.coords ⟨n, hn⟩) (srcBlk2 V c ⟨n, hn⟩) a (rowBlk2 V c ⟨n, hn⟩) p q).trans ?_
  rw [ha, show 1024 * (n % 49 + 1) = 1024 * (n % 49) + 1024 by omega, Finset.sum_range_add,
    ← Fin.sum_univ_eq_sum_range (fun x => term2 V c e q (1024 * (n % 49) + x)) 1024]
  refine congrArg (_ + ·) (Finset.sum_congr rfl fun k _ => ?_)
  have hk : k.val < 1024 := k.isLt
  have hlt : 1024 * (n % 49) + k.val < 50176 := by omega
  rw [fc, srcBlk2_at V c n hn p e he, rowBlk2_at V c n hn k q ⟨1024 * (n % 49) + k.val, hlt⟩ rfl]
  unfold term2
  rw [dif_pos hlt]

/-- The accumulator at two equal positions is the same. -/
theorem acc2_congr (c : Dev nD) (m n : ℕ) (hm : m < cfg2.N) (hn : n < cfg2.N) (h : m = n) :
    acc2 V c m hm = acc2 V c n hn := by subst h; rfl

/-- THE ACCUMULATOR'S CLOSED FORM: after the point n = 49·i + j it holds, at edge p of edge block i and feature q,
    the partial sum of the edge's gather over the padded node numbers below 1024·(j + 1). -/
theorem acc2_at (c : Dev nD) (n : ℕ) : ∀ (hn : n < cfg2.N) (p : Fin 6400) (q : Fin 64) (e : Fin 800000),
    e.val = 6400 * (n / 49) + p.val →
    acc2 V c n hn (ix2 p q) = ∑ x ∈ Finset.range (1024 * (n % 49 + 1)), term2 V c e q x := by
  induction n with
  | zero =>
    intro hn p q e he
    refine (congrFun (acc2_first V c ⟨0, hn⟩ rfl) (ix2 p q)).trans ?_
    exact step2 V c 0 hn (k2_pay1 (F := Ideal)) p q e he ((pay1_at2 p q).trans (by simp))
  | succ n ih =>
    intro hn p q e he
    by_cases h : (n + 1) % 49 = 0
    · refine (congrFun (acc2_first V c ⟨n + 1, hn⟩ h) (ix2 p q)).trans ?_
      exact step2 V c (n + 1) hn (k2_pay1 (F := Ideal)) p q e he ((pay1_at2 p q).trans (by rw [h]; simp))
    · refine (congrFun (acc2_next V c ⟨n + 1, hn⟩ h) (ix2 p q)).trans ?_
      refine step2 V c (n + 1) hn _ p q e he ?_
      refine (congrFun (acc2_congr V c ((⟨n + 1, hn⟩ : Fin cfg2.N).val - 1) n _ (Nat.lt_of_succ_lt hn) (Nat.add_sub_cancel n 1)) (ix2 p q)).trans ?_
      rw [ih (Nat.lt_of_succ_lt hn) p q e (by omega)]
      congr 2
      omega

/-- The whole sum over the padded node numbers is the gather. -/
theorem sum_term2 (c : Dev nD) (e : Fin 800000) (q : Fin 64) :
    ∑ x ∈ Finset.range 50176, term2 V c e q x
      = KVal.gatherArr (srcArr2 V c) (rowArr2 V c) (ix2 e q) := by
  rw [← Fin.sum_univ_eq_sum_range (fun x => term2 V c e q x) 50176]
  unfold KVal.gatherArr
  refine Finset.sum_congr rfl fun x _ => ?_
  unfold term2
  rw [dif_pos x.isLt]

/-! ## From the blocks written back to the array -/

/-- WHAT A POINT THAT WRITES BACK WRITES: the block of the gather of the two input arrays at the point's edge block. -/
theorem flushed2_eq (c : Dev nD) (t : Fin cfg2.N) (hf : (cfg2.win 2).flush t = true) :
    (dat2 (F := Ideal) V c).flushed 2 t
      = ((cfg2.win 2).blk t).view.read (Elt Ideal) (KVal.gatherArr (srcArr2 V c) (rowArr2 V c)) := by
  have h48 : t.val % 49 = 48 := (flush2_2 t).mp hf
  have g0 : win2_2.index t (0 : Fin 2) = t.val / 49 := (idx_facts2 t).2.2.2.2.1
  have g1 : win2_2.index t (1 : Fin 2) = 0 := (idx_facts2 t).2.2.2.2.2.1
  have hN : cfg2.N = 6125 := N_2
  have ht : t.val < 6125 := hN ▸ t.isLt
  show (cfg2.win 2).cut (grid2.coords t) ((dat2 (F := Ideal) V c).after 2 t) = _
  rw [after2_2]
  funext y
  obtain ⟨p, q, rfl⟩ : ∃ (p : Fin 6400) (q : Fin 64), y = ix2 p q := ⟨y 0, y 1, eq_ix2 y⟩
  have he : 6400 * (t.val / 49) + p.val < 800000 := by have := p.isLt; omega
  rw [View.read_apply]
  have hL : (cfg2.win 2).cut (grid2.coords t) (k2_pay3 (acc2 V c t.val t.isLt)) (ix2 p q) = acc2 V c t.val t.isLt (ix2 p q) := rfl
  refine hL.trans ?_
  refine Eq.trans ?_ (cast_eq _ (KVal.gatherArr (srcArr2 V c) (rowArr2 V c) (((cfg2.win 2).blk t).view.emb (ix2 p q)))).symm
  rw [acc2_at V c t.val t.isLt p q ⟨6400 * (t.val / 49) + p.val, he⟩ rfl, h48, sum_term2]
  congr 1
  funext a
  apply Fin.ext
  match a with
  | ⟨0, _⟩ => show 6400 * (t.val / 49) + p.val = win2_2.index t (0 : Fin 2) * 6400 + 1 * p.val; rw [g0]; omega
  | ⟨1, _⟩ => show q.val = win2_2.index t (1 : Fin 2) * 64 + 1 * q.val; rw [g1]; omega

/-- An index of the output array is in point t's block iff each coordinate is in the block's range on its axis. -/
theorem mem_blk2 (t : Fin cfg2.N) (i : S800000x64.Idx) :
    i ∈ ((cfg2.win 2).blk t).view.set ↔ ∀ a : Fin 2, win2_2.index t a * S6400x64.size a ≤ (i a).val
      ∧ (i a).val < win2_2.index t a * S6400x64.size a + S6400x64.size a := by
  show i ∈ ((View.whole main_v23).slice (win2_2.rect t)).set ↔ _
  rw [View.set_slice_whole, Rect.mem_set_unit]
  exact Iff.rfl

/-- The output array after the region's last point is the whole-array gather of the region's two input arrays. -/
theorem final2 (c : Dev nD) :
    (dat2 (F := Ideal) V c).arrAt 2 cfg2.N = KVal.gatherArr (V c main_v11) (V c main_v22) := by
  have hN : cfg2.N = 6125 := N_2
  refine (dat2 (F := Ideal) V c).arrAt_eq_of_cover 2 (KVal.gatherArr (srcArr2 V c) (rowArr2 V c))
    (fun t hf => flushed2_eq V c t hf) fun i => ?_
  have hi0 : (i 0).val < 800000 := (i 0).isLt
  have hi1 : (i 1).val < 64 := (i 1).isLt
  have hlt : 49 * ((i 0).val / 6400) + 48 < cfg2.N := by rw [hN]; omega
  refine ⟨⟨49 * ((i 0).val / 6400) + 48, hlt⟩, (flush2_2 _).mpr (by show (49 * ((i 0).val / 6400) + 48) % 49 = 48; omega), ?_⟩
  have g0 : win2_2.index ⟨49 * ((i 0).val / 6400) + 48, hlt⟩ (0 : Fin 2) = (49 * ((i 0).val / 6400) + 48) / 49 :=
    (idx_facts2 ⟨49 * ((i 0).val / 6400) + 48, hlt⟩).2.2.2.2.1
  have g1 : win2_2.index ⟨49 * ((i 0).val / 6400) + 48, hlt⟩ (1 : Fin 2) = 0 :=
    (idx_facts2 ⟨49 * ((i 0).val / 6400) + 48, hlt⟩).2.2.2.2.2.1
  rw [mem_blk2]
  intro a
  match a with
  | ⟨0, _⟩ =>
    show win2_2.index ⟨49 * ((i 0).val / 6400) + 48, hlt⟩ (0 : Fin 2) * 6400 ≤ (i 0).val
      ∧ (i 0).val < win2_2.index ⟨49 * ((i 0).val / 6400) + 48, hlt⟩ (0 : Fin 2) * 6400 + 6400
    rw [g0]; omega
  | ⟨1, _⟩ =>
    show win2_2.index ⟨49 * ((i 0).val / 6400) + 48, hlt⟩ (1 : Fin 2) * 64 ≤ (i 1).val
      ∧ (i 1).val < win2_2.index ⟨49 * ((i 0).val / 6400) + 48, hlt⟩ (1 : Fin 2) * 64 + 64
    rw [g1]; omega

end Region0

end Cert.KernelIdeal.Hand

end
-- ==== Proof.RegionVal3.lean ====
/-
  What region 1 leaves in its output array, at the ideal instance: for padded node n and feature d,
  (row + 1/2 · the sum over the 800000 edges of the one-hot weight of n against the edge's destination word times the
  edge's gathered row) · scale.  The grid walks the 49 node blocks, and for each the 125 edge blocks; the accumulator
  after the e-th edge block of a row holds the partial sum over edge blocks 0 … e, the block written back at e = 124
  uses the whole sum; the 49 blocks written back tile the output array.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Scatter3
import proofs.«402452_j12051678232913_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

/-! ## The body's arithmetic at an index -/

/-- The product's left operand index at output (r, c) and contraction position k is (r, k); -/
theorem dot3L_0 (j : S1024x64.Idx) (k : dot_S1024x6400_S6400x64_S1024x64_1_0_0_1_n_n.contr.Idx) :
    (dot_S1024x6400_S6400x64_S1024x64_1_0_0_1_n_n.lhsIdx j k 0 : ℕ) = j 0 := by
  simp [DotDims.lhsIdx, dot_S1024x6400_S6400x64_S1024x64_1_0_0_1_n_n]; rfl
theorem dot3L_1 (j : S1024x64.Idx) (k : dot_S1024x6400_S6400x64_S1024x64_1_0_0_1_n_n.contr.Idx) :
    (dot_S1024x6400_S6400x64_S1024x64_1_0_0_1_n_n.lhsIdx j k 1 : ℕ) = k ⟨0, by decide⟩ := by
  simp [DotDims.lhsIdx, dot_S1024x6400_S6400x64_S1024x64_1_0_0_1_n_n]; rfl
/-- the right operand's is (k, c). -/
theorem dot3R_0 (j : S1024x64.Idx) (k : dot_S1024x6400_S6400x64_S1024x64_1_0_0_1_n_n.contr.Idx) :
    (dot_S1024x6400_S6400x64_S1024x64_1_0_0_1_n_n.rhsIdx j k 0 : ℕ) = k ⟨0, by decide⟩ := by
  simp [DotDims.rhsIdx, dot_S1024x6400_S6400x64_S1024x64_1_0_0_1_n_n]; rfl
theorem dot3R_1 (j : S1024x64.Idx) (k : dot_S1024x6400_S6400x64_S1024x64_1_0_0_1_n_n.contr.Idx) :
    (dot_S1024x6400_S6400x64_S1024x64_1_0_0_1_n_n.rhsIdx j k 1 : ℕ) = j 1 := by
  simp [DotDims.rhsIdx, dot_S1024x6400_S6400x64_S1024x64_1_0_0_1_n_n]; rfl

/-- The block product into the zero accumulator, at (p, q): the sum over the 6400 contracted positions. -/
theorem blockProduct3_apply (L : FVec Ideal S1024x6400 .bf16) (R : FVec Ideal S6400x64 .bf16) (p : Fin 1024) (q : Fin 64) :
    matmul dot_S1024x6400_S6400x64_S1024x64_1_0_0_1_n_n none L R (constant (F := Ideal) S1024x64 .f32 0x00000000#32) (ix2 p q)
      = ∑ k : Fin 6400, L (ix2 p k) * R (ix2 k q) := by
  simp only [matmul]
  rw [Ideal.matmul_constant_zero_apply,
    ← Equiv.sum_comp (contrEquiv1 dot_S1024x6400_S6400x64_S1024x64_1_0_0_1_n_n 6400 rfl rfl).symm]
  refine Finset.sum_congr rfl fun k _ => ?_
  congr 2
  · apply Shape.idx_ext₂
    · exact dot3L_0 _ _
    · exact (dot3L_1 _ _).trans (contrEquiv1_symm_val _ _ _ _ k)
  · apply Shape.idx_ext₂
    · exact (dot3R_0 _ _).trans (contrEquiv1_symm_val _ _ _ _ k)
    · exact dot3R_1 _ _

/-- The one-hot entry: the compare bit widened and converted is 1 where the two words are equal, else 0. -/
theorem onehot3_entry (a b : BitVec 32) :
    (FloatOps.sitofp (F := Ideal) .f32 ((IntOp.cmpi .eq a b).setWidth 32)) = KVal.oh a b := by
  show ((((IntOp.cmpi .eq a b).setWidth 32).toInt : ℝ) : EReal) = _
  unfold KVal.oh IntOp.cmpi
  by_cases h : a = b
  · subst h
    simp
  · rw [if_neg h]
    have hb : (a == b) = false := by simpa using h
    simp [hb]

/-- The node number the body compares at row p of node block n, as a 32-bit word. -/
theorem node_word3 (n p : ℕ) (hn : n < 49) (hp : p < 1024) :
    IntOp.addi (Scalar.muli (BitVec.ofNat 32 n) 1024#32) (BitVec.ofNat 32 p) = BitVec.ofNat 32 (1024 * n + p) := by
  apply BitVec.eq_of_toNat_eq
  show ((BitVec.ofNat 32 n * 1024#32) + BitVec.ofNat 32 p).toNat = _
  simp only [BitVec.toNat_add, BitVec.toNat_mul, BitVec.toNat_ofNat]
  omega

/-- The reset payload is the zero block. -/
theorem k3_pay1_apply (j : S1024x64.Idx) : k3_pay1 (F := Ideal) j = 0 := by
  unfold k3_pay1
  rw [shapeCast_self]
  show Ideal.ofBits .f32 0x00000000#32 = 0
  exact Ideal.ofBits_zero_f32

/-- The update payload at (p, q) of node block n: the accumulator there plus the sum over the edge block's 6400 edges of the
    one-hot weight of node 1024·n + p against the edge's destination word, times the edge's gathered row at q. -/
theorem k3_pay2_apply (i : grid3.Coords) (n : ℕ) (hi : (i 0).val = n) (hn : n < 49)
    (dstw : Vec Ideal S1x6400 .i32) (a : Vec Ideal S1024x64 .f32) (g : Vec Ideal S6400x64 .bf16) (p : Fin 1024) (q : Fin 64) :
    k3_pay2 (F := Ideal) i dstw a g (ix2 p q)
      = a (ix2 p q) + ∑ k : Fin 6400, KVal.oh (BitVec.ofNat 32 (1024 * n + p.val)) (dstw (ix2 (0 : Fin 1) k)) * g (ix2 k q) := by
  unfold k3_pay2
  simp only [shapeCast_self]
  rw [addf_apply]
  refine congrArg (a (ix2 p q) + ·) ((blockProduct3_apply _ _ p q).trans (Finset.sum_congr rfl fun k _ => ?_))
  refine congrArg (· * g (ix2 k q)) ?_
  refine Eq.trans (onehot3_entry _ _) ?_
  refine congrArg₂ KVal.oh ?_ ?_
  · refine (broadcastTo_apply _ broadcasts_S1024x1_S1024x6400 (ix2 p k) (ix2 p (0 : Fin 1)) (fun a => ?_)).trans ?_
    · match a with
      | ⟨0, _⟩ => rfl
      | ⟨1, _⟩ => rfl
    · show IntOp.addi (Scalar.muli (BitVec.ofNat 32 (i 0).val) 1024#32) (iota Kind.tc S1024x1 32 [0] iota_S1024x1_d0_w32 (ix2 p (0 : Fin 1))) = _
      rw [iota_single_apply, hi]
      exact node_word3 n p.val hn p.isLt
  · exact broadcastTo_apply _ broadcasts_S1x6400_S1024x6400 (ix2 p k) (ix2 (0 : Fin 1) k) (fun a => by
      match a with
      | ⟨0, _⟩ => rfl
      | ⟨1, _⟩ => rfl)

/-- The closing payload at an index: (row + 1/2 · accumulator) · scale. -/
theorem k3_pay3_apply (r a s : Vec Ideal S1024x64 .f32) (j : S1024x64.Idx) :
    k3_pay3 (F := Ideal) r a s j = (r j + Ideal.ofBits .f32 0x3F000000#32 * a j) * s j := by
  unfold k3_pay3
  simp only [shapeCast_self]
  rfl

/-! ## The grid's points and the windows' block indices -/

/-- Point t = 125·n + e is node block n = t / 125 and edge block e = t % 125; the destination words' window sits at
    column block e, the gathered rows' at row block e, and the node rows', the scale's and the output's at row block n. -/
theorem point_facts3 : ∀ t : Fin cfg3.N,
    ((grid3.coords t 0).val = t.val / 125 ∧ (grid3.coords t 1).val = t.val % 125)
    ∧ (win3_0.index t (0 : Fin 2) = 0 ∧ win3_0.index t (1 : Fin 2) = t.val % 125)
    ∧ (win3_1.index t (0 : Fin 2) = t.val % 125 ∧ win3_1.index t (1 : Fin 2) = 0)
    ∧ (win3_2.index t (0 : Fin 2) = t.val / 125 ∧ win3_2.index t (1 : Fin 2) = 0)
    ∧ (win3_3.index t (0 : Fin 2) = t.val / 125 ∧ win3_3.index t (1 : Fin 2) = 0)
    ∧ (win3_4.index t (0 : Fin 2) = t.val / 125 ∧ win3_4.index t (1 : Fin 2) = 0) :=
  (by decide +kernel : ∀ t : Fin grid3.N, _)

section Region1
variable (V : (c : Dev nD) → (b : Ref sig .tc) → Buf (Elt Ideal) ((c : Thread nD τ).loc b))

/-! ## The point's blocks as parts of the region's arrays -/

theorem point_lt3 (t : Fin cfg3.N) : t.val / 125 < 49 ∧ t.val % 125 < 125 := by
  have h : t.val < 6125 := Nat.lt_of_lt_of_eq t.isLt N_3
  omega

/-- The destination words of the point's edge block are words 6400·e … 6400·e + 6399 of the destination array. -/
theorem dstBlk3_apply (c : Dev nD) (t : Fin cfg3.N) (k : Fin 6400) (x : Fin 800000) (hx : x.val = 6400 * (t.val % 125) + k.val) :
    dstBlk3 V c t (ix2 (0 : Fin 1) k) = (V c main_v14 : IVec S1x800000 32) (ix2 (0 : Fin 1) x) := by
  obtain ⟨-, ⟨e0, e1⟩, -⟩ := point_facts3 t
  show iblk3 V c 0 t (ix2 (0 : Fin 1) k) = _
  unfold iblk3
  rw [View.read_apply]
  show V c main_v14 _ = V c main_v14 _
  congr 1
  funext a
  apply Fin.ext
  match a with
  | ⟨0, _⟩ => show win3_0.index t (0 : Fin 2) * 1 + 1 * 0 = 0; rw [e0]
  | ⟨1, _⟩ => show win3_0.index t (1 : Fin 2) * 6400 + 1 * k.val = x.val; rw [e1, hx]; omega

/-- The gathered rows of the point's edge block are rows 6400·e … 6400·e + 6399 of the gathered array. -/
theorem gatBlk3_apply (c : Dev nD) (t : Fin cfg3.N) (k : Fin 6400) (q : Fin 64) (x : Fin 800000) (hx : x.val = 6400 * (t.val % 125) + k.val) :
    gatBlk3 V c t (ix2 k q) = (V c main_v23 : FVec Ideal S800000x64 .bf16) (ix2 x q) := by
  obtain ⟨-, -, ⟨e0, e1⟩, -⟩ := point_facts3 t
  show iblk3 V c 1 t (ix2 k q) = _
  unfold iblk3
  rw [View.read_apply]
  show V c main_v23 _ = V c main_v23 _
  congr 1
  funext a
  apply Fin.ext
  match a with
  | ⟨0, _⟩ => show win3_1.index t (0 : Fin 2) * 6400 + 1 * k.val = x.val; rw [e0, hx]; omega
  | ⟨1, _⟩ => show win3_1.index t (1 : Fin 2) * 64 + 1 * q.val = q.val; rw [e1]; omega

/-- The node rows of the point's node block are rows 1024·n … 1024·n + 1023 of the padded node array. -/
theorem rowBlk3_apply (c : Dev nD) (t : Fin cfg3.N) (p : Fin 1024) (q : Fin 64) (i : S50176x64.Idx)
    (h0 : (i 0).val = 1024 * (t.val / 125) + p.val) (h1 : (i 1).val = q.val) :
    rowBlk3 V c t (ix2 p q) = (V c main_v24 : FVec Ideal S50176x64 .f32) i := by
  obtain ⟨-, -, -, ⟨e0, e1⟩, -⟩ := point_facts3 t
  show iblk3 V c 2 t (ix2 p q) = _
  unfold iblk3
  rw [View.read_apply]
  show V c main_v24 _ = V c main_v24 _
  congr 1
  funext a
  apply Fin.ext
  match a with
  | ⟨0, _⟩ => show win3_2.index t (0 : Fin 2) * 1024 + 1 * p.val = (i 0).val; rw [e0, h0]; omega
  | ⟨1, _⟩ => show win3_2.index t (1 : Fin 2) * 64 + 1 * q.val = (i 1).val; rw [e1, h1]; omega

/-- The scale block likewise. -/
theorem sclBlk3_apply (c : Dev nD) (t : Fin cfg3.N) (p : Fin 1024) (q : Fin 64) (i : S50176x64.Idx)
    (h0 : (i 0).val = 1024 * (t.val / 125) + p.val) (h1 : (i 1).val = q.val) :
    sclBlk3 V c t (ix2 p q) = (V c main_v8 : FVec Ideal S50176x64 .f32) i := by
  obtain ⟨-, -, -, -, ⟨e0, e1⟩, -⟩ := point_facts3 t
  show iblk3 V c 3 t (ix2 p q) = _
  unfold iblk3
  rw [View.read_apply]
  show V c main_v8 _ = V c main_v8 _
  congr 1
  funext a
  apply Fin.ext
  match a with
  | ⟨0, _⟩ => show win3_3.index t (0 : Fin 2) * 1024 + 1 * p.val = (i 0).val; rw [e0, h0]; omega
  | ⟨1, _⟩ => show win3_3.index t (1 : Fin 2) * 64 + 1 * q.val = (i 1).val; rw [e1, h1]; omega

/-! ## The accumulator: the partial sum over the edge blocks walked so far -/

/-- Edge x's term for node number r and feature q: the one-hot weight of r against the edge's destination word times the
    edge's gathered row at q (zero beyond the 800000 edges). -/
def edgeTerm3 (c : Dev nD) (r : ℕ) (q : Fin 64) (x : ℕ) : EReal :=
  if h : x < 800000 then
    KVal.oh (BitVec.ofNat 32 r) ((V c main_v14 : IVec S1x800000 32) (ix2 (0 : Fin 1) (⟨x, h⟩ : Fin 800000)))
      * (V c main_v23 : FVec Ideal S800000x64 .bf16) (ix2 (⟨x, h⟩ : Fin 800000) q)
  else 0

/-- One body's update at (p, q): what the accumulator held plus the terms of the point's 6400 edges. -/
theorem acc3_update_apply (c : Dev nD) (t : Fin cfg3.N) (prev : Vec Ideal S1024x64 .f32) (p : Fin 1024) (q : Fin 64) :
    k3_pay2 (F := Ideal) (grid3.coords t) (dstBlk3 V c t) prev (gatBlk3 V c t) (ix2 p q)
      = prev (ix2 p q) + ∑ x ∈ Finset.range 6400, edgeTerm3 V c (1024 * (t.val / 125) + p.val) q (6400 * (t.val % 125) + x) := by
  obtain ⟨⟨g0, -⟩, -⟩ := point_facts3 t
  obtain ⟨hn, he⟩ := point_lt3 t
  refine (k3_pay2_apply (grid3.coords t) (t.val / 125) g0 hn (dstBlk3 V c t) prev (gatBlk3 V c t) p q).trans ?_
  refine congrArg (prev (ix2 p q) + ·) ?_
  rw [Finset.sum_range]
  refine Finset.sum_congr rfl fun k _ => ?_
  have hlt : 6400 * (t.val % 125) + k.val < 800000 := by have := k.isLt; omega
  unfold edgeTerm3
  rw [dif_pos hlt, dstBlk3_apply V c t k ⟨_, hlt⟩ rfl, gatBlk3_apply V c t k q ⟨_, hlt⟩ rfl]

/-- At the first point of a row of the grid the accumulator is the first edge block's terms. -/
theorem acc3_first_sum (c : Dev nD) (t : Fin cfg3.N) (h : t.val % 125 = 0) (p : Fin 1024) (q : Fin 64) :
    acc3 V c t.val t.isLt (ix2 p q)
      = ∑ x ∈ Finset.range (6400 * (t.val % 125 + 1)), edgeTerm3 V c (1024 * (t.val / 125) + p.val) q x := by
  refine (congrFun (acc3_first V c t h) (ix2 p q)).trans ?_
  refine (acc3_update_apply V c t (k3_pay1 (F := Ideal)) p q).trans ?_
  rw [k3_pay1_apply, zero_add, h]
  refine Finset.sum_congr rfl fun x _ => ?_
  rw [Nat.mul_zero, Nat.zero_add]

/-- After the e-th edge block of node block n the accumulator at (p, q) is the sum of the terms of edges 0 … 6400·(e+1) − 1
    for node 1024·n + p. -/
theorem acc3_sum (c : Dev nD) : ∀ (m : ℕ) (hm : m < cfg3.N) (p : Fin 1024) (q : Fin 64),
    acc3 V c m hm (ix2 p q)
      = ∑ x ∈ Finset.range (6400 * (m % 125 + 1)), edgeTerm3 V c (1024 * (m / 125) + p.val) q x
  | 0, hm, p, q => acc3_first_sum V c ⟨0, hm⟩ rfl p q
  | m + 1, hm, p, q => by
    by_cases h : (m + 1) % 125 = 0
    · exact acc3_first_sum V c ⟨m + 1, hm⟩ h p q
    · refine (congrFun (acc3_next V c ⟨m + 1, hm⟩ h) (ix2 p q)).trans ?_
      refine (acc3_update_apply V c ⟨m + 1, hm⟩ _ p q).trans ?_
      show acc3 V c m _ (ix2 p q) + _ = _
      rw [acc3_sum c m _ p q]
      have e1 : m / 125 = (m + 1) / 125 := by omega
      have e2 : m % 125 + 1 = (m + 1) % 125 := by omega
      rw [e1, e2, show 6400 * ((m + 1) % 125 + 1) = 6400 * ((m + 1) % 125) + 6400 from by ring, Finset.sum_range_add]

/-! ## The block written back, and the whole array -/

/-- The terms of all 125 edge blocks are the sum over the 800000 edges. -/
theorem edgeTerm3_total (c : Dev nD) (r : ℕ) (q : Fin 64) :
    ∑ x ∈ Finset.range 800000, edgeTerm3 V c r q x
      = ∑ e : Fin 800000, KVal.oh (BitVec.ofNat 32 r) ((V c main_v14 : IVec S1x800000 32) (ix2 (0 : Fin 1) e))
          * (V c main_v23 : FVec Ideal S800000x64 .bf16) (ix2 e q) := by
  rw [Finset.sum_range]
  refine Finset.sum_congr rfl fun e _ => ?_
  unfold edgeTerm3
  rw [dif_pos e.isLt]

/-- At the last point of a row of the grid, the closing payload at (p, q) of node block n is the scatter's value at
    node row 1024·n + p, feature q. -/
theorem out_entry3 (c : Dev nD) (t : Fin cfg3.N) (h124 : t.val % 125 = 124) (p : Fin 1024) (q : Fin 64) (i : S50176x64.Idx)
    (h0 : (i 0).val = 1024 * (t.val / 125) + p.val) (h1 : (i 1).val = q.val) :
    k3_pay3 (F := Ideal) (rowBlk3 V c t) (acc3 V c t.val t.isLt) (sclBlk3 V c t) (ix2 p q)
      = KVal.scatterArr (V c main_v14) (V c main_v23) (V c main_v24) (V c main_v8) i := by
  refine (k3_pay3_apply (rowBlk3 V c t) (acc3 V c t.val t.isLt) (sclBlk3 V c t) (ix2 p q)).trans ?_
  rw [rowBlk3_apply V c t p q i h0 h1, sclBlk3_apply V c t p q i h0 h1, acc3_sum V c t.val t.isLt p q, h124,
    show 6400 * (124 + 1) = 800000 from rfl, edgeTerm3_total]
  unfold KVal.scatterArr
  have hq : (⟨(i 1).val, idx2_lt1 i⟩ : Fin 64) = q := Fin.ext h1
  rw [hq, h0]

/-- What a flushing point writes back is its block of the whole-array scatter. -/
theorem flushed3_eq (c : Dev nD) (t : Fin cfg3.N) (hf : (cfg3.win 4).flush t = true) :
    (dat3 (F := Ideal) V c).flushed 4 t = ((cfg3.win 4).blk t).view.read (Elt Ideal)
      (KVal.scatterArr (V c main_v14) (V c main_v23) (V c main_v24) (V c main_v8)) := by
  have h124 : t.val % 125 = 124 := (flush3_4 t).mp hf
  obtain ⟨-, -, -, -, -, ⟨o0, o1⟩⟩ := point_facts3 t
  show (cfg3.win 4).cut (grid3.coords t) ((dat3 (F := Ideal) V c).after 4 t) = _
  rw [after3_4]
  funext j
  obtain ⟨p, q, rfl⟩ : ∃ (p : Fin 1024) (q : Fin 64), j = ix2 p q := ⟨j 0, j 1, eq_ix2 j⟩
  rw [View.read_apply]
  refine out_entry3 V c t h124 p q _ ?_ ?_
  · show win3_4.index t (0 : Fin 2) * 1024 + 1 * p.val = _; rw [o0]; omega
  · show win3_4.index t (1 : Fin 2) * 64 + 1 * q.val = _; rw [o1]; omega

/-- An index of the output array is in point t's block iff each coordinate is in the block's range on its axis. -/
theorem mem_blk3 (t : Fin cfg3.N) (i : S50176x64.Idx) :
    i ∈ ((cfg3.win 4).blk t).view.set
      ↔ ∀ a : Fin 2, win3_4.index t a * S1024x64.size a ≤ (i a).val ∧ (i a).val < win3_4.index t a * S1024x64.size a + S1024x64.size a := by
  show i ∈ ((View.whole main_v25).slice (win3_4.rect t)).set ↔ _
  rw [View.set_slice_whole, Rect.mem_set_unit]
  exact Iff.rfl

/-- Node row r lies in the block written back at the last point of its node block's row of the grid. -/
theorem cover3 (i : S50176x64.Idx) :
    ∃ t : Fin cfg3.N, (cfg3.win 4).flush t = true ∧ i ∈ ((cfg3.win 4).blk t).view.set := by
  have hi0 : (i 0).val < 50176 := idx2_lt0 i
  have hi1 : (i 1).val < 64 := idx2_lt1 i
  have hN : cfg3.N = 6125 := N_3
  refine ⟨⟨125 * ((i 0).val / 1024) + 124, by rw [hN]; omega⟩, ?_, ?_⟩
  · rw [flush3_4]; show (125 * ((i 0).val / 1024) + 124) % 125 = 124; omega
  · obtain ⟨-, -, -, -, -, ⟨o0, o1⟩⟩ := point_facts3 ⟨125 * ((i 0).val / 1024) + 124, by rw [hN]; omega⟩
    rw [mem_blk3]
    intro a
    match a with
    | ⟨0, _⟩ =>
      show win3_4.index _ (0 : Fin 2) * 1024 ≤ (i 0).val ∧ (i 0).val < win3_4.index _ (0 : Fin 2) * 1024 + 1024
      rw [o0]; dsimp only; omega
    | ⟨1, _⟩ =>
      show win3_4.index _ (1 : Fin 2) * 64 ≤ (i 1).val ∧ (i 1).val < win3_4.index _ (1 : Fin 2) * 64 + 64
      rw [o1]; omega

/-- The output array after the region's last point is the whole-array scatter of the region's four input arrays. -/
theorem final3 (c : Dev nD) :
    (dat3 (F := Ideal) V c).arrAt 4 cfg3.N
      = KVal.scatterArr (V c main_v14) (V c main_v23) (V c main_v24) (V c main_v8) :=
  (dat3 (F := Ideal) V c).arrAt_eq_of_cover 4 _ (fun t hf => flushed3_eq V c t hf) cover3

end Region1

end Cert.KernelIdeal.Hand

end
-- ==== Proof.HostGlue.lean ====
/-
  The kernel's result as a function of its arguments, at the ideal instance: the result buffer at the end is the
  last slice of the fourth launch's output; each launch's output is the whole-array gather or scatter of its input
  arrays; each of those is a host operation's result or an earlier launch's output, read back through the items that
  leave it unchanged, down to the arguments.
-/
import proofs.«402452_j12051678232913_1_alg».proof.Proof.Gen.KernelIdeal.Launch
import proofs.«402452_j12051678232913_1_alg».proof.Proof.Gen.KernelIdeal.Skeleton
import proofs.«402452_j12051678232913_1_alg».proof.Proof.Gen.KernelIdeal.Points
import proofs.«402452_j12051678232913_1_alg».proof.Proof.Vals
import proofs.«402452_j12051678232913_1_alg».proof.Proof.RegionVal0
import proofs.«402452_j12051678232913_1_alg».proof.Proof.RegionVal1
import proofs.«402452_j12051678232913_1_alg».proof.Proof.RegionVal2
import proofs.«402452_j12051678232913_1_alg».proof.Proof.RegionVal3
import proofs.«402452_j12051678232913_1_alg».proof.Proof.KDefs
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ)

theorem W15_v26 (c : Dev nD) :
    (W15 (F := Ideal) m c main_v26 : FVec Ideal S50000x64 .f32)
      = extractStridedSlice S50000x64 ![0, 0] (W14 (F := Ideal) m c main_v25 : FVec Ideal S50176x64 .f32)
          slices_S50176x64_S50000x64_0_0 := by
  show StableHlo.after hostOps4 (W14 m c) (Proc.devRef .tc main_v26) = _
  after_results
  all_goals (first | rfl | (simp only [StableHlo.TRef.ofBuf, StableHlo.TRef.toBuf, cast_eq]; rfl))

theorem W1_cst_2 (c : Dev nD) :
    (W1 (F := Ideal) m c main_cst_2 : FVec Ideal S_ .f32) = constant (F := Ideal) S_ .f32 0x3F800000#32 := by
  show StableHlo.after hostOps0 (W0 m c) (Proc.devRef .tc main_cst_2) = _
  after_results
  all_goals (first | rfl | (simp only [StableHlo.TRef.ofBuf, StableHlo.TRef.toBuf, cast_eq]; rfl))

theorem W1_v5 (c : Dev nD) :
    (W1 (F := Ideal) m c main_v5 : FVec Ideal S50000 .f32) = KVal.f2 (m ((c : Thread nD τ).loc main_arg1)) := by
  show StableHlo.after hostOps0 (W0 m c) (Proc.devRef .tc main_v5) = _
  after_results
  all_goals (first | rfl | (simp only [StableHlo.TRef.ofBuf, StableHlo.TRef.toBuf, cast_eq]; rfl))

theorem W2_v6 (c : Dev nD) :
    (W2 (F := Ideal) m c main_v6 : FVec Ideal S50176 .f32)
      = pad S50176 ![0] ![176] ![0] (W1 (F := Ideal) m c main_v5 : FVec Ideal S50000 .f32)
          (id (W1 (F := Ideal) m c main_cst_2 : FVec Ideal S_ .f32)) pads_S50000_S50176_01760 h_S_ := by
  show StableHlo.after hostOps0_1 (W1 m c) (Proc.devRef .tc main_v6) = _
  after_results
  all_goals (first | rfl | (simp only [StableHlo.TRef.ofBuf, StableHlo.TRef.toBuf, cast_eq]; rfl))

theorem W3_v8 (c : Dev nD) :
    (W3 (F := Ideal) m c main_v8 : FVec Ideal S50176x64 .f32)
      = broadcastInDim S50176x64 ![0, 1] bcast_S50176x1_S50176x64_0_1
          (broadcastInDim S50176x1 ![0] bcast_S50176_S50176x1_0 (W2 (F := Ideal) m c main_v6 : FVec Ideal S50176 .f32)) := by
  show StableHlo.after hostOps0_2 (W2 m c) (Proc.devRef .tc main_v8) = _
  after_results
  all_goals (first | rfl | (simp only [StableHlo.TRef.ofBuf, StableHlo.TRef.toBuf, cast_eq]; rfl))

theorem W3_v11 (c : Dev nD) :
    (W3 (F := Ideal) m c main_v11 : IVec S1x800000 32) = KVal.srcA (W2 (F := Ideal) m c main_arg2 : IVec S2x800000 32) := by
  show StableHlo.after hostOps0_2 (W2 m c) (Proc.devRef .tc main_v11) = _
  after_results
  all_goals (first | rfl | (simp only [StableHlo.TRef.ofBuf, StableHlo.TRef.toBuf, cast_eq]; rfl))

theorem W3_v14 (c : Dev nD) :
    (W3 (F := Ideal) m c main_v14 : IVec S1x800000 32) = KVal.dstA (W2 (F := Ideal) m c main_arg2 : IVec S2x800000 32) := by
  show StableHlo.after hostOps0_2 (W2 m c) (Proc.devRef .tc main_v14) = _
  after_results
  all_goals (first | rfl | (simp only [StableHlo.TRef.ofBuf, StableHlo.TRef.toBuf, cast_eq]; rfl))

theorem W4_v16 (c : Dev nD) :
    (W4 (F := Ideal) m c main_v16 : FVec Ideal S50176x64 .bf16)
      = KVal.padB (truncf .bf16 (W2 (F := Ideal) m c main_arg0 : FVec Ideal S50000x64 .f32) bitsLt_bf16_f32) := by
  show StableHlo.after hostOps0_3 (StableHlo.after hostOps0_2 (W2 m c)) (Proc.devRef .tc main_v16) = _
  after_results
  all_goals (first | rfl | (simp only [StableHlo.TRef.ofBuf, StableHlo.TRef.toBuf, cast_eq]; rfl))

theorem W2_arg0 (c : Dev nD) : (W2 (F := Ideal) m c main_arg0 : FVec Ideal S50000x64 .f32) = (m ((c : Thread nD τ).loc main_arg0)) :=
  (W2_of m c main_arg0 (by decide)).trans <| (W1_of m c main_arg0 (by decide)).trans <| rfl
theorem W2_arg2 (c : Dev nD) : (W2 (F := Ideal) m c main_arg2 : IVec S2x800000 32) = (m ((c : Thread nD τ).loc main_arg2)) :=
  (W2_of m c main_arg2 (by decide)).trans <| (W1_of m c main_arg2 (by decide)).trans <| rfl
theorem W5_arg0 (c : Dev nD) : (W5 (F := Ideal) m c main_arg0 : FVec Ideal S50000x64 .f32) = (m ((c : Thread nD τ).loc main_arg0)) :=
  (W5_of_ne m c main_arg0 (by decide)).trans <| (W4_of m c main_arg0 (by decide)).trans <| (W3_of m c main_arg0 (by decide)).trans <| (W2_of m c main_arg0 (by decide)).trans <| (W1_of m c main_arg0 (by decide)).trans <| rfl

/-- The scale array, padded and repeated, as the first three stretches leave it. -/
theorem W3_scl (c : Dev nD) : (W3 (F := Ideal) m c main_v8 : FVec Ideal S50176x64 .f32) = KVal.sclArr (m ((c : Thread nD τ).loc main_arg1)) := by
  rw [W3_v8, W2_v6, W1_v5, W1_cst_2]; rfl
theorem W3_src (c : Dev nD) : (W3 (F := Ideal) m c main_v11 : IVec S1x800000 32) = KVal.srcA (m ((c : Thread nD τ).loc main_arg2)) := by
  rw [W3_v11, W2_arg2]
theorem W3_dst (c : Dev nD) : (W3 (F := Ideal) m c main_v14 : IVec S1x800000 32) = KVal.dstA (m ((c : Thread nD τ).loc main_arg2)) := by
  rw [W3_v14, W2_arg2]

/-! ## The first launch -/

theorem W4_src (c : Dev nD) : (W4 (F := Ideal) m c main_v11 : IVec S1x800000 32) = KVal.srcA (m ((c : Thread nD τ).loc main_arg2)) :=
  (W4_of m c main_v11 (by decide)).trans <| W3_src m c
theorem W4_rows (c : Dev nD) : (W4 (F := Ideal) m c main_v16 : FVec Ideal S50176x64 .bf16) = KVal.padB (truncf .bf16 (m ((c : Thread nD τ).loc main_arg0)) bitsLt_bf16_f32) := by
  rw [W4_v16, W2_arg0]
theorem W5_v17 (c : Dev nD) :
    (W5 (F := Ideal) m c main_v17 : FVec Ideal S800000x64 .bf16) = KVal.gatherArr (KVal.srcA (m ((c : Thread nD τ).loc main_arg2))) (KVal.padB (truncf .bf16 (m ((c : Thread nD τ).loc main_arg0)) bitsLt_bf16_f32)) := by
  refine ((W5_arr (F := Ideal) m c 2).trans (final0 (R4 m) c)).trans ?_
  show KVal.gatherArr (W4 (F := Ideal) m c main_v11 : IVec S1x800000 32) (W4 (F := Ideal) m c main_v16 : FVec Ideal S50176x64 .bf16) = _
  rw [W4_src, W4_rows]

/-! ## The second launch -/

theorem W7_v18 (c : Dev nD) : (W7 (F := Ideal) m c main_v18 : FVec Ideal S50176x64 .f32) = KVal.padF (W5 (F := Ideal) m c main_arg0 : FVec Ideal S50000x64 .f32) := by
  show StableHlo.after hostOps1_1 (StableHlo.after hostOps1 (W5 m c)) (Proc.devRef .tc main_v18) = _
  after_results
  all_goals (first | rfl | (simp only [StableHlo.TRef.ofBuf, StableHlo.TRef.toBuf, cast_eq]; rfl))
theorem W7_rows (c : Dev nD) : (W7 (F := Ideal) m c main_v18 : FVec Ideal S50176x64 .f32) = KVal.padF (m ((c : Thread nD τ).loc main_arg0)) := by
  rw [W7_v18, W5_arg0]
theorem W7_dst (c : Dev nD) : (W7 (F := Ideal) m c main_v14 : IVec S1x800000 32) = KVal.dstA (m ((c : Thread nD τ).loc main_arg2)) :=
  (W7_of m c main_v14 (by decide)).trans <| (W6_of m c main_v14 (by decide)).trans <| (W5_of_ne m c main_v14 (by decide)).trans <| (W4_of m c main_v14 (by decide)).trans <| W3_dst m c
theorem W7_scl (c : Dev nD) : (W7 (F := Ideal) m c main_v8 : FVec Ideal S50176x64 .f32) = KVal.sclArr (m ((c : Thread nD τ).loc main_arg1)) :=
  (W7_of m c main_v8 (by decide)).trans <| (W6_of m c main_v8 (by decide)).trans <| (W5_of_ne m c main_v8 (by decide)).trans <| (W4_of m c main_v8 (by decide)).trans <| W3_scl m c
theorem W7_gat (c : Dev nD) :
    (W7 (F := Ideal) m c main_v17 : FVec Ideal S800000x64 .bf16) = KVal.gatherArr (KVal.srcA (m ((c : Thread nD τ).loc main_arg2))) (KVal.padB (truncf .bf16 (m ((c : Thread nD τ).loc main_arg0)) bitsLt_bf16_f32)) :=
  (W7_of m c main_v17 (by decide)).trans <| (W6_of m c main_v17 (by decide)).trans <| W5_v17 m c
theorem W8_v19 (c : Dev nD) :
    (W8 (F := Ideal) m c main_v19 : FVec Ideal S50176x64 .f32) = KVal.scatterArr (KVal.dstA (m ((c : Thread nD τ).loc main_arg2)))
      (KVal.gatherArr (KVal.srcA (m ((c : Thread nD τ).loc main_arg2))) (KVal.padB (truncf .bf16 (m ((c : Thread nD τ).loc main_arg0)) bitsLt_bf16_f32))) (KVal.padF (m ((c : Thread nD τ).loc main_arg0))) (KVal.sclArr (m ((c : Thread nD τ).loc main_arg1))) := by
  refine ((W8_arr (F := Ideal) m c 4).trans (final1 (R7 m) c)).trans ?_
  show KVal.scatterArr (W7 (F := Ideal) m c main_v14 : IVec S1x800000 32) (W7 (F := Ideal) m c main_v17 : FVec Ideal S800000x64 .bf16) (W7 (F := Ideal) m c main_v18 : FVec Ideal S50176x64 .f32) (W7 (F := Ideal) m c main_v8 : FVec Ideal S50176x64 .f32) = _
  rw [W7_dst, W7_gat, W7_rows, W7_scl]

/-! ## The midpoint: one step of the arguments -/

theorem W9_v20_raw (c : Dev nD) :
    (W9 (F := Ideal) m c main_v20 : FVec Ideal S50000x64 .f32) = extractStridedSlice S50000x64 ![0, 0] (W8 (F := Ideal) m c main_v19 : FVec Ideal S50176x64 .f32) slices_S50176x64_S50000x64_0_0 := by
  show StableHlo.after hostOps2 (W8 m c) (Proc.devRef .tc main_v20) = _
  after_results
  all_goals (first | rfl | (simp only [StableHlo.TRef.ofBuf, StableHlo.TRef.toBuf, cast_eq]; rfl))
theorem W9_v20 (c : Dev nD) : (W9 (F := Ideal) m c main_v20 : FVec Ideal S50000x64 .f32) = KVal.kstep (m ((c : Thread nD τ).loc main_arg2)) (m ((c : Thread nD τ).loc main_arg1)) (m ((c : Thread nD τ).loc main_arg0)) := by
  rw [W9_v20_raw, W8_v19]; rfl

/-! ## The third launch -/

theorem W10_v22 (c : Dev nD) :
    (W10 (F := Ideal) m c main_v22 : FVec Ideal S50176x64 .bf16) = KVal.padB (truncf .bf16
      (extractStridedSlice S50000x64 ![0, 0] (W8 (F := Ideal) m c main_v19 : FVec Ideal S50176x64 .f32) slices_S50176x64_S50000x64_0_0 : FVec Ideal S50000x64 .f32) bitsLt_bf16_f32) := by
  show StableHlo.after hostOps2_1 (StableHlo.after hostOps2 (W8 m c)) (Proc.devRef .tc main_v22) = _
  after_results
  all_goals (first | rfl | (simp only [StableHlo.TRef.ofBuf, StableHlo.TRef.toBuf, cast_eq]; rfl))
theorem W10_rows (c : Dev nD) : (W10 (F := Ideal) m c main_v22 : FVec Ideal S50176x64 .bf16) = KVal.padB (truncf .bf16 (KVal.kstep (m ((c : Thread nD τ).loc main_arg2)) (m ((c : Thread nD τ).loc main_arg1)) (m ((c : Thread nD τ).loc main_arg0))) bitsLt_bf16_f32) := by
  rw [W10_v22, ← W9_v20_raw, W9_v20]
/-- An input array of the first launch is as entered at its exit. -/
theorem W5_src (c : Dev nD) : (W5 (F := Ideal) m c main_v11 : IVec S1x800000 32) = KVal.srcA (m ((c : Thread nD τ).loc main_arg2)) :=
  ((W5_arr (F := Ideal) m c 0).trans (((dat0 (R4 m) c).arrAt_in 0 (by decide) cfg0.N).trans (A_eq0 (R4 m) c 0))).trans (W4_src m c)
theorem W10_src (c : Dev nD) : (W10 (F := Ideal) m c main_v11 : IVec S1x800000 32) = KVal.srcA (m ((c : Thread nD τ).loc main_arg2)) :=
  (W10_of m c main_v11 (by decide)).trans <| (W9_of m c main_v11 (by decide)).trans <| (W8_of_ne m c main_v11 (by decide)).trans <| (W7_of m c main_v11 (by decide)).trans <| (W6_of m c main_v11 (by decide)).trans <| W5_src m c
theorem W11_v23 (c : Dev nD) :
    (W11 (F := Ideal) m c main_v23 : FVec Ideal S800000x64 .bf16) = KVal.gatherArr (KVal.srcA (m ((c : Thread nD τ).loc main_arg2))) (KVal.padB (truncf .bf16 (KVal.kstep (m ((c : Thread nD τ).loc main_arg2)) (m ((c : Thread nD τ).loc main_arg1)) (m ((c : Thread nD τ).loc main_arg0))) bitsLt_bf16_f32)) := by
  refine ((W11_arr (F := Ideal) m c 2).trans (final2 (R10 m) c)).trans ?_
  show KVal.gatherArr (W10 (F := Ideal) m c main_v11 : IVec S1x800000 32) (W10 (F := Ideal) m c main_v22 : FVec Ideal S50176x64 .bf16) = _
  rw [W10_src, W10_rows]

/-! ## The fourth launch -/

theorem W11_v20 (c : Dev nD) : (W11 (F := Ideal) m c main_v20 : FVec Ideal S50000x64 .f32) = (KVal.kstep (m ((c : Thread nD τ).loc main_arg2)) (m ((c : Thread nD τ).loc main_arg1)) (m ((c : Thread nD τ).loc main_arg0))) :=
  (W11_of_ne m c main_v20 (by decide)).trans <| (W10_of m c main_v20 (by decide)).trans <| W9_v20 m c
theorem W13_v24 (c : Dev nD) : (W13 (F := Ideal) m c main_v24 : FVec Ideal S50176x64 .f32) = KVal.padF (W11 (F := Ideal) m c main_v20 : FVec Ideal S50000x64 .f32) := by
  show StableHlo.after hostOps3_1 (StableHlo.after hostOps3 (W11 m c)) (Proc.devRef .tc main_v24) = _
  after_results
  all_goals (first | rfl | (simp only [StableHlo.TRef.ofBuf, StableHlo.TRef.toBuf, cast_eq]; rfl))
theorem W13_rows (c : Dev nD) : (W13 (F := Ideal) m c main_v24 : FVec Ideal S50176x64 .f32) = KVal.padF (KVal.kstep (m ((c : Thread nD τ).loc main_arg2)) (m ((c : Thread nD τ).loc main_arg1)) (m ((c : Thread nD τ).loc main_arg0))) := by
  rw [W13_v24, W11_v20]
/-- The input arrays of the second launch are as entered at its exit. -/
theorem W8_dst (c : Dev nD) : (W8 (F := Ideal) m c main_v14 : IVec S1x800000 32) = KVal.dstA (m ((c : Thread nD τ).loc main_arg2)) :=
  ((W8_arr (F := Ideal) m c 0).trans (((dat1 (R7 m) c).arrAt_in 0 (by decide) cfg1.N).trans (A_eq1 (R7 m) c 0))).trans (W7_dst m c)
theorem W8_scl (c : Dev nD) : (W8 (F := Ideal) m c main_v8 : FVec Ideal S50176x64 .f32) = KVal.sclArr (m ((c : Thread nD τ).loc main_arg1)) :=
  ((W8_arr (F := Ideal) m c 3).trans (((dat1 (R7 m) c).arrAt_in 3 (by decide) cfg1.N).trans (A_eq1 (R7 m) c 3))).trans (W7_scl m c)
theorem W13_dst (c : Dev nD) : (W13 (F := Ideal) m c main_v14 : IVec S1x800000 32) = KVal.dstA (m ((c : Thread nD τ).loc main_arg2)) :=
  (W13_of m c main_v14 (by decide)).trans <| (W12_of m c main_v14 (by decide)).trans <| (W11_of_ne m c main_v14 (by decide)).trans <| (W10_of m c main_v14 (by decide)).trans <| (W9_of m c main_v14 (by decide)).trans <| W8_dst m c
theorem W13_scl (c : Dev nD) : (W13 (F := Ideal) m c main_v8 : FVec Ideal S50176x64 .f32) = KVal.sclArr (m ((c : Thread nD τ).loc main_arg1)) :=
  (W13_of m c main_v8 (by decide)).trans <| (W12_of m c main_v8 (by decide)).trans <| (W11_of_ne m c main_v8 (by decide)).trans <| (W10_of m c main_v8 (by decide)).trans <| (W9_of m c main_v8 (by decide)).trans <| W8_scl m c
theorem W13_gat (c : Dev nD) :
    (W13 (F := Ideal) m c main_v23 : FVec Ideal S800000x64 .bf16) = KVal.gatherArr (KVal.srcA (m ((c : Thread nD τ).loc main_arg2))) (KVal.padB (truncf .bf16 (KVal.kstep (m ((c : Thread nD τ).loc main_arg2)) (m ((c : Thread nD τ).loc main_arg1)) (m ((c : Thread nD τ).loc main_arg0))) bitsLt_bf16_f32)) :=
  (W13_of m c main_v23 (by decide)).trans <| (W12_of m c main_v23 (by decide)).trans <| W11_v23 m c
theorem W14_v25 (c : Dev nD) :
    (W14 (F := Ideal) m c main_v25 : FVec Ideal S50176x64 .f32) = KVal.scatterArr (KVal.dstA (m ((c : Thread nD τ).loc main_arg2)))
      (KVal.gatherArr (KVal.srcA (m ((c : Thread nD τ).loc main_arg2))) (KVal.padB (truncf .bf16 (KVal.kstep (m ((c : Thread nD τ).loc main_arg2)) (m ((c : Thread nD τ).loc main_arg1)) (m ((c : Thread nD τ).loc main_arg0))) bitsLt_bf16_f32))) (KVal.padF (KVal.kstep (m ((c : Thread nD τ).loc main_arg2)) (m ((c : Thread nD τ).loc main_arg1)) (m ((c : Thread nD τ).loc main_arg0)))) (KVal.sclArr (m ((c : Thread nD τ).loc main_arg1))) := by
  refine ((W14_arr (F := Ideal) m c 4).trans (final3 (R13 m) c)).trans ?_
  show KVal.scatterArr (W13 (F := Ideal) m c main_v14 : IVec S1x800000 32) (W13 (F := Ideal) m c main_v23 : FVec Ideal S800000x64 .bf16) (W13 (F := Ideal) m c main_v24 : FVec Ideal S50176x64 .f32) (W13 (F := Ideal) m c main_v8 : FVec Ideal S50176x64 .f32) = _
  rw [W13_dst, W13_gat, W13_rows, W13_scl]

/-- The result buffer at the end holds the kernel's two steps of the arguments. -/
theorem W15_result (c : Dev nD) :
    W15 (F := Ideal) m c main_v26
      = KVal.K (m ((c : Thread nD τ).loc main_arg0)) (m ((c : Thread nD τ).loc main_arg1)) (m ((c : Thread nD τ).loc main_arg2)) := by
  refine (W15_v26 m c).trans ?_
  rw [W14_v25]
  rfl

end Cert.KernelIdeal.Hand

end
-- ==== Proof.BGather0.lean ====
/-
  Region 0 of the kernel's program: the one-hot gather, on a grid of 125 edge blocks by 49 node blocks.
  At grid point (i, j) the body compares the 1024 node numbers of block j with the 6400 source indices of edge
  block i, multiplies the resulting 0/1 matrix (transposed) with the node block's rows, and adds the product to
  an accumulator it keeps in a scratch buffer across the 49 points of a row of the grid: the accumulator is
  reset at j = 0 and written to the output block at j = 48.  This module names what the accumulator holds after
  every point, gives the pipeline's proof data over it, and proves the body obligation at every point.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid, and where the windows are idle -/

/-- The first branch's condition, from the grid coordinates: the node-block coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 49). -/
theorem hcond0_0 : ∀ t : Fin cfg0.N, cond0_0 (grid0.coords t) ↔ t.val % 49 = 0 :=
  (by decide +kernel : ∀ t : Fin grid0.N, cond0_0 (grid0.coords t) ↔ t.val % 49 = 0)

/-- The second branch's condition: the node-block coordinate is 48. -/
abbrev cond0_1 (i : grid0.Coords) : Prop := k0_cond2 i = 1#1
/-- It holds at the points ≡ 48 (mod 49). -/
theorem hcond0_1 : ∀ t : Fin cfg0.N, cond0_1 (grid0.coords t) ↔ t.val % 49 = 48 :=
  (by decide +kernel : ∀ t : Fin grid0.N, cond0_1 (grid0.coords t) ↔ t.val % 49 = 48)

/-- The two input windows are never idle. -/
theorem liveAt0_0 (t : Fin cfg0.N) : cfg0.idle 0 (grid0.coords t) = false := rfl
theorem liveAt0_1 (t : Fin cfg0.N) : cfg0.idle 1 (grid0.coords t) = false := rfl
/-- The output window is idle exactly where the second condition fails. -/
theorem idle0_2_eq (t : Fin cfg0.N) : cfg0.idle 2 (grid0.coords t) = !(k0_cond2 (grid0.coords t) == 1#1) := rfl
theorem idleAt0_2 (t : Fin cfg0.N) (h : t.val % 49 ≠ 48) : cfg0.idle 2 (grid0.coords t) = true := by
  rw [idle0_2_eq]
  have hc : ¬ k0_cond2 (grid0.coords t) = 1#1 := fun hc => h ((hcond0_1 t).mp hc)
  simp only [Bool.not_eq_true', beq_eq_false_iff_ne, ne_eq]; exact hc
theorem liveAt0_2 (t : Fin cfg0.N) (h : t.val % 49 = 48) : cfg0.idle 2 (grid0.coords t) = false := by
  rw [idle0_2_eq]
  have hc : k0_cond2 (grid0.coords t) = 1#1 := (hcond0_1 t).mpr h
  rw [hc]; rfl
/-- Away from the last point of a row the output block is not written back. -/
theorem noFlush0_2 (t : Fin cfg0.N) (h : t.val % 49 ≠ 48) : (cfg0.win 2).flush t = false :=
  Bool.eq_false_iff.mpr fun hf => h ((flush0_2 t).mp hf)

/-! ## The kernel function on whole memrefs, case by case -/

/-- Both offsets of every access of the body are zero. -/
theorem hz0 : (![0, 0] : Fin 2 → Nat) = fun _ => 0 := funext fun a => by fin_cases a <;> rfl

/-- One store through the whole buffer covers it. -/
theorem cover_whole0 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- The first point of a row: the accumulator, whatever it held, is reset to zero and then updated; nothing else is written. -/
theorem run0_first (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : cond0_0 i) (hc1 : ¬cond0_1 i)
    (x0 : Vec F S1x6400 .i32) (x1 : Vec F S1024x64 .bf16) (xo : Vec F S6400x64 .bf16)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k0_pay2 i x0 (k0_pay1 (F := F)) x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  sl_unfold_words
  rw [View.read_writes_eq_canon _ _ _ (cover_whole0 hz0 _ _ _), View.canon_cons_unit_zero (S := S6400x64) hz0,
    View.readCov_unit_zero (S := S6400x64) _ hz0]
  simp only [View.readAt_eq_ld, harg2.read_unread, harg3.read_unread,
    View.ld_unit_zero (S := S1x6400) hz0, View.ld_unit_zero (S := S1024x64) hz0]

set_option maxHeartbeats 1000000 in
/-- A point that is neither the first nor the last of its row: the accumulator is updated, nothing else is written. -/
theorem run0_mid (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond0_0 i) (hc1 : ¬cond0_1 i)
    (x0 : Vec F S1x6400 .i32) (x1 : Vec F S1024x64 .bf16) (xo : Vec F S6400x64 .bf16) (xs : Vec F S6400x64 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  rw [View.read_writes_eq_canon _ _ _ (cover_whole0 hz0 _ _ _), View.canon_unit_zero hz0]
  simp only [View.readAt_eq_ld, harg2.read_unread, harg3.read_unread, harg5.read_unread,
    View.ld_unit_zero (S := S1x6400) hz0, View.ld_unit_zero (S := S1024x64) hz0, View.ld_unit_zero (S := S6400x64) hz0]

set_option maxHeartbeats 1000000 in
/-- The last point of a row: the accumulator is updated and, rounded, stored over the whole output block. -/
theorem run0_last (c : Dev nD) (i : grid0.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond0_0 i) (hc1 : cond0_1 i)
    (x0 : Vec F S1x6400 .i32) (x1 : Vec F S1024x64 .bf16) (xs : Vec F S6400x64 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 i x0 xs x1)) ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [View.read_writes_eq_canon _ _ _ (cover_whole0 hz0 _ _ _), View.canon_unit_zero hz0,
      View.readCov_unit_zero (S := S6400x64) _ hz0]
    simp only [View.readAt_eq_ld, harg2.read_unread, harg3.read_unread, harg5.read_unread,
      View.ld_unit_zero (S := S1x6400) hz0, View.ld_unit_zero (S := S1024x64) hz0, View.ld_unit_zero (S := S6400x64) hz0]
  iexists _; isplitr
  swap; · iexact HS
  ipureintro
  sl_unfold_words
  rw [View.read_writes_eq_canon _ _ _ (cover_whole0 hz0 _ _ _), View.canon_unit_zero hz0]
  simp only [View.readAt_eq_ld, harg2.read_unread, harg3.read_unread, harg5.read_unread,
    View.ld_unit_zero (S := S1x6400) hz0, View.ld_unit_zero (S := S1024x64) hz0, View.ld_unit_zero (S := S6400x64) hz0]

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source indices of the point's edge block, and the rows of its node block, at their literal types. -/
abbrev srcBlk0 (c : Dev nD) (t : Fin cfg0.N) : Vec F S1x6400 .i32 := iblk0 V c 0 t
abbrev rowBlk0 (c : Dev nD) (t : Fin cfg0.N) : Vec F S1024x64 .bf16 := iblk0 V c 1 t

/-- What the accumulator holds after the body at position `n`: the point's product added to zero at the first
    point of a row of the grid (n ≡ 0 mod 49), and to what the point before left otherwise. -/
def acc0 (c : Dev nD) : (n : ℕ) → n < cfg0.N → Vec F S6400x64 .f32
  | 0, hn => k0_pay2 (grid0.coords ⟨0, hn⟩) (srcBlk0 V c ⟨0, hn⟩) (k0_pay1 (F := F)) (rowBlk0 V c ⟨0, hn⟩)
  | n + 1, hn => k0_pay2 (grid0.coords ⟨n + 1, hn⟩) (srcBlk0 V c ⟨n + 1, hn⟩)
      (if (n + 1) % 49 = 0 then k0_pay1 (F := F) else acc0 c n (Nat.lt_of_succ_lt hn)) (rowBlk0 V c ⟨n + 1, hn⟩)

theorem acc0_first (c : Dev nD) (t : Fin cfg0.N) (h : t.val % 49 = 0) :
    acc0 V c t.val t.isLt = k0_pay2 (grid0.coords t) (srcBlk0 V c t) (k0_pay1 (F := F)) (rowBlk0 V c t) := by
  obtain ⟨n, hn⟩ := t
  cases n with
  | zero => rfl
  | succ n =>
    have h' : (n + 1) % 49 = 0 := h
    show acc0 V c (n + 1) hn = _
    rw [acc0, if_pos h']

theorem acc0_next (c : Dev nD) (t : Fin cfg0.N) (h : t.val % 49 ≠ 0) :
    acc0 V c t.val t.isLt = k0_pay2 (grid0.coords t) (srcBlk0 V c t)
      (acc0 V c (t.val - 1) (Nat.lt_of_le_of_lt (Nat.sub_le _ _) t.isLt)) (rowBlk0 V c t) := by
  obtain ⟨n, hn⟩ := t
  cases n with
  | zero => exact absurd (Nat.zero_mod 49) h
  | succ n =>
    have h' : ¬ (n + 1) % 49 = 0 := h
    show acc0 V c (n + 1) hn = _
    rw [acc0, if_neg h']
    rfl

/-- The scratch operand, whole. -/
abbrev scM0 : Memref sig .tc .vmem S6400x64 .f32 := Memref.whole cc0_scratch0

/-- The region invariant before position `n`: before the first point what the launch hands the region (every scoped
    buffer that is no staging buffer at anything, the generator register at some state); afterwards the scratch at what
    the point before left in it, the other such buffers unopened, and the register. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The body obligation, at a generic point -/

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Each window's current staging memref at point `t`, at its literal type, and its wholeness. -/
abbrev ms0_0 (t : Fin cfg0.N) : Memref sig .tc .vmem S1x6400 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6400x64 .bf16 := win0_2.stage (cfg0.slots t 2)
abbrev hs0_2 (t : Fin cfg0.N) : (ms0_2 t).IsWhole := hstage0_2 ((cfg0.slots t 2).cast nbuf0_2)

/-- What the launch hands the region, with the scratch split off the scoped rest and owned at some contents. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; try rfl

theorem Phi0_zero (c : Dev nD) (n : ℕ) (h : n ≤ cfg0.N) (hz : n = 0) : Phi0 V c n h = Pipeline.ΦA spec0 c := by
  subst hz; rfl

/-- Before a position that is not the first: the scratch at what the point before left. -/
theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem Phi0_castSucc (c : Dev nD) (t : Fin cfg0.N) :
    (dat0 V c).Φ t.castSucc = Phi0 V c t.val (Nat.le_of_lt t.isLt) := by
  first | rfl | (dsimp only [dat0]; simp only [Fin.coe_castSucc])

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position in its row of the grid says which of
    the three runs applies; the invariant hands the body the scratch at what the point before left (at anything at the first
    point of a row) and takes it back at this point's accumulator; the output block is handed back as found except at the
    last point of a row, where it holds the rounded accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(owns (c : Thread nD τ) scM0 fullShare (acc0 V c t.val t.isLt)
      ∗ Pipeline.scopedRestBut (Ix := Unit) (Name := ℕ) (U := UR sig nD τ) (Lvl := ℕ) (Val := Elt F) spec0 c [cc0_scratch0]
      ∗ (∃ r, prngReg c r)) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 6125 := lt_of_lt_of_eq t.isLt (show cfg0.N = 6125 from N_0)
  by_cases h0 : t.val % 49 = 0
  · have h1 : t.val % 49 ≠ 48 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t h1) (noFlush0_2 t h1)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨HS, HR, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    by_cases h1 : t.val % 49 = 48
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t h1], after0_2]
      rw [acc0_next V c t h0]
      rw [Phi0_castSucc V c t, Phi0_pos V c _ _ hz]
      iintro ⟨⟨HS, HR, Hg⟩, Ho, ⟨%d0, H0⟩, ⟨%d1, H1⟩, ⟨%d2, H2⟩⟩
      iapply (run0_last c (grid0.coords t) _ _ _ _ _ _ _ _ hc0 hc1 (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t h1) (noFlush0_2 t h1)]
      rw [acc0_next V c t h0]
      rw [Phi0_castSucc V c t, Phi0_pos V c _ _ hz]
      iintro ⟨⟨HS, HR, Hg⟩, Ho, ⟨%d0, H0⟩, ⟨%d1, H1⟩, ⟨%d2, H2⟩⟩
      iapply (run0_mid c (grid0.coords t) _ _ _ _ _ _ _ _ hc0 hc1 (iblk0 V c 0 t) (iblk0 V c 1 t) _
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  first | done | exact Idealize.SL.BI.Entails.refl _

/-- After any position but the first the invariant gives back what the launch handed the region. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, HR, Hg⟩
  isplitl [HS HR]
  · isplitl [HS]
    · iexists _; iexact HS
    iexact HR
  iexact Hg

/-- After the last point the invariant gives it back, the accumulator's contents forgotten. -/
theorem hout0 (c : Dev nD) : (dat0 V c).Φ (Fin.last cfg0.N) ⊢ Pipeline.ΦA spec0 c := by
  exact Phi0_out V c _ (by rw [Fin.val_last]; have : cfg0.N = 6125 := N_0; omega)

end Region0

end Cert.Kernel.Hand

end
-- ==== Proof.BScatter1.lean ====
/-
  Region 1 of the kernel's program: the one-hot scatter-add and the closing scaling, on a grid of 49 node blocks by
  125 edge blocks.  At grid point (n, e) the body compares the 1024 node numbers of block n with the 6400
  destination indices of edge block e, multiplies the resulting 0/1 matrix with the edge block's gathered rows,
  and adds the product to an accumulator it keeps in a scratch buffer across the 125 points of a row of the grid:
  the accumulator is reset at e = 0, and at e = 124 the output block is (rows + 1/2 · accumulator) · scale.  This
  module names what the accumulator holds after every point, gives the pipeline's proof data over it, and proves
  the body obligation at every point.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions and where the output window is idle -/

/-- The first branch condition of the body, from the grid coordinates. -/
abbrev cond1_0 (i : grid1.Coords) : Prop := (Scalar.cmpi .ne (Scalar.extui (Scalar.cmpi .eq (BitVec.ofNat 32 (i 1).val) 0#32)) 0#32) = 1#1
/-- The second. -/
abbrev cond1_1 (i : grid1.Coords) : Prop := k1_cond2 i = 1#1

/-- The second grid coordinate of point `t` is `t` modulo 125. -/
theorem coord1_1 (t : Fin cfg1.N) : (grid1.coords t 1).val = t.val % 125 := by
  show t.val / grid1.stride 1 % grid1.bound 1 = t.val % 125
  rw [show grid1.stride 1 = 1 from by decide, show grid1.bound 1 = 125 from by decide, Nat.div_one]

/-- The first condition holds exactly at coordinate 0 (decided over the 125 values of the coordinate). -/
theorem hcond1_0' : ∀ x : Fin 125, ((Scalar.cmpi .ne (Scalar.extui (Scalar.cmpi .eq (BitVec.ofNat 32 x.val) 0#32)) 0#32) = 1#1) ↔ x.val = 0 := by
  decide +kernel

/-- So it holds at the points ≡ 0 (mod 125). -/
theorem hcond1_0 (t : Fin cfg1.N) : cond1_0 (grid1.coords t) ↔ t.val % 125 = 0 := by
  rw [← coord1_1 t]
  exact hcond1_0' (grid1.coords t 1)

/-- The second condition holds exactly at coordinate 124. -/
theorem hcond1_1' : ∀ x : Fin 125, ((Scalar.cmpi .ne (Scalar.extui (Scalar.cmpi .eq (BitVec.ofNat 32 x.val) 124#32)) 0#32) = 1#1) ↔ x.val = 124 := by
  decide +kernel

/-- So it holds at the points ≡ 124 (mod 125). -/
theorem hcond1_1 (t : Fin cfg1.N) : cond1_1 (grid1.coords t) ↔ t.val % 125 = 124 := by
  rw [← coord1_1 t]
  exact hcond1_1' (grid1.coords t 1)

/-- No input window is ever idle. -/
theorem live1_in (w : Fin cfg1.W) (hw : w ≠ 4) (i : grid1.Coords) : cfg1.idle w i = false := by
  fin_cases w <;> first | rfl | exact absurd rfl hw

/-- The output window is idle exactly where the second condition fails. -/
theorem idle1_4 (i : grid1.Coords) : cfg1.idle 4 i = !(k1_cond2 i == 1#1) := rfl

theorem idleAt1_4 (t : Fin cfg1.N) (h : t.val % 125 ≠ 124) : cfg1.idle 4 (grid1.coords t) = true := by
  rw [idle1_4]; have := mt (hcond1_1 t).mp h
  simpa using this

theorem liveAt1_4 (t : Fin cfg1.N) (h : t.val % 125 = 124) : cfg1.idle 4 (grid1.coords t) = false := by
  rw [idle1_4]; have := (hcond1_1 t).mpr h
  simpa using this

/-- Off the points ≡ 124 (mod 125) the output block is not written back. -/
theorem noFlush1_4 (t : Fin cfg1.N) (h : t.val % 125 ≠ 124) : (cfg1.win 4).flush t = false := by
  have := mt (flush1_4 t).mp h
  simpa using this

/-! ## The body on any whole memrefs, case by case -/

/-- The zero offsets, however spelt. -/
theorem hzero1 : (![0, 0] : Fin 2 → ℕ) = fun _ => 0 := by funext a; fin_cases a <;> rfl

/-- A store of the whole block, last, covers it. -/
theorem cover1_acc (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons.mpr (Or.inl rfl), View.mem_set_unit_zero hzero1 inb_S1024x64_S1024x64_0_0 y⟩

set_option maxHeartbeats 1000000 in
/-- The body at a point where the second grid coordinate is 0, on whole memrefs: the destination indices at `x0`, the gathered
    rows at `x1`, the scratch at anything. It resets the scratch to zero and adds the point's product, so the scratch is left
    at `k1_pay2 i x0 k1_pay1 x1`; the two inputs are as they were, and the other operands are not touched. -/
theorem run1_first (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1x6400 .i32) (x1 : Vec F S6400x64 .bf16) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 i x0 (k1_pay1 (F := F)) x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (cover1_acc _ _), View.canon_cons_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

set_option maxHeartbeats 1000000 in
/-- The body at a point where the second grid coordinate is neither 0 nor 124: the scratch, at `xs`, is left at
    `k1_pay2 i x0 xs x1`; the two inputs are as they were, and the other operands are not touched. -/
theorem run1_mid (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1x6400 .i32) (x1 : Vec F S6400x64 .bf16) (xs : Vec F S1024x64 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 i x0 xs x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1_acc _ _), View.canon_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

set_option maxHeartbeats 1000000 in
/-- The body at a point where the second grid coordinate is 124: the scratch, at `xs`, is left at `k1_pay2 i x0 xs x1`, and the
    output block, at anything before, is left at `k1_pay3` of the node rows `x2`, that accumulator and the scale `x3`; the
    four inputs are as they were. -/
theorem run1_last (c : Dev nD) (i : grid1.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1x6400 .i32) (x1 : Vec F S6400x64 .bf16) (x2 x3 xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay3 x2 (k1_pay2 i x0 xs x1) x3)
            ∗ owns (c : Thread nD τ) arg7 fullShare (k1_pay2 i x0 xs x1)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover1_acc _ _), View.canon_unit_zero hzero1]
    simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]
  iexists _; isplitr
  swap; · iexact HS
  ipureintro
  sl_unfold_words
  rw [View.read_writes_eq_canon _ _ _ (cover1_acc _ _), View.canon_unit_zero hzero1]
  simp only [View.readAt_eq_ld, harg2.read_unread, harg3.read_unread, harg4.read_unread, harg5.read_unread, harg7.read_unread,
    View.readCov_unit_zero (S := S1024x64) _ hzero1,
    View.ld_unit_zero (S := S1x6400) hzero1, View.ld_unit_zero (S := S6400x64) hzero1, View.ld_unit_zero (S := S1024x64) hzero1]

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's blocks at their literal types: the destination indices of its edge block, the gathered rows of that
    edge block, the node block's own rows, and the node block's scale. -/
abbrev dstBlk1 (c : Dev nD) (t : Fin cfg1.N) : Vec F S1x6400 .i32 := iblk1 V c 0 t
abbrev gatBlk1 (c : Dev nD) (t : Fin cfg1.N) : Vec F S6400x64 .bf16 := iblk1 V c 1 t
abbrev rowBlk1 (c : Dev nD) (t : Fin cfg1.N) : Vec F S1024x64 .f32 := iblk1 V c 2 t
abbrev sclBlk1 (c : Dev nD) (t : Fin cfg1.N) : Vec F S1024x64 .f32 := iblk1 V c 3 t

/-- What the accumulator holds after the body at position `n`: the point's product added to zero at the first
    point of a row of the grid (n ≡ 0 mod 125), and to what the point before left otherwise. -/
def acc1 (c : Dev nD) : (n : ℕ) → n < cfg1.N → Vec F S1024x64 .f32
  | 0, hn => k1_pay2 (grid1.coords ⟨0, hn⟩) (dstBlk1 V c ⟨0, hn⟩) (k1_pay1 (F := F)) (gatBlk1 V c ⟨0, hn⟩)
  | n + 1, hn => k1_pay2 (grid1.coords ⟨n + 1, hn⟩) (dstBlk1 V c ⟨n + 1, hn⟩)
      (if (n + 1) % 125 = 0 then k1_pay1 (F := F) else acc1 c n (Nat.lt_of_succ_lt hn)) (gatBlk1 V c ⟨n + 1, hn⟩)

theorem acc1_first (c : Dev nD) (t : Fin cfg1.N) (h : t.val % 125 = 0) :
    acc1 V c t.val t.isLt = k1_pay2 (grid1.coords t) (dstBlk1 V c t) (k1_pay1 (F := F)) (gatBlk1 V c t) := by
  obtain ⟨n, hn⟩ := t
  cases n with
  | zero => rfl
  | succ n =>
    have h' : (n + 1) % 125 = 0 := h
    show k1_pay2 _ _ (if (n + 1) % 125 = 0 then k1_pay1 (F := F) else acc1 V c n _) _ = _
    rw [if_pos h']

theorem acc1_next (c : Dev nD) (t : Fin cfg1.N) (h : t.val % 125 ≠ 0) :
    acc1 V c t.val t.isLt = k1_pay2 (grid1.coords t) (dstBlk1 V c t)
      (acc1 V c (t.val - 1) (Nat.lt_of_le_of_lt (Nat.sub_le _ _) t.isLt)) (gatBlk1 V c t) := by
  obtain ⟨n, hn⟩ := t
  cases n with
  | zero => exact absurd (Nat.zero_mod _) h
  | succ n =>
    have h' : ¬ (n + 1) % 125 = 0 := h
    show k1_pay2 _ _ (if (n + 1) % 125 = 0 then k1_pay1 (F := F) else acc1 V c n _) _ = _
    rw [if_neg h']
    rfl

/-- The scratch operand, whole. -/
abbrev scM1 : Memref sig .tc .vmem S1024x64 .f32 := Memref.whole cc1_scratch0

/-- The region invariant before position `n`: before the first point what the launch hands the region (every scoped
    buffer that is no staging buffer at anything, the generator register at some state); afterwards the scratch at what
    the point before left in it, the other such buffers unopened, and the register. -/
def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- Before a position that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- What the launch hands the region, with the scratch as a memref owned at some contents. -/
theorem PhiA1_eq (c : Dev nD) :
    (Pipeline.ΦA spec1 c : sProp 𝕄)
      = iprop(iprop(iprop(∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (rowBlk1 V c t) (acc1 V c t.val t.isLt) (sclBlk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (rowBlk1 V c t) (acc1 V c t.val t.isLt) (sclBlk1 V c t) := by dsimp only [dat1]

/-- No input window is ever idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- After point `n` the scratch holds that point's accumulator. -/
theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_zero (c : Dev nD) (n : ℕ) (h : n ≤ cfg1.N) (hz : n = 0) : Phi1 V c n h = Pipeline.ΦA spec1 c := by
  subst hz; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the three cases of the second grid coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).Φ t.castSucc = Phi1 V c t.val (Nat.le_of_lt t.isLt) from rfl]
  have hN : t.val < 6125 := lt_of_lt_of_eq t.isLt (show cfg1.N = 6125 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 125 = 0
  · have h1 : t.val % 125 ≠ 124 := by omega
    rw [Dat.leavesExact_idle (dat1 V c) 4 t (idleAt1_4 t h1) (noFlush1_4 t h1)]
    rw [acc1_first V c t h0]
    by_cases hz : t.val = 0
    · rw [Phi1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((hcond1_0 t).mpr h0) (fun h => h1 ((hcond1_1 t).mp h)) (dstBlk1 V c t) (gatBlk1 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi1_pos V c _ _ hz]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((hcond1_0 t).mpr h0) (fun h => h1 ((hcond1_1 t).mp h)) (dstBlk1 V c t) (gatBlk1 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi1_pos V c _ _ hz, acc1_next V c t h0]
    by_cases h1 : t.val % 125 = 124
    · rw [show (dat1 V c).leavesExact 4 t = owns (c : Thread nD τ) (st1_4 t) fullShare ((dat1 V c).after 4 t) from by
        unfold Dat.leavesExact; rw [liveAt1_4 t h1], after1_4, acc1_next V c t h0]
      iintro ⟨⟨HS, HR, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((hcond1_0 t).mp h)) ((hcond1_1 t).mpr h1) (dstBlk1 V c t) (gatBlk1 V c t) (rowBlk1 V c t) (sclBlk1 V c t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      iintro ⟨⟨HS, HR, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h)) (dstBlk1 V c t) (gatBlk1 V c t)
        (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl]
  exact Idealize.SL.BI.Entails.refl _

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 6125 := N_1; omega), PhiA1_eq]
  iintro ⟨HS, HR, Hg⟩
  isplitl [HS HR]
  · isplitl [HS]
    · iexists _; iexact HS
    iexact HR
  iexact Hg

end Region1

end Cert.Kernel.Hand

end
-- ==== Proof.BGather2.lean ====
/-
  Region 0 of the kernel's program: the one-hot gather, on a grid of 125 edge blocks by 49 node blocks.
  At grid point (i, j) the body compares the 1024 node numbers of block j with the 6400 source indices of edge
  block i, multiplies the resulting 0/1 matrix (transposed) with the node block's rows, and adds the product to
  an accumulator it keeps in a scratch buffer across the 49 points of a row of the grid: the accumulator is
  reset at j = 0 and written to the output block at j = 48.  This module names what the accumulator holds after
  every point, gives the pipeline's proof data over it, and proves the body obligation at every point.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid, and where the windows are idle -/

/-- The first branch's condition, from the grid coordinates: the node-block coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 49). -/
theorem hcond2_0 : ∀ t : Fin cfg2.N, cond2_0 (grid2.coords t) ↔ t.val % 49 = 0 :=
  (by decide +kernel : ∀ t : Fin grid2.N, cond2_0 (grid2.coords t) ↔ t.val % 49 = 0)

/-- The second branch's condition: the node-block coordinate is 48. -/
abbrev cond2_1 (i : grid2.Coords) : Prop := k2_cond2 i = 1#1
/-- It holds at the points ≡ 48 (mod 49). -/
theorem hcond2_1 : ∀ t : Fin cfg2.N, cond2_1 (grid2.coords t) ↔ t.val % 49 = 48 :=
  (by decide +kernel : ∀ t : Fin grid2.N, cond2_1 (grid2.coords t) ↔ t.val % 49 = 48)

/-- The two input windows are never idle. -/
theorem liveAt2_0 (t : Fin cfg2.N) : cfg2.idle 0 (grid2.coords t) = false := rfl
theorem liveAt2_1 (t : Fin cfg2.N) : cfg2.idle 1 (grid2.coords t) = false := rfl
/-- The output window is idle exactly where the second condition fails. -/
theorem idle2_2_eq (t : Fin cfg2.N) : cfg2.idle 2 (grid2.coords t) = !(k2_cond2 (grid2.coords t) == 1#1) := rfl
theorem idleAt2_2 (t : Fin cfg2.N) (h : t.val % 49 ≠ 48) : cfg2.idle 2 (grid2.coords t) = true := by
  rw [idle2_2_eq]
  have hc : ¬ k2_cond2 (grid2.coords t) = 1#1 := fun hc => h ((hcond2_1 t).mp hc)
  simp only [Bool.not_eq_true', beq_eq_false_iff_ne, ne_eq]; exact hc
theorem liveAt2_2 (t : Fin cfg2.N) (h : t.val % 49 = 48) : cfg2.idle 2 (grid2.coords t) = false := by
  rw [idle2_2_eq]
  have hc : k2_cond2 (grid2.coords t) = 1#1 := (hcond2_1 t).mpr h
  rw [hc]; rfl
/-- Away from the last point of a row the output block is not written back. -/
theorem noFlush2_2 (t : Fin cfg2.N) (h : t.val % 49 ≠ 48) : (cfg2.win 2).flush t = false :=
  Bool.eq_false_iff.mpr fun hf => h ((flush2_2 t).mp hf)

/-! ## The kernel function on whole memrefs, case by case -/

/-- Both offsets of every access of the body are zero. -/
theorem hz2 : (![0, 0] : Fin 2 → Nat) = fun _ => 0 := funext fun a => by fin_cases a <;> rfl

/-- One store through the whole buffer covers it. -/
theorem cover_whole2 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- The first point of a row: the accumulator, whatever it held, is reset to zero and then updated; nothing else is written. -/
theorem run2_first (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : cond2_0 i) (hc1 : ¬cond2_1 i)
    (x0 : Vec F S1x6400 .i32) (x1 : Vec F S1024x64 .bf16) (xo : Vec F S6400x64 .bf16)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k2_pay2 i x0 (k2_pay1 (F := F)) x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  sl_unfold_words
  rw [View.read_writes_eq_canon _ _ _ (cover_whole2 hz2 _ _ _), View.canon_cons_unit_zero (S := S6400x64) hz2,
    View.readCov_unit_zero (S := S6400x64) _ hz2]
  simp only [View.readAt_eq_ld, harg2.read_unread, harg3.read_unread,
    View.ld_unit_zero (S := S1x6400) hz2, View.ld_unit_zero (S := S1024x64) hz2]

set_option maxHeartbeats 1000000 in
/-- A point that is neither the first nor the last of its row: the accumulator is updated, nothing else is written. -/
theorem run2_mid (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond2_0 i) (hc1 : ¬cond2_1 i)
    (x0 : Vec F S1x6400 .i32) (x1 : Vec F S1024x64 .bf16) (xo : Vec F S6400x64 .bf16) (xs : Vec F S6400x64 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k2_pay2 i x0 xs x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists fo; isplitr; · ipureintro; exact hfo
    iexact HO
  iexists _; isplitr
  swap; · iexact HS
  ipureintro
  rw [View.read_writes_eq_canon _ _ _ (cover_whole2 hz2 _ _ _), View.canon_unit_zero hz2]
  simp only [View.readAt_eq_ld, harg2.read_unread, harg3.read_unread, harg5.read_unread,
    View.ld_unit_zero (S := S1x6400) hz2, View.ld_unit_zero (S := S1024x64) hz2, View.ld_unit_zero (S := S6400x64) hz2]

set_option maxHeartbeats 1000000 in
/-- The last point of a row: the accumulator is updated and, rounded, stored over the whole output block. -/
theorem run2_last (c : Dev nD) (i : grid2.Coords) (arg2 : Memref sig .tc .vmem S1x6400 .i32) (harg2 : arg2.IsWhole)
    (arg3 : Memref sig .tc .vmem S1024x64 .bf16) (harg3 : arg3.IsWhole) (arg4 : Memref sig .tc .vmem S6400x64 .bf16) (harg4 : arg4.IsWhole)
    (arg5 : Memref sig .tc .vmem S6400x64 .f32) (harg5 : arg5.IsWhole) (hc0 : ¬cond2_0 i) (hc1 : cond2_1 i)
    (x0 : Vec F S1x6400 .i32) (x1 : Vec F S1024x64 .bf16) (xs : Vec F S6400x64 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k2_pay3 (k2_pay2 i x0 xs x1)) ∗ owns (c : Thread nD τ) arg5 fullShare (k2_pay2 i x0 xs x1)) -∗ K ⟨⟩))
      ⊢ wp frame (wpE (defs₀ (F := F)) Variants.none c none) E (cc2__gather_kernel i arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [View.read_writes_eq_canon _ _ _ (cover_whole2 hz2 _ _ _), View.canon_unit_zero hz2,
      View.readCov_unit_zero (S := S6400x64) _ hz2]
    simp only [View.readAt_eq_ld, harg2.read_unread, harg3.read_unread, harg5.read_unread,
      View.ld_unit_zero (S := S1x6400) hz2, View.ld_unit_zero (S := S1024x64) hz2, View.ld_unit_zero (S := S6400x64) hz2]
  iexists _; isplitr
  swap; · iexact HS
  ipureintro
  sl_unfold_words
  rw [View.read_writes_eq_canon _ _ _ (cover_whole2 hz2 _ _ _), View.canon_unit_zero hz2]
  simp only [View.readAt_eq_ld, harg2.read_unread, harg3.read_unread, harg5.read_unread,
    View.ld_unit_zero (S := S1x6400) hz2, View.ld_unit_zero (S := S1024x64) hz2, View.ld_unit_zero (S := S6400x64) hz2]

section Region0
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source indices of the point's edge block, and the rows of its node block, at their literal types. -/
abbrev srcBlk2 (c : Dev nD) (t : Fin cfg2.N) : Vec F S1x6400 .i32 := iblk2 V c 0 t
abbrev rowBlk2 (c : Dev nD) (t : Fin cfg2.N) : Vec F S1024x64 .bf16 := iblk2 V c 1 t

/-- What the accumulator holds after the body at position `n`: the point's product added to zero at the first
    point of a row of the grid (n ≡ 0 mod 49), and to what the point before left otherwise. -/
def acc2 (c : Dev nD) : (n : ℕ) → n < cfg2.N → Vec F S6400x64 .f32
  | 0, hn => k2_pay2 (grid2.coords ⟨0, hn⟩) (srcBlk2 V c ⟨0, hn⟩) (k2_pay1 (F := F)) (rowBlk2 V c ⟨0, hn⟩)
  | n + 1, hn => k2_pay2 (grid2.coords ⟨n + 1, hn⟩) (srcBlk2 V c ⟨n + 1, hn⟩)
      (if (n + 1) % 49 = 0 then k2_pay1 (F := F) else acc2 c n (Nat.lt_of_succ_lt hn)) (rowBlk2 V c ⟨n + 1, hn⟩)

theorem acc2_first (c : Dev nD) (t : Fin cfg2.N) (h : t.val % 49 = 0) :
    acc2 V c t.val t.isLt = k2_pay2 (grid2.coords t) (srcBlk2 V c t) (k2_pay1 (F := F)) (rowBlk2 V c t) := by
  obtain ⟨n, hn⟩ := t
  cases n with
  | zero => rfl
  | succ n =>
    have h' : (n + 1) % 49 = 0 := h
    show acc2 V c (n + 1) hn = _
    rw [acc2, if_pos h']

theorem acc2_next (c : Dev nD) (t : Fin cfg2.N) (h : t.val % 49 ≠ 0) :
    acc2 V c t.val t.isLt = k2_pay2 (grid2.coords t) (srcBlk2 V c t)
      (acc2 V c (t.val - 1) (Nat.lt_of_le_of_lt (Nat.sub_le _ _) t.isLt)) (rowBlk2 V c t) := by
  obtain ⟨n, hn⟩ := t
  cases n with
  | zero => exact absurd (Nat.zero_mod 49) h
  | succ n =>
    have h' : ¬ (n + 1) % 49 = 0 := h
    show acc2 V c (n + 1) hn = _
    rw [acc2, if_neg h']
    rfl

/-- The scratch operand, whole. -/
abbrev scM2 : Memref sig .tc .vmem S6400x64 .f32 := Memref.whole cc2_scratch0

/-- The region invariant before position `n`: before the first point what the launch hands the region (every scoped
    buffer that is no staging buffer at anything, the generator register at some state); afterwards the scratch at what
    the point before left in it, the other such buffers unopened, and the register. -/
def Phi2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data of pipeline 0 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-! ## The body obligation, at a generic point -/

/-- Each input's current staging buffer holds its block at every point, fetched there or not: unfetched, the block
    index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Each window's current staging memref at point `t`, at its literal type, and its wholeness. -/
abbrev ms2_0 (t : Fin cfg2.N) : Memref sig .tc .vmem S1x6400 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6400x64 .bf16 := win2_2.stage (cfg2.slots t 2)
abbrev hs2_2 (t : Fin cfg2.N) : (ms2_2 t).IsWhole := hstage2_2 ((cfg2.slots t 2).cast nbuf2_2)

/-- What the launch hands the region, with the scratch split off the scoped rest and owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

theorem Phi2_zero (c : Dev nD) (n : ℕ) (h : n ≤ cfg2.N) (hz : n = 0) : Phi2 V c n h = Pipeline.ΦA spec2 c := by
  subst hz; rfl

/-- Before a position that is not the first: the scratch at what the point before left. -/
theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  first | rfl | (dsimp only [dat2]; simp only [Fin.coe_castSucc])

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's position in its row of the grid says which of
    the three runs applies; the invariant hands the body the scratch at what the point before left (at anything at the first
    point of a row) and takes it back at this point's accumulator; the output block is handed back as found except at the
    last point of a row, where it holds the rounded accumulator; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(owns (c : Thread nD τ) scM2 fullShare (acc2 V c t.val t.isLt)
      ∗ Pipeline.scopedRestBut (Ix := Unit) (Name := ℕ) (U := UR sig nD τ) (Lvl := ℕ) (Val := Elt F) spec2 c [cc2_scratch0]
      ∗ (∃ r, prngReg c r)) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 6125 := lt_of_lt_of_eq t.isLt (show cfg2.N = 6125 from N_2)
  by_cases h0 : t.val % 49 = 0
  · have h1 : t.val % 49 ≠ 48 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t h1) (noFlush2_2 t h1)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩⟩
      iapply (run2_first c (grid2.coords t) _ _ _ _ _ _ _ _ hc0 hc1 (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi2_castSucc V c t, Phi2_pos V c _ _ hz]
      iintro ⟨⟨HS, HR, Hg⟩, Ho, ⟨%d0, H0⟩, ⟨%d1, H1⟩, ⟨%d2, H2⟩⟩
      iapply (run2_first c (grid2.coords t) _ _ _ _ _ _ _ _ hc0 hc1 (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    have hc0 : ¬cond2_0 (grid2.coords t) := fun h => h0 ((hcond2_0 t).mp h)
    by_cases h1 : t.val % 49 = 48
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t h1], after2_2]
      rw [acc2_next V c t h0]
      rw [Phi2_castSucc V c t, Phi2_pos V c _ _ hz]
      iintro ⟨⟨HS, HR, Hg⟩, Ho, ⟨%d0, H0⟩, ⟨%d1, H1⟩, ⟨%d2, H2⟩⟩
      iapply (run2_last c (grid2.coords t) _ _ _ _ _ _ _ _ hc0 hc1 (iblk2 V c 0 t) (iblk2 V c 1 t)
        (acc2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t h1) (noFlush2_2 t h1)]
      rw [acc2_next V c t h0]
      rw [Phi2_castSucc V c t, Phi2_pos V c _ _ hz]
      iintro ⟨⟨HS, HR, Hg⟩, Ho, ⟨%d0, H0⟩, ⟨%d1, H1⟩, ⟨%d2, H2⟩⟩
      iapply (run2_mid c (grid2.coords t) _ _ _ _ _ _ _ _ hc0 hc1 (iblk2 V c 0 t) (iblk2 V c 1 t) _
        (acc2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]
  first | done | exact Idealize.SL.BI.Entails.refl _

/-- After any position but the first the invariant gives back what the launch handed the region. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨HS, HR, Hg⟩
  isplitl [HS HR]
  · isplitl [HS]
    · iexists _; iexact HS
    iexact HR
  iexact Hg

/-- After the last point the invariant gives it back, the accumulator's contents forgotten. -/
theorem hout2 (c : Dev nD) : (dat2 V c).Φ (Fin.last cfg2.N) ⊢ Pipeline.ΦA spec2 c := by
  exact Phi2_out V c _ (by rw [Fin.val_last]; have : cfg2.N = 6125 := N_2; omega)

end Region0

end Cert.Kernel.Hand

end
-- ==== Proof.BScatter3.lean ====
/-
  Region 1 of the kernel's program: the one-hot scatter-add and the closing scaling, on a grid of 49 node blocks by
  125 edge blocks.  At grid point (n, e) the body compares the 1024 node numbers of block n with the 6400
  destination indices of edge block e, multiplies the resulting 0/1 matrix with the edge block's gathered rows,
  and adds the product to an accumulator it keeps in a scratch buffer across the 125 points of a row of the grid:
  the accumulator is reset at e = 0, and at e = 124 the output block is (rows + 1/2 · accumulator) · scale.  This
  module names what the accumulator holds after every point, gives the pipeline's proof data over it, and proves
  the body obligation at every point.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions and where the output window is idle -/

/-- The first branch condition of the body, from the grid coordinates. -/
abbrev cond3_0 (i : grid3.Coords) : Prop := (Scalar.cmpi .ne (Scalar.extui (Scalar.cmpi .eq (BitVec.ofNat 32 (i 1).val) 0#32)) 0#32) = 1#1
/-- The second. -/
abbrev cond3_1 (i : grid3.Coords) : Prop := k3_cond2 i = 1#1

/-- The second grid coordinate of point `t` is `t` modulo 125. -/
theorem coord3_1 (t : Fin cfg3.N) : (grid3.coords t 1).val = t.val % 125 := by
  show t.val / grid3.stride 1 % grid3.bound 1 = t.val % 125
  rw [show grid3.stride 1 = 1 from by decide, show grid3.bound 1 = 125 from by decide, Nat.div_one]

/-- The first condition holds exactly at coordinate 0 (decided over the 125 values of the coordinate). -/
theorem hcond3_0' : ∀ x : Fin 125, ((Scalar.cmpi .ne (Scalar.extui (Scalar.cmpi .eq (BitVec.ofNat 32 x.val) 0#32)) 0#32) = 1#1) ↔ x.val = 0 := by
  decide +kernel

/-- So it holds at the points ≡ 0 (mod 125). -/
theorem hcond3_0 (t : Fin cfg3.N) : cond3_0 (grid3.coords t) ↔ t.val % 125 = 0 := by
  rw [← coord3_1 t]
  exact hcond3_0' (grid3.coords t 1)

/-- The second condition holds exactly at coordinate 124. -/
theorem hcond3_1' : ∀ x : Fin 125, ((Scalar.cmpi .ne (Scalar.extui (Scalar.cmpi .eq (BitVec.ofNat 32 x.val) 124#32)) 0#32) = 1#1) ↔ x.val = 124 := by
  decide +kernel

/-- So it holds at the points ≡ 124 (mod 125). -/
theorem hcond3_1 (t : Fin cfg3.N) : cond3_1 (grid3.coords t) ↔ t.val % 125 = 124 := by
  rw [← coord3_1 t]
  exact hcond3_1' (grid3.coords t 1)

/-- No input window is ever idle. -/
theorem live3_in (w : Fin cfg3.W) (hw : w ≠ 4) (i : grid3.Coords) : cfg3.idle w i = false := by
  fin_cases w <;> first | rfl | exact absurd rfl hw

/-- The output window is idle exactly where the second condition fails. -/
theorem idle3_4 (i : grid3.Coords) : cfg3.idle 4 i = !(k3_cond2 i == 1#1) := rfl

theorem idleAt3_4 (t : Fin cfg3.N) (h : t.val % 125 ≠ 124) : cfg3.idle 4 (grid3.coords t) = true := by
  rw [idle3_4]; have := mt (hcond3_1 t).mp h
  simpa using this

theorem liveAt3_4 (t : Fin cfg3.N) (h : t.val % 125 = 124) : cfg3.idle 4 (grid3.coords t) = false := by
  rw [idle3_4]; have := (hcond3_1 t).mpr h
  simpa using this

/-- Off the points ≡ 124 (mod 125) the output block is not written back. -/
theorem noFlush3_4 (t : Fin cfg3.N) (h : t.val % 125 ≠ 124) : (cfg3.win 4).flush t = false := by
  have := mt (flush3_4 t).mp h
  simpa using this

/-! ## The body on any whole memrefs, case by case -/

/-- The zero offsets, however spelt. -/
theorem hzero3 : (![0, 0] : Fin 2 → ℕ) = fun _ => 0 := by funext a; fin_cases a <;> rfl

/-- A store of the whole block, last, covers it. -/
theorem cover3_acc (p : Vec F S1024x64 .f32) (L : List (View.Piece (Elt F) S1024x64 .f32)) (y : S1024x64.Idx) :
    ∃ pc ∈ ((⟨Rect.unit (s := S1024x64) ![0, 0] S1024x64.size inb_S1024x64_S1024x64_0_0, p⟩ : View.Piece (Elt F) S1024x64 .f32) :: L), y ∈ pc.1.set :=
  ⟨_, List.mem_cons.mpr (Or.inl rfl), View.mem_set_unit_zero hzero3 inb_S1024x64_S1024x64_0_0 y⟩

set_option maxHeartbeats 1000000 in
/-- The body at a point where the second grid coordinate is 0, on whole memrefs: the destination indices at `x0`, the gathered
    rows at `x1`, the scratch at anything. It resets the scratch to zero and adds the point's product, so the scratch is left
    at `k3_pay2 i x0 k3_pay1 x1`; the two inputs are as they were, and the other operands are not touched. -/
theorem run3_first (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1x6400 .i32) (x1 : Vec F S6400x64 .bf16) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k3_pay2 i x0 (k3_pay1 (F := F)) x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (cover3_acc _ _), View.canon_cons_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

set_option maxHeartbeats 1000000 in
/-- The body at a point where the second grid coordinate is neither 0 nor 124: the scratch, at `xs`, is left at
    `k3_pay2 i x0 xs x1`; the two inputs are as they were, and the other operands are not touched. -/
theorem run3_mid (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1x6400 .i32) (x1 : Vec F S6400x64 .bf16) (xs : Vec F S1024x64 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k3_pay2 i x0 xs x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover3_acc _ _), View.canon_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

set_option maxHeartbeats 1000000 in
/-- The body at a point where the second grid coordinate is 124: the scratch, at `xs`, is left at `k3_pay2 i x0 xs x1`, and the
    output block, at anything before, is left at `k3_pay3` of the node rows `x2`, that accumulator and the scale `x3`; the
    four inputs are as they were. -/
theorem run3_last (c : Dev nD) (i : grid3.Coords) (arg2 : Memref sig .tc .vmem S1x6400 .i32) (harg2 : arg2.IsWhole) (arg3 : Memref sig .tc .vmem S6400x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1x6400 .i32) (x1 : Vec F S6400x64 .bf16) (x2 x3 xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k3_pay3 x2 (k3_pay2 i x0 xs x1) x3)
            ∗ owns (c : Thread nD τ) arg7 fullShare (k3_pay2 i x0 xs x1)) -∗ K ⟨⟩))
      ⊢ wp frame (wpE (defs₀ (F := F)) Variants.none c none) E (cc3__scatter_kernel i arg2 harg2 arg3 harg3 arg4 harg4 arg5 harg5 arg6 harg6 arg7 harg7) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover3_acc _ _), View.canon_unit_zero hzero3]
    simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]
  iexists _; isplitr
  swap; · iexact HS
  ipureintro
  sl_unfold_words
  rw [View.read_writes_eq_canon _ _ _ (cover3_acc _ _), View.canon_unit_zero hzero3]
  simp only [View.readAt_eq_ld, harg2.read_unread, harg3.read_unread, harg4.read_unread, harg5.read_unread, harg7.read_unread,
    View.readCov_unit_zero (S := S1024x64) _ hzero3,
    View.ld_unit_zero (S := S1x6400) hzero3, View.ld_unit_zero (S := S6400x64) hzero3, View.ld_unit_zero (S := S1024x64) hzero3]

section Region1
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The point's blocks at their literal types: the destination indices of its edge block, the gathered rows of that
    edge block, the node block's own rows, and the node block's scale. -/
abbrev dstBlk3 (c : Dev nD) (t : Fin cfg3.N) : Vec F S1x6400 .i32 := iblk3 V c 0 t
abbrev gatBlk3 (c : Dev nD) (t : Fin cfg3.N) : Vec F S6400x64 .bf16 := iblk3 V c 1 t
abbrev rowBlk3 (c : Dev nD) (t : Fin cfg3.N) : Vec F S1024x64 .f32 := iblk3 V c 2 t
abbrev sclBlk3 (c : Dev nD) (t : Fin cfg3.N) : Vec F S1024x64 .f32 := iblk3 V c 3 t

/-- What the accumulator holds after the body at position `n`: the point's product added to zero at the first
    point of a row of the grid (n ≡ 0 mod 125), and to what the point before left otherwise. -/
def acc3 (c : Dev nD) : (n : ℕ) → n < cfg3.N → Vec F S1024x64 .f32
  | 0, hn => k3_pay2 (grid3.coords ⟨0, hn⟩) (dstBlk3 V c ⟨0, hn⟩) (k3_pay1 (F := F)) (gatBlk3 V c ⟨0, hn⟩)
  | n + 1, hn => k3_pay2 (grid3.coords ⟨n + 1, hn⟩) (dstBlk3 V c ⟨n + 1, hn⟩)
      (if (n + 1) % 125 = 0 then k3_pay1 (F := F) else acc3 c n (Nat.lt_of_succ_lt hn)) (gatBlk3 V c ⟨n + 1, hn⟩)

theorem acc3_first (c : Dev nD) (t : Fin cfg3.N) (h : t.val % 125 = 0) :
    acc3 V c t.val t.isLt = k3_pay2 (grid3.coords t) (dstBlk3 V c t) (k3_pay1 (F := F)) (gatBlk3 V c t) := by
  obtain ⟨n, hn⟩ := t
  cases n with
  | zero => rfl
  | succ n =>
    have h' : (n + 1) % 125 = 0 := h
    show k3_pay2 _ _ (if (n + 1) % 125 = 0 then k3_pay1 (F := F) else acc3 V c n _) _ = _
    rw [if_pos h']

theorem acc3_next (c : Dev nD) (t : Fin cfg3.N) (h : t.val % 125 ≠ 0) :
    acc3 V c t.val t.isLt = k3_pay2 (grid3.coords t) (dstBlk3 V c t)
      (acc3 V c (t.val - 1) (Nat.lt_of_le_of_lt (Nat.sub_le _ _) t.isLt)) (gatBlk3 V c t) := by
  obtain ⟨n, hn⟩ := t
  cases n with
  | zero => exact absurd (Nat.zero_mod _) h
  | succ n =>
    have h' : ¬ (n + 1) % 125 = 0 := h
    show k3_pay2 _ _ (if (n + 1) % 125 = 0 then k3_pay1 (F := F) else acc3 V c n _) _ = _
    rw [if_neg h']
    rfl

/-- The scratch operand, whole. -/
abbrev scM3 : Memref sig .tc .vmem S1024x64 .f32 := Memref.whole cc3_scratch0

/-- The region invariant before position `n`: before the first point what the launch hands the region (every scoped
    buffer that is no staging buffer at anything, the generator register at some state); afterwards the scratch at what
    the point before left in it, the other such buffers unopened, and the register. -/
def Phi3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

/-- Before a position that is not the first: the scratch at what the point before left. -/
theorem Phi3_pos (c : Dev nD) (n : ℕ) (h : n ≤ cfg3.N) (hz : n ≠ 0) :
    Phi3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- What the launch hands the region, with the scratch as a memref owned at some contents. -/
theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

/-- The proof data of pipeline 1 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (rowBlk3 V c t) (acc3 V c t.val t.isLt) (sclBlk3 V c t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay3 (rowBlk3 V c t) (acc3 V c t.val t.isLt) (sclBlk3 V c t) := by dsimp only [dat3]

/-- No input window is ever idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem liveAt3_3 (t : Fin cfg3.N) : cfg3.idle 3 (grid3.coords t) = false := rfl

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-- After point `n` the scratch holds that point's accumulator. -/
theorem Phi3_succ (c : Dev nD) (n : ℕ) (hn : n < cfg3.N) :
    Phi3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

theorem Phi3_zero (c : Dev nD) (n : ℕ) (h : n ≤ cfg3.N) (hz : n = 0) : Phi3 V c n h = Pipeline.ΦA spec3 c := by
  subst hz; rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point, by the three cases of the second grid coordinate. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).Φ t.castSucc = Phi3 V c t.val (Nat.le_of_lt t.isLt) from rfl]
  have hN : t.val < 6125 := lt_of_lt_of_eq t.isLt (show cfg3.N = 6125 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h0 : t.val % 125 = 0
  · have h1 : t.val % 125 ≠ 124 := by omega
    rw [Dat.leavesExact_idle (dat3 V c) 4 t (idleAt3_4 t h1) (noFlush3_4 t h1)]
    rw [acc3_first V c t h0]
    by_cases hz : t.val = 0
    · rw [Phi3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (dstBlk3 V c t) (gatBlk3 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi3_pos V c _ _ hz]
      iintro ⟨⟨HS, HR, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (dstBlk3 V c t) (gatBlk3 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi3_pos V c _ _ hz, acc3_next V c t h0]
    by_cases h1 : t.val % 125 = 124
    · rw [show (dat3 V c).leavesExact 4 t = owns (c : Thread nD τ) (st3_4 t) fullShare ((dat3 V c).after 4 t) from by
        unfold Dat.leavesExact; rw [liveAt3_4 t h1], after3_4, acc3_next V c t h0]
      iintro ⟨⟨HS, HR, Hg⟩, Ho, ⟨%d0, H0⟩, ⟨%d1, H1⟩, ⟨%d2, H2⟩, ⟨%d3, H3⟩, ⟨%d4, H4⟩⟩
      iapply (run3_last c (grid3.coords t) _ _ _ _ _ _ _ _ _ _ _ _ (fun h => h0 ((hcond3_0 t).mp h)) ((hcond3_1 t).mpr h1) (dstBlk3 V c t) (gatBlk3 V c t) (rowBlk3 V c t) (sclBlk3 V c t)
        (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat3 V c) 4 t (idleAt3_4 t h1) (noFlush3_4 t h1)]
      iintro ⟨⟨HS, HR, Hg⟩, Ho, ⟨%d0, H0⟩, ⟨%d1, H1⟩, ⟨%d2, H2⟩, ⟨%d3, H3⟩, ⟨%d4, H4⟩⟩
      iapply (run3_mid c (grid3.coords t) _ _ _ _ _ _ _ _ _ _ _ _ (fun h => h0 ((hcond3_0 t).mp h)) (fun h => h1 ((hcond3_1 t).mp h)) (dstBlk3 V c t) (gatBlk3 V c t)
        (acc3 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl]
  exact Idealize.SL.BI.Entails.refl _

/-- After the last point the invariant gives it back, the accumulator's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 6125 := N_3; omega), PhiA3_eq]
  iintro ⟨HS, HR, Hg⟩
  isplitl [HS HR]
  · isplitl [HS]
    · iexists _; iexact HS
    iexact HR
  iexact Hg

end Region1

end Cert.Kernel.Hand

end
-- ==== Proof.BVals.lean ====
/-
  The buffers' contents between the items of the kernel's program.  The program is fifteen items: stretches of host
  operations and four kernel launches.  Core c's unscoped buffers hold, after each item, the contents before it with
  the item's results written: after a stretch the fold of its operations, after a launch the launch's arrays at what
  its write-backs leave (the inputs as entered, the output's blocks written).  Each launch's proof data is stated at
  the contents its region is entered with.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import proofs.«402452_j12051678232913_1_alg».proof.Proof.BGather0
import proofs.«402452_j12051678232913_1_alg».proof.Proof.BScatter1
import proofs.«402452_j12051678232913_1_alg».proof.Proof.BGather2
import proofs.«402452_j12051678232913_1_alg».proof.Proof.BScatter3
import proofs.«402452_j12051678232913_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- At the first launch's entry. -/
abbrev W4 : Dev nD → Valuation τ sig (Elt F) := fun c => StableHlo.after hostOps0_3 (W3 m c)
abbrev R4 : (c : Dev nD) → (b : Ref sig .tc) → Buf (Elt F) ((c : Thread nD τ).loc b) := fun c b => W4 m c b
/-- At the first launch's exit. -/
def W5 (c : Dev nD) : Valuation τ sig (Elt F) :=
  Pipeline.withArrays spec0 c (W4 m c) fun w => (dat0 (R4 m) c).arrAt w cfg0.N
abbrev W6 : Dev nD → Valuation τ sig (Elt F) := fun c => StableHlo.after hostOps1 (W5 m c)
/-- At the second launch's entry. -/
abbrev W7 : Dev nD → Valuation τ sig (Elt F) := fun c => StableHlo.after hostOps1_1 (W6 m c)
abbrev R7 : (c : Dev nD) → (b : Ref sig .tc) → Buf (Elt F) ((c : Thread nD τ).loc b) := fun c b => W7 m c b
/-- At the second launch's exit. -/
def W8 (c : Dev nD) : Valuation τ sig (Elt F) :=
  Pipeline.withArrays spec1 c (W7 m c) fun w => (dat1 (R7 m) c).arrAt w cfg1.N
abbrev W9 : Dev nD → Valuation τ sig (Elt F) := fun c => StableHlo.after hostOps2 (W8 m c)
/-- At the third launch's entry. -/
abbrev W10 : Dev nD → Valuation τ sig (Elt F) := fun c => StableHlo.after hostOps2_1 (W9 m c)
abbrev R10 : (c : Dev nD) → (b : Ref sig .tc) → Buf (Elt F) ((c : Thread nD τ).loc b) := fun c b => W10 m c b
/-- At the third launch's exit. -/
def W11 (c : Dev nD) : Valuation τ sig (Elt F) :=
  Pipeline.withArrays spec2 c (W10 m c) fun w => (dat2 (R10 m) c).arrAt w cfg2.N
abbrev W12 : Dev nD → Valuation τ sig (Elt F) := fun c => StableHlo.after hostOps3 (W11 m c)
/-- At the fourth launch's entry. -/
abbrev W13 : Dev nD → Valuation τ sig (Elt F) := fun c => StableHlo.after hostOps3_1 (W12 m c)
abbrev R13 : (c : Dev nD) → (b : Ref sig .tc) → Buf (Elt F) ((c : Thread nD τ).loc b) := fun c b => W13 m c b
/-- At the fourth launch's exit. -/
def W14 (c : Dev nD) : Valuation τ sig (Elt F) :=
  Pipeline.withArrays spec3 c (W13 m c) fun w => (dat3 (R13 m) c).arrAt w cfg3.N
/-- At the end. -/
abbrev W15 : Dev nD → Valuation τ sig (Elt F) := fun c => StableHlo.after hostOps4 (W14 m c)

/-! ## What a launch's exit holds -/

theorem W5_arr (c : Dev nD) (w : Fin cfg0.W) :
    W5 m c (Proc.devRef .tc (Pipeline.arrRef spec0 w)) = (dat0 (R4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
theorem W8_arr (c : Dev nD) (w : Fin cfg1.W) :
    W8 m c (Proc.devRef .tc (Pipeline.arrRef spec1 w)) = (dat1 (R7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
theorem W11_arr (c : Dev nD) (w : Fin cfg2.W) :
    W11 m c (Proc.devRef .tc (Pipeline.arrRef spec2 w)) = (dat2 (R10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
theorem W14_arr (c : Dev nD) (w : Fin cfg3.W) :
    W14 m c (Proc.devRef .tc (Pipeline.arrRef spec3 w)) = (dat3 (R13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb

/-! ## What a stretch of host operations leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W6_of (c : Dev nD) (r : Ref sig .tc) (h : r ∉ hostOps1_W) : W6 m c r = W5 m c r :=
  StableHlo.after_of_writes_sub hostOps1 _ hostOps1_writes h
theorem W7_of (c : Dev nD) (r : Ref sig .tc) (h : r ∉ hostOps1_1_W) : W7 m c r = W6 m c r :=
  StableHlo.after_of_writes_sub hostOps1_1 _ hostOps1_1_writes h
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W12_of (c : Dev nD) (r : Ref sig .tc) (h : r ∉ hostOps3_W) : W12 m c r = W11 m c r :=
  StableHlo.after_of_writes_sub hostOps3 _ hostOps3_writes h
theorem W13_of (c : Dev nD) (r : Ref sig .tc) (h : r ∉ hostOps3_1_W) : W13 m c r = W12 m c r :=
  StableHlo.after_of_writes_sub hostOps3_1 _ hostOps3_1_writes h
theorem W15_of (c : Dev nD) (r : Ref sig .tc) (h : r ∉ hostOps4_W) : W15 m c r = W14 m c r :=
  StableHlo.after_of_writes_sub hostOps4 _ hostOps4_writes h

/-! ## The proof data family -/

/-- Every launch's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (R4 m) c
  | ⟨1, _⟩ => fun c => dat1 (R7 m) c
  | ⟨2, _⟩ => fun c => dat2 (R10 m) c
  | ⟨3, _⟩ => fun c => dat3 (R13 m) c

end Cert.Kernel.Hand

end
-- ==== Proof.BRunAll.lean ====
/-
  The run of the kernel's program.  Its fifteen items are run in order on every core: a stretch of host operations
  leaves every unscoped buffer at the fold of its operations; a kernel launch is entered with its arrays at the
  contents the item before left, runs its grid (the pipeline library's rule, from the launch's body obligation), and
  leaves its arrays at what the write-backs leave.  Every weakly fair execution terminates, nothing faults, and at
  the end every unscoped buffer holds the last item's contents.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import proofs.«402452_j12051678232913_1_alg».proof.Proof.BVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev R5 : (c : Dev nD) → (b : Ref sig .tc) → Buf (Elt F) ((c : Thread nD τ).loc b) := fun c b => W5 m c b
abbrev R8 : (c : Dev nD) → (b : Ref sig .tc) → Buf (Elt F) ((c : Thread nD τ).loc b) := fun c b => W8 m c b
abbrev R11 : (c : Dev nD) → (b : Ref sig .tc) → Buf (Elt F) ((c : Thread nD τ).loc b) := fun c b => W11 m c b
abbrev R14 : (c : Dev nD) → (b : Ref sig .tc) → Buf (Elt F) ((c : Thread nD τ).loc b) := fun c b => W14 m c b

abbrev 𝒱H : Variants := Variants.none
/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at
    nothing. -/
abbrev Rst (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem hF0 (c : Dev nD) (w : Fin cfg0.W) : (dat0 (R4 m) c).arrAt w cfg0.N = R5 m c (Pipeline.arrRef spec0 w) :=
  (W5_arr m c w).symm
theorem hrest0 (c : Dev nD) : ∀ b, b ∉ Finset.univ.image (Pipeline.arrRef spec0) → R5 m c b = R4 m c b :=
  fun b hb => W5_of_ne m c b fun w e => hb (Finset.mem_image.mpr ⟨w, Finset.mem_univ _, e⟩)

set_option backward.isDefEq.respectTransparency.types false in
/-- Launch 0 over the thread state: entered from every unscoped buffer at its entry contents, left at its exit
    contents; its arrays split out of the unscoped buffers and put back; the generator register and the scratch into the
    launch's invariant and out; nothing owed; no semaphore of the kernel's own. -/
def reg0 : Pipeline.RegionSeg (pcfgs (F := F)) adm (pdats m) () defs₀ 𝒱H L0 lv0 0 where
  win := launch0.win.to₀
  block_pos := launch0.block_pos
  stage_whole := launch0.stage_whole
  K := PEmpty
  osem k := k.elim
  ho := Pipeline.OwnSemFacts.none _
  hbody c := (body_obligation0 (R4 m) c).loose
  hwaits := Pipeline.hwaits_of_owed_zero _ _ _ _ L0 lv0 0 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec0 c (R4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (R4 m) c).Φ 0 from rfl]
    have h := hin0 (R4 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (R4 m) c).Φ (Fin.last cfg0.N) from rfl]
    have h := hout0 (R4 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R4 m c) (R5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (R7 m) c).arrAt w cfg1.N = R8 m c (Pipeline.arrRef spec1 w) :=
  (W8_arr m c w).symm
theorem hrest1 (c : Dev nD) : ∀ b, b ∉ Finset.univ.image (Pipeline.arrRef spec1) → R8 m c b = R7 m c b :=
  fun b hb => W8_of_ne m c b fun w e => hb (Finset.mem_image.mpr ⟨w, Finset.mem_univ _, e⟩)

set_option backward.isDefEq.respectTransparency.types false in
/-- Launch 1 over the thread state: entered from every unscoped buffer at its entry contents, left at its exit
    contents; its arrays split out of the unscoped buffers and put back; the generator register and the scratch into the
    launch's invariant and out; nothing owed; no semaphore of the kernel's own. -/
def reg1 : Pipeline.RegionSeg (pcfgs (F := F)) adm (pdats m) () defs₀ 𝒱H L0 lv0 1 where
  win := launch1.win.to₀
  block_pos := launch1.block_pos
  stage_whole := launch1.stage_whole
  K := PEmpty
  osem k := k.elim
  ho := Pipeline.OwnSemFacts.none _
  hbody c := (body_obligation1 (R7 m) c).loose
  hwaits := Pipeline.hwaits_of_owed_zero _ _ _ _ L0 lv0 1 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec1 c (R7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (R7 m) c).Φ 0 from rfl]
    have h := hin1 (R7 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (R7 m) c).Φ (Fin.last cfg1.N) from rfl]
    have h := hout1 (R7 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R7 m c) (R8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (R10 m) c).arrAt w cfg2.N = R11 m c (Pipeline.arrRef spec2 w) :=
  (W11_arr m c w).symm
theorem hrest2 (c : Dev nD) : ∀ b, b ∉ Finset.univ.image (Pipeline.arrRef spec2) → R11 m c b = R10 m c b :=
  fun b hb => W11_of_ne m c b fun w e => hb (Finset.mem_image.mpr ⟨w, Finset.mem_univ _, e⟩)

set_option backward.isDefEq.respectTransparency.types false in
/-- Launch 2 over the thread state: entered from every unscoped buffer at its entry contents, left at its exit
    contents; its arrays split out of the unscoped buffers and put back; the generator register and the scratch into the
    launch's invariant and out; nothing owed; no semaphore of the kernel's own. -/
def reg2 : Pipeline.RegionSeg (pcfgs (F := F)) adm (pdats m) () defs₀ 𝒱H L0 lv0 2 where
  win := launch2.win.to₀
  block_pos := launch2.block_pos
  stage_whole := launch2.stage_whole
  K := PEmpty
  osem k := k.elim
  ho := Pipeline.OwnSemFacts.none _
  hbody c := (body_obligation2 (R10 m) c).loose
  hwaits := Pipeline.hwaits_of_owed_zero _ _ _ _ L0 lv0 2 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec2 c (R10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (R10 m) c).Φ 0 from rfl]
    have h := hin2 (R10 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (R10 m) c).Φ (Fin.last cfg2.N) from rfl]
    have h := hout2 (R10 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R10 m c) (R11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) (w : Fin cfg3.W) : (dat3 (R13 m) c).arrAt w cfg3.N = R14 m c (Pipeline.arrRef spec3 w) :=
  (W14_arr m c w).symm
theorem hrest3 (c : Dev nD) : ∀ b, b ∉ Finset.univ.image (Pipeline.arrRef spec3) → R14 m c b = R13 m c b :=
  fun b hb => W14_of_ne m c b fun w e => hb (Finset.mem_image.mpr ⟨w, Finset.mem_univ _, e⟩)

set_option backward.isDefEq.respectTransparency.types false in
/-- Launch 3 over the thread state: entered from every unscoped buffer at its entry contents, left at its exit
    contents; its arrays split out of the unscoped buffers and put back; the generator register and the scratch into the
    launch's invariant and out; nothing owed; no semaphore of the kernel's own. -/
def reg3 : Pipeline.RegionSeg (pcfgs (F := F)) adm (pdats m) () defs₀ 𝒱H L0 lv0 3 where
  win := launch3.win.to₀
  block_pos := launch3.block_pos
  stage_whole := launch3.stage_whole
  K := PEmpty
  osem k := k.elim
  ho := Pipeline.OwnSemFacts.none _
  hbody c := (body_obligation3 (R13 m) c).loose
  hwaits := Pipeline.hwaits_of_owed_zero _ _ _ _ L0 lv0 3 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec3 c (R13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (R13 m) c).Φ 0 from rfl]
    have h := hin3 (R13 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (R13 m) c).Φ (Fin.last cfg3.N) from rfl]
    have h := hout3 (R13 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R13 m c) (R14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's fifteen items in order. -/
abbrev segsH : List (Pipeline.Seg (pcfgs (F := F)) adm (pdats m) () defs₀ 𝒱H L0 lv0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .host (hseg hostOps1_1 hostOps1_1_sub hostOps1_1_fresh (W6 m)),
    .region (reg1 m),
    .host (hseg hostOps2 hostOps2_sub hostOps2_fresh (W8 m)),
    .host (hseg hostOps2_1 hostOps2_1_sub hostOps2_1_fresh (W9 m)),
    .region (reg2 m),
    .host (hseg hostOps3 hostOps3_sub hostOps3_fresh (W11 m)),
    .host (hseg hostOps3_1 hostOps3_1_sub hostOps3_1_fresh (W12 m)),
    .region (reg3 m),
    .host (hseg hostOps4 hostOps4_sub hostOps4_fresh (W14 m)) ]

set_option backward.isDefEq.respectTransparency.types false in
/-- THE RUN: from any memory with zero counters every weakly fair execution of the program terminates, nothing
    faulting, and every final memory holds every unscoped buffer at the last item's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱H L0 lv0 m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m c) ∗ Rst c) ⊢ _
        iintro ⟨Hh, Hp, HO⟩
        isplitl [Hh Hp]
        · isplitl [Hh]; · iexact Hh
          iexact Hp
        iexact HO⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.BArgsKept.lean ====
/-
  No item of the kernel's program writes an argument array: a stretch of host operations writes only its own results,
  and a launch changes only its output array.  So at the end each argument's buffer holds its launch contents.
-/
import proofs.«402452_j12051678232913_1_alg».proof.Proof.Gen.Kernel.Launch
import proofs.«402452_j12051678232913_1_alg».proof.Proof.Gen.Kernel.Skeleton
import proofs.«402452_j12051678232913_1_alg».proof.Proof.Gen.Kernel.Points
import proofs.«402452_j12051678232913_1_alg».proof.Proof.BVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W15_main_arg0 (c : Dev nD) : W15 m c main_arg0 = m ((c : Thread nD τ).loc main_arg0) :=
  (W15_of m c main_arg0 (by decide)).trans <| (W14_of_ne m c main_arg0 (by decide)).trans <| (W13_of m c main_arg0 (by decide)).trans <|
  (W12_of m c main_arg0 (by decide)).trans <| (W11_of_ne m c main_arg0 (by decide)).trans <| (W10_of m c main_arg0 (by decide)).trans <|
  (W9_of m c main_arg0 (by decide)).trans <| (W8_of_ne m c main_arg0 (by decide)).trans <| (W7_of m c main_arg0 (by decide)).trans <|
  (W6_of m c main_arg0 (by decide)).trans <| (W5_of_ne m c main_arg0 (by decide)).trans <| (W4_of m c main_arg0 (by decide)).trans <|
  (W3_of m c main_arg0 (by decide)).trans <| (W2_of m c main_arg0 (by decide)).trans <| (W1_of m c main_arg0 (by decide)).trans rfl
theorem W15_main_arg1 (c : Dev nD) : W15 m c main_arg1 = m ((c : Thread nD τ).loc main_arg1) :=
  (W15_of m c main_arg1 (by decide)).trans <| (W14_of_ne m c main_arg1 (by decide)).trans <| (W13_of m c main_arg1 (by decide)).trans <|
  (W12_of m c main_arg1 (by decide)).trans <| (W11_of_ne m c main_arg1 (by decide)).trans <| (W10_of m c main_arg1 (by decide)).trans <|
  (W9_of m c main_arg1 (by decide)).trans <| (W8_of_ne m c main_arg1 (by decide)).trans <| (W7_of m c main_arg1 (by decide)).trans <|
  (W6_of m c main_arg1 (by decide)).trans <| (W5_of_ne m c main_arg1 (by decide)).trans <| (W4_of m c main_arg1 (by decide)).trans <|
  (W3_of m c main_arg1 (by decide)).trans <| (W2_of m c main_arg1 (by decide)).trans <| (W1_of m c main_arg1 (by decide)).trans rfl
theorem W15_main_arg2 (c : Dev nD) : W15 m c main_arg2 = m ((c : Thread nD τ).loc main_arg2) :=
  (W15_of m c main_arg2 (by decide)).trans <| (W14_of_ne m c main_arg2 (by decide)).trans <| (W13_of m c main_arg2 (by decide)).trans <|
  (W12_of m c main_arg2 (by decide)).trans <| (W11_of_ne m c main_arg2 (by decide)).trans <| (W10_of m c main_arg2 (by decide)).trans <|
  (W9_of m c main_arg2 (by decide)).trans <| (W8_of_ne m c main_arg2 (by decide)).trans <| (W7_of m c main_arg2 (by decide)).trans <|
  (W6_of m c main_arg2 (by decide)).trans <| (W5_of_ne m c main_arg2 (by decide)).trans <| (W4_of m c main_arg2 (by decide)).trans <|
  (W3_of m c main_arg2 (by decide)).trans <| (W2_of m c main_arg2 (by decide)).trans <| (W1_of m c main_arg2 (by decide)).trans rfl

end Cert.Kernel.Hand

end
-- ==== Proof.Spec.lean ====
/-
  The function both programs compute, on extended reals.  Nodes 0 … 49999 carry 64 features each; the index array's
  row 0 holds the source node and row 1 the destination node of each of 800000 edges.  One smoothing step adds to every
  node's features half the sum, over the edges that end at the node, of the features of the edge's source node, and
  multiplies the result by the node's scale 1 / (1 + D/2); the programs take two such steps.  Sums of extended reals
  are taken in the commutative monoid of extended reals, so neither their order nor their grouping matters.
-/
import Idealize.ShloMosaic.PureOps.Ideal
import Idealize.ShloMosaic.Lib.ValueIdx

noncomputable section

namespace Cert.Spec

open Idealize.ShloMosaic Idealize.ShloMosaic.ValueIdx

abbrev SNxD : Shape := ⟨2, ![50000, 64]⟩
abbrev SN : Shape := ⟨1, ![50000]⟩
abbrev SE : Shape := ⟨2, ![2, 800000]⟩

/-- The words of 1/2 and of 1, as extended reals. -/
abbrev half : EReal := Ideal.ofBits .f32 0x3F000000#32
abbrev unit : EReal := Ideal.ofBits .f32 0x3F800000#32

/-- Edge `e`'s source and destination words. -/
def src (ei : IVec SE 32) (e : Fin 800000) : BitVec 32 := ei (ix2 (0 : Fin 2) e)
def dst (ei : IVec SE 32) (e : Fin 800000) : BitVec 32 := ei (ix2 (1 : Fin 2) e)

/-- Every source word, read as a signed integer, names a node. -/
def InRange (ei : IVec SE 32) : Prop := ∀ e : Fin 800000, 0 ≤ (src ei e).toInt ∧ (src ei e).toInt < 50000

/-- Node `n`'s scale. -/
def scale (D : FVec Ideal SN .f32) (n : Fin 50000) : EReal := Ideal.div unit (unit + half * D (ix1 n))

/-- The sum over the edges that end at node `n` of feature `d` of the edge's source node (zero for a source word
    that names no node). -/
def agg (ei : IVec SE 32) (h : FVec Ideal SNxD .f32) (n : Fin 50000) (d : Fin 64) : EReal :=
  ∑ e ∈ Finset.univ.filter (fun e : Fin 800000 => (dst ei e).toInt = (n.val : ℤ)),
    if hs : (src ei e).toNat < 50000 then h (ix2 (⟨(src ei e).toNat, hs⟩ : Fin 50000) d) else 0

/-- One smoothing step. -/
def step (ei : IVec SE 32) (D : FVec Ideal SN .f32) (h : FVec Ideal SNxD .f32) : FVec Ideal SNxD .f32 := fun i =>
  (h i + half * agg ei h ⟨(i 0).val, idx2_lt0 i⟩ ⟨(i 1).val, idx2_lt1 i⟩) * scale D ⟨(i 0).val, idx2_lt0 i⟩

/-- Two steps. -/
def G (h : FVec Ideal SNxD .f32) (D : FVec Ideal SN .f32) (ei : IVec SE 32) : FVec Ideal SNxD .f32 :=
  step ei D (step ei D h)

end Cert.Spec

end
-- ==== Proof.RefIsSpec.lean ====
/-
  The reference's result is the two-step smoothing function, for source words that name nodes.  The reference
  reads the source node's features by a row gather whose start index is the source word (wrapped if negative, then
  clamped: both leave a word in range as it is), and adds them up per destination node by an accumulating scatter
  that drops the edges whose destination word names no node; at the ideal instance that scatter is the operand (zero)
  plus the sum of the updates landing on each element.
-/
import proofs.«402452_j12051678232913_1_alg».proof.Proof.Gen.ReferenceIdeal.Read
import proofs.«402452_j12051678232913_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-- The row gather read at edge e, feature d. -/
theorem gather_read {α : Type} (x : S50000x64.Idx → α) (idx : IVec S800000x1 32) (e : Fin 800000) (d : Fin 64) :
    Host.gather gather_S50000x64_S800000x1_S800000x64_1_0_n_n_0_1_164 x idx (ix2 e d)
      = x (ix2 (⟨min (idx (ix2 e (0 : Fin 1))).toInt.toNat (50000 - 1), by omega⟩ : Fin 50000) d) := by
  unfold Host.gather
  congr 1
  funext a
  refine Fin.ext ?_
  match a with
  | ⟨0, _⟩ =>
    show gather_S50000x64_S800000x1_S800000x64_1_0_n_n_0_1_164.start (ix2 e d) idx 0
      + gather_S50000x64_S800000x1_S800000x64_1_0_n_n_0_1_164.batchCoord (ix2 e d) 0
      + gather_S50000x64_S800000x1_S800000x64_1_0_n_n_0_1_164.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S800000x1_S800000x64_1_0_n_n_0_1_164.startIndexMap from List.mem_singleton.mpr rfl)]
    have hsi : gather_S50000x64_S800000x1_S800000x64_1_0_n_n_0_1_164.siIdx (ix2 e d)
        ⟨List.idxOf (0 : Fin 2) gather_S50000x64_S800000x1_S800000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x64_S800000x1_S800000x64_1_0_n_n_0_1_164.start (ix2 e d) idx 1
      + gather_S50000x64_S800000x1_S800000x64_1_0_n_n_0_1_164.batchCoord (ix2 e d) 1
      + gather_S50000x64_S800000x1_S800000x64_1_0_n_n_0_1_164.offCoord (ix2 e d) 1 = d.val
    rw [GatherDims.batchCoord_eq_zero _ _ _ List.not_mem_nil]
    have hst : gather_S50000x64_S800000x1_S800000x64_1_0_n_n_0_1_164.start (ix2 e d) idx 1 = 0 := by
      unfold GatherDims.start
      rw [dif_neg (by decide)]
    rw [hst]
    simp only [Nat.add_zero, Nat.zero_add]
    rfl

/-- Where update (e, d') lands: on element (n, d) exactly when edge e's destination word reads n and d' = d. -/
theorem scatter_lands (idx : IVec S800000x1 32) (e : Fin 800000) (d' : Fin 64) (n : Fin 50000) (d : Fin 64) :
    scatter_S50000x64_S800000x1_S800000x64_1_0_0_1.resultIdx? (ix2 e d') idx = some (ix2 n d)
      ↔ (idx (ix2 e (0 : Fin 1))).toInt = (n.val : ℤ) ∧ d' = d := by
  have hs0 : scatter_S50000x64_S800000x1_S800000x64_1_0_0_1.start (ix2 e d') idx (0 : Fin 2)
      = (idx (ix2 e (0 : Fin 1))).toInt := by
    unfold ScatterDims.start
    rw [dif_pos (show (0 : Fin 2) ∈ scatter_S50000x64_S800000x1_S800000x64_1_0_0_1.scatterDimsToOperandDims from
      List.mem_singleton.mpr rfl)]
    have hsi : scatter_S50000x64_S800000x1_S800000x64_1_0_0_1.siIdx (ix2 e d')
        ⟨List.idxOf (0 : Fin 2) scatter_S50000x64_S800000x1_S800000x64_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : scatter_S50000x64_S800000x1_S800000x64_1_0_0_1.start (ix2 e d') idx (1 : Fin 2) = 0 := by
    unfold ScatterDims.start
    rw [dif_neg (by decide)]
  have hw0 : scatter_S50000x64_S800000x1_S800000x64_1_0_0_1.window (ix2 e d') (0 : Fin 2) = 0 := by
    unfold ScatterDims.window
    rw [dif_neg (by decide)]
  have hw1 : scatter_S50000x64_S800000x1_S800000x64_1_0_0_1.window (ix2 e d') (1 : Fin 2) = d'.val := by
    unfold ScatterDims.window
    rw [dif_pos (by decide)]
    rfl
  have hn := n.isLt
  have hd' := d'.isLt
  unfold ScatterDims.resultIdx?
  constructor
  · intro h
    split at h
    · rename_i hall
      have heq := Option.some.inj h
      have h0 := congrArg Fin.val (congrFun heq (0 : Fin 2))
      have h1 := congrArg Fin.val (congrFun heq (1 : Fin 2))
      have ha0 := (hall (0 : Fin 2)).1
      simp only [hs0, hs1, hw0, hw1] at h0 h1 ha0
      change ((idx (ix2 e (0 : Fin 1))).toInt + ((0 : Nat) : ℤ)).toNat = n.val at h0
      change ((0 : ℤ) + ((d'.val : Nat) : ℤ)).toNat = d.val at h1
      refine ⟨by omega, Fin.ext (by omega)⟩
    · exact absurd h (by simp)
  · rintro ⟨hi, rfl⟩
    have hall : ∀ a : Fin 2, 0 ≤ scatter_S50000x64_S800000x1_S800000x64_1_0_0_1.start (ix2 e d') idx a
          + (scatter_S50000x64_S800000x1_S800000x64_1_0_0_1.window (ix2 e d') a : ℤ)
        ∧ scatter_S50000x64_S800000x1_S800000x64_1_0_0_1.start (ix2 e d') idx a
          + (scatter_S50000x64_S800000x1_S800000x64_1_0_0_1.window (ix2 e d') a : ℤ) < (S50000x64.size a : ℤ) := by
      intro a
      match a with
      | ⟨0, _⟩ =>
        show 0 ≤ scatter_S50000x64_S800000x1_S800000x64_1_0_0_1.start (ix2 e d') idx (0 : Fin 2)
          + (scatter_S50000x64_S800000x1_S800000x64_1_0_0_1.window (ix2 e d') (0 : Fin 2) : ℤ)
          ∧ scatter_S50000x64_S800000x1_S800000x64_1_0_0_1.start (ix2 e d') idx (0 : Fin 2)
          + (scatter_S50000x64_S800000x1_S800000x64_1_0_0_1.window (ix2 e d') (0 : Fin 2) : ℤ) < ((50000 : Nat) : ℤ)
        rw [hs0, hw0, hi]; omega
      | ⟨1, _⟩ =>
        show 0 ≤ scatter_S50000x64_S800000x1_S800000x64_1_0_0_1.start (ix2 e d') idx (1 : Fin 2)
          + (scatter_S50000x64_S800000x1_S800000x64_1_0_0_1.window (ix2 e d') (1 : Fin 2) : ℤ)
          ∧ scatter_S50000x64_S800000x1_S800000x64_1_0_0_1.start (ix2 e d') idx (1 : Fin 2)
          + (scatter_S50000x64_S800000x1_S800000x64_1_0_0_1.window (ix2 e d') (1 : Fin 2) : ℤ) < ((64 : Nat) : ℤ)
        rw [hs1, hw1]; omega
    rw [dif_pos hall]
    congr 1
    funext a
    refine Fin.ext ?_
    match a with
    | ⟨0, _⟩ =>
      show (scatter_S50000x64_S800000x1_S800000x64_1_0_0_1.start (ix2 e d') idx (0 : Fin 2)
          + (scatter_S50000x64_S800000x1_S800000x64_1_0_0_1.window (ix2 e d') (0 : Fin 2) : ℤ)).toNat = n.val
      rw [hs0, hw0, hi]; omega
    | ⟨1, _⟩ =>
      show (scatter_S50000x64_S800000x1_S800000x64_1_0_0_1.start (ix2 e d') idx (1 : Fin 2)
          + (scatter_S50000x64_S800000x1_S800000x64_1_0_0_1.window (ix2 e d') (1 : Fin 2) : ℤ)).toNat = d'.val
      rw [hs1, hw1]; omega

/-- The accumulating scatter read at node n, feature d: the operand there plus the sum, over the edges whose
    destination word reads n, of the update rows' feature d. -/
theorem scatter_read (x : FVec Ideal S50000x64 .f32) (idx : IVec S800000x1 32) (upd : FVec Ideal S800000x64 .f32)
    (n : Fin 50000) (d : Fin 64) :
    Host.scatterAdd scatter_S50000x64_S800000x1_S800000x64_1_0_0_1 x idx upd (ix2 n d)
      = x (ix2 n d) + ∑ e ∈ Finset.univ.filter (fun e : Fin 800000 => (idx (ix2 e (0 : Fin 1))).toInt = (n.val : ℤ)),
          upd (ix2 e d) := by
  unfold Host.scatterAdd
  rw [Ideal.hostScatterAdd_def]
  unfold Ideal.hostScatterAdd
  refine congrArg (fun s => x (ix2 n d) + s) ?_
  symm
  refine Finset.sum_bij (fun e _ => ix2 e d) ?_ ?_ ?_ ?_
  · intro e he
    rw [Finset.mem_filter] at he ⊢
    exact ⟨Finset.mem_univ _, (scatter_lands idx e d n d).2 ⟨he.2, rfl⟩⟩
  · intro e1 _ e2 _ h
    exact congrFun h (0 : Fin 2)
  · intro j hj
    rw [Finset.mem_filter] at hj
    obtain ⟨e, d', rfl⟩ : ∃ (e : Fin 800000) (d' : Fin 64), j = ix2 e d' := ⟨j 0, j 1, eq_ix2 j⟩
    have h := (scatter_lands idx e d' n d).1 hj.2
    refine ⟨e, ?_, ?_⟩
    · rw [Finset.mem_filter]; exact ⟨Finset.mem_univ _, h.1⟩
    · rw [h.2]
  · intro e _
    rfl

/-- Edge e's source word as the reference reads it: row 0 of the index array, flattened. -/
theorem src_read (ei : IVec S2x800000 32) (e : Fin 800000) :
    Read.val_main_v7 (F := Ideal) ei (ix1 e) = Cert.Spec.src ei e := by
  rw [Read.val_main_v7_apply, Read.val_main_v6_apply]
  unfold Cert.Spec.src
  refine congrArg ei ?_
  funext a
  refine Fin.ext ?_
  match a with
  | ⟨0, _⟩ => rfl
  | ⟨1, _⟩ =>
    show (e.val % 800000 : Nat) = e.val
    exact Nat.mod_eq_of_lt e.isLt

/-- Edge e's destination word as the reference reads it: row 1 of the index array, flattened. -/
theorem dst_read (ei : IVec S2x800000 32) (e : Fin 800000) :
    Read.val_main_v9 (F := Ideal) ei (ix1 e) = Cert.Spec.dst ei e := by
  rw [Read.val_main_v9_apply, Read.val_main_v8_apply]
  unfold Cert.Spec.dst
  refine congrArg ei ?_
  funext a
  refine Fin.ext ?_
  match a with
  | ⟨0, _⟩ => rfl
  | ⟨1, _⟩ =>
    show (e.val % 800000 : Nat) = e.val
    exact Nat.mod_eq_of_lt e.isLt

/-- A word that reads as a non-negative integer is not below zero in the signed order. -/
theorem slt_zero_of_nonneg (w : BitVec 32) (hw : 0 ≤ w.toInt) : IntOp.cmpi .slt w 0#32 = 0#1 := by
  refine eq_zero_of_ne_one (fun h => ?_)
  have h' := IntOp.cmpi_slt.mp h
  rw [show (0#32 : BitVec 32).toInt = 0 from rfl] at h'
  omega

/-- The first step's gather index at edge e is the source word (the wrap of a negative word does not act). -/
theorem gidx1_read (ei : IVec S2x800000 32) (hr : Cert.Spec.InRange ei) (e : Fin 800000) :
    Read.val_main_v15 (F := Ideal) ei (ix2 e (0 : Fin 1)) = Cert.Spec.src ei e := by
  rw [Read.val_main_v15_apply, Read.val_main_v14_apply, Read.val_main_v11_apply, Read.val_main_v10_apply,
    Read.val_main_c_apply]
  have hi : Read.idx_main_v15 (ix2 e (0 : Fin 1)) = ix1 e := by
    funext a; match a with | ⟨0, _⟩ => rfl
  rw [hi, src_read, slt_zero_of_nonneg _ (hr e).1, select_zero]

/-- The second step's gather index at edge e is the source word. -/
theorem gidx2_read (ei : IVec S2x800000 32) (hr : Cert.Spec.InRange ei) (e : Fin 800000) :
    Read.val_main_v31 (F := Ideal) ei (ix2 e (0 : Fin 1)) = Cert.Spec.src ei e := by
  rw [Read.val_main_v31_apply, Read.val_main_v30_apply, Read.val_main_v27_apply, Read.val_main_v26_apply,
    Read.val_main_c_5_apply]
  have hi : Read.idx_main_v31 (ix2 e (0 : Fin 1)) = ix1 e := by
    funext a; match a with | ⟨0, _⟩ => rfl
  rw [hi, src_read, slt_zero_of_nonneg _ (hr e).1, select_zero]

/-- The first step's scatter index at edge e is the destination word. -/
theorem sidx1_read (ei : IVec S2x800000 32) (e : Fin 800000) :
    Read.val_main_v18 (F := Ideal) ei (ix2 e (0 : Fin 1)) = Cert.Spec.dst ei e := by
  rw [Read.val_main_v18_apply]
  have hi : Read.idx_main_v18 (ix2 e (0 : Fin 1)) = ix1 e := by
    funext a; match a with | ⟨0, _⟩ => rfl
  rw [hi, dst_read]

/-- The second step's scatter index at edge e is the destination word. -/
theorem sidx2_read (ei : IVec S2x800000 32) (e : Fin 800000) :
    Read.val_main_v34 (F := Ideal) ei (ix2 e (0 : Fin 1)) = Cert.Spec.dst ei e := by
  rw [Read.val_main_v34_apply]
  have hi : Read.idx_main_v34 (ix2 e (0 : Fin 1)) = ix1 e := by
    funext a; match a with | ⟨0, _⟩ => rfl
  rw [hi, dst_read]

/-- Gather the source rows, then add them up per destination node over a zero operand: the specification's sum. -/
theorem agg_read (ei : IVec S2x800000 32) (hr : Cert.Spec.InRange ei) (x0 : FVec Ideal S50000x64 .f32)
    (zero : FVec Ideal S50000x64 .f32) (idxS idxD : IVec S800000x1 32) (hz : ∀ i, zero i = 0)
    (hS : ∀ e : Fin 800000, idxS (ix2 e (0 : Fin 1)) = Cert.Spec.src ei e)
    (hD : ∀ e : Fin 800000, idxD (ix2 e (0 : Fin 1)) = Cert.Spec.dst ei e) (n : Fin 50000) (d : Fin 64) :
    Host.scatterAdd scatter_S50000x64_S800000x1_S800000x64_1_0_0_1 zero idxD
        (Host.gather gather_S50000x64_S800000x1_S800000x64_1_0_n_n_0_1_164 x0 idxS) (ix2 n d)
      = Cert.Spec.agg ei x0 n d := by
  rw [scatter_read, hz, zero_add]
  unfold Cert.Spec.agg
  simp only [hD]
  refine Finset.sum_congr rfl (fun e _ => ?_)
  rw [gather_read]
  obtain ⟨h0, h1⟩ := hr e
  have hcond := BitVec.toInt_eq_toNat_cond (Cert.Spec.src ei e)
  have hlt : (Cert.Spec.src ei e).toNat < 50000 := by
    have := (Cert.Spec.src ei e).isLt
    omega
  rw [dif_pos hlt]
  refine congrArg x0 (congrArg (fun p : Fin 50000 => ix2 p d) (Fin.ext ?_))
  show min (idxS (ix2 e (0 : Fin 1))).toInt.toNat (50000 - 1) = (Cert.Spec.src ei e).toNat
  rw [hS]
  have := (Cert.Spec.src ei e).isLt
  omega

/-- The first step's scale, broadcast along the features, is the node's scale. -/
theorem scale1_read (D : FVec Ideal S50000 .f32) (p : Fin 50000) (q : Fin 64) :
    Read.val_main_v24 (F := Ideal) D (ix2 p q) = Cert.Spec.scale D p := by
  rw [Read.val_main_v24_apply, Read.val_main_v23_apply, Read.val_main_v5_apply, Read.val_main_v4_apply,
    Read.val_main_cst_1_apply, Read.val_main_v3_apply, Read.val_main_v2_apply, Read.val_main_cst_0_apply,
    Read.val_main_v1_apply, Read.val_main_v0_apply, Read.val_main_cst_apply]
  have hi : Read.idx_main_v23 (Read.idx_main_v24 (ix2 p q)) = ix1 p := by
    funext a; match a with | ⟨0, _⟩ => rfl
  rw [hi]
  rfl

/-- The second step's scale, broadcast along the features, is the node's scale. -/
theorem scale2_read (D : FVec Ideal S50000 .f32) (p : Fin 50000) (q : Fin 64) :
    Read.val_main_v40 (F := Ideal) D (ix2 p q) = Cert.Spec.scale D p := by
  rw [Read.val_main_v40_apply, Read.val_main_v39_apply, Read.val_main_v5_apply, Read.val_main_v4_apply,
    Read.val_main_cst_1_apply, Read.val_main_v3_apply, Read.val_main_v2_apply, Read.val_main_cst_0_apply,
    Read.val_main_v1_apply, Read.val_main_v0_apply, Read.val_main_cst_apply]
  have hi : Read.idx_main_v39 (Read.idx_main_v40 (ix2 p q)) = ix1 p := by
    funext a; match a with | ⟨0, _⟩ => rfl
  rw [hi]
  rfl

/-- The reference's first half is one smoothing step. -/
theorem step1_eq (h : FVec Ideal S50000x64 .f32) (D : FVec Ideal S50000 .f32) (ei : IVec S2x800000 32)
    (hr : Cert.Spec.InRange ei) :
    Read.val_main_v25 (F := Ideal) h D ei = Cert.Spec.step ei D h := by
  funext i
  obtain ⟨p, q, rfl⟩ : ∃ (p : Fin 50000) (q : Fin 64), i = ix2 p q := ⟨i 0, i 1, eq_ix2 i⟩
  rw [Read.val_main_v25_apply, Read.val_main_v22_apply, Read.val_main_v21_apply, Read.val_main_v20_apply,
    Read.val_main_cst_4_apply, scale1_read]
  unfold Read.val_main_v19 Read.val_main_v16
  rw [agg_read ei hr h _ _ _
    (fun i => by rw [Read.val_main_v17_apply, Read.val_main_cst_3_apply]; exact Ideal.ofBits_zero_f32)
    (gidx1_read ei hr) (sidx1_read ei)]
  rfl

/-- The reference's result term, at the ideal instance, is two smoothing steps of its arguments. -/
theorem ref_eq (h : FVec Ideal S50000x64 .f32) (D : FVec Ideal S50000 .f32) (ei : IVec S2x800000 32)
    (hr : Cert.Spec.InRange ei) :
    Cert.ReferenceIdeal.Read.val_main_v41 (F := Ideal) h D ei = Cert.Spec.G h D ei := by
  funext i
  obtain ⟨p, q, rfl⟩ : ∃ (p : Fin 50000) (q : Fin 64), i = ix2 p q := ⟨i 0, i 1, eq_ix2 i⟩
  rw [Read.val_main_v41_apply, Read.val_main_v38_apply, Read.val_main_v37_apply, Read.val_main_v36_apply,
    Read.val_main_cst_8_apply, scale2_read]
  unfold Read.val_main_v35 Read.val_main_v32
  rw [agg_read ei hr (Read.val_main_v25 (F := Ideal) h D ei) _ _ _
    (fun i => by rw [Read.val_main_v33_apply, Read.val_main_cst_7_apply]; exact Ideal.ofBits_zero_f32)
    (gidx2_read ei hr) (sidx2_read ei)]
  rw [step1_eq h D ei hr]
  rfl

end Cert.ReferenceIdeal.RefValue

end
-- ==== Proof.PreRange.lean ====
/-
  The precondition's last two conjuncts say that every word of row 0 of the index array, read as a signed integer,
  is at least 0 and below 50000: every source word names a node.
-/
import proofs.«402452_j12051678232913_1_alg».proof.Pre_finite_inputs
import proofs.«402452_j12051678232913_1_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Range

open Cert.Pre_finite_inputs Idealize.ShloMosaic Idealize.ShloMosaic.ValueIdx

variable [Cert.Pre_finite_inputs.Facts]

open Cert.Pre_finite_inputs.Facts

/-- The scalar shape has one index. -/
private instance : Subsingleton S_.Idx := ⟨fun _ _ => funext fun d => d.elim0⟩

/-- Row 0 of the index array, sliced off and flattened, read at `e`, is the array at `(0, e)`: both layout operations keep
    the row-major position, and the slice starts at the origin. -/
private theorem row0_apply (ei : IVec S2x800000 32) (e : Fin 800000) :
    shapeCast S800000 (extractStridedSlice S1x800000 ![0, 0] ei slices_S2x800000_S1x800000_0_0) shapeCasts_S1x800000_S800000 (ix1 e)
      = ei (ix2 (0 : Fin 2) e) := by
  refine (shapeCast_apply _ _ (ix1 e) (ix2 (0 : Fin 1) e) ?_).trans ?_
  · rw [Shape.rowMajor_val_two, Shape.rowMajor_val_one]
    show (0 : Nat) * _ + e.val = e.val
    omega
  · refine extractStridedSlice_apply _ _ _ _ (ix2 (0 : Fin 2) e) ?_
    intro a
    match a with
    | ⟨0, _⟩ => rfl
    | ⟨1, _⟩ => exact (Nat.zero_add _).symm

/-- A scalar constant broadcast to the flat shape reads the constant everywhere. -/
private theorem bcast_const_apply (c : BitVec 32) (j : S800000.Idx) :
    broadcastInDim S800000 ![] bcast_S_S800000 (constantI S_ 32 c) j = c := rfl

/-- Where the printed precondition is all ones, every source word names a node. -/
theorem inRange_of_pre {F : FTy → Type} [FloatOps F] (h : FVec F S50000x64 .f32) (D : FVec F S50000 .f32) (ei : IVec S2x800000 32)
    (hp : Cert.Pre_finite_inputs.fn (F := F) h D ei = fun _ => 1#1) : Cert.Spec.InRange ei := by
  -- the result word is the conjunction of four words; the last two are the two reductions over row 0
  have h0 := congrFun hp ix0
  unfold fn fn_part1 at h0
  simp only [andi, IntOp.andi_eq_one] at h0
  obtain ⟨⟨-, h3⟩, h4⟩ := h0
  intro e
  -- a reduction by conjunction that is 1 met a 1 at every position
  have g3 := Host.reduce_andi_all _ _ _ _ _ h3 (ix1 e)
  have g4 := Host.reduce_andi_all _ _ _ _ _ h4 (ix1 e)
  -- at position `e` the two comparisons are of the array's word at `(0, e)` with 0 and with 50000
  have g3' : IntOp.cmpi .sge
      (shapeCast S800000 (extractStridedSlice S1x800000 ![0, 0] ei slices_S2x800000_S1x800000_0_0) shapeCasts_S1x800000_S800000 (ix1 e))
      (broadcastInDim S800000 ![] bcast_S_S800000 (constantI S_ 32 0#32) (ix1 e)) = 1#1 := g3
  have g4' : IntOp.cmpi .slt
      (shapeCast S800000 (extractStridedSlice S1x800000 ![0, 0] ei slices_S2x800000_S1x800000_0_0) shapeCasts_S1x800000_S800000 (ix1 e))
      (broadcastInDim S800000 ![] bcast_S_S800000 (constantI S_ 32 50000#32) (ix1 e)) = 1#1 := g4
  rw [row0_apply, bcast_const_apply, IntOp.cmpi_sge] at g3'
  rw [row0_apply, bcast_const_apply, IntOp.cmpi_slt] at g4'
  have z0 : (0#32 : BitVec 32).toInt = 0 := by decide
  have z1 : (50000#32 : BitVec 32).toInt = 50000 := by decide
  rw [z0] at g3'
  rw [z1] at g4'
  exact ⟨g3', g4'⟩

end Cert.Pre_finite_inputs.Range

end
-- ==== Proof.KIsSpec.lean ====
/-
  The kernel's program computes the two-step smoothing function, for source words that name nodes.  A one-hot matrix
  product against the padded node rows picks out, for an edge whose source word names node s, exactly row s (every
  other term of the sum is 0 · x = 0 in the extended reals, and the 176 padding rows are never named); the one-hot
  product over the edges is the sum over the edges that end at the node; a destination word that names no node, or
  names a padding row, contributes to no row that survives the final cut.
-/
import proofs.«402452_j12051678232913_1_alg».proof.Proof.KDefs
import proofs.«402452_j12051678232913_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.KVal

open Cert.KernelIdeal Idealize.ShloMosaic Idealize.ShloMosaic.ValueIdx

variable [Facts]
open Facts₀ Facts

/-! ## The index rows -/

/-- Row 0 of the index array, cut out, flattened and given back its unit axis, read at `(0, e)`, is the array at
    `(0, e)`: every step keeps the row-major position. -/
theorem srcA_apply (ei : IVec S2x800000 32) (e : Fin 800000) : srcA ei (ix2 (0 : Fin 1) e) = Cert.Spec.src ei e := by
  unfold srcA Cert.Spec.src
  refine (shapeCast_apply _ _ (ix2 (0 : Fin 1) e) (ix1 e) ?_).trans ?_
  · rw [Shape.rowMajor_val_two, Shape.rowMajor_val_one]
    show e.val = (0 : Nat) * _ + e.val
    omega
  refine (shapeCast_apply _ _ (ix1 e) (ix2 (0 : Fin 1) e) ?_).trans ?_
  · rw [Shape.rowMajor_val_two, Shape.rowMajor_val_one]
    show (0 : Nat) * _ + e.val = e.val
    omega
  refine extractStridedSlice_apply _ _ _ _ (ix2 (0 : Fin 2) e) ?_
  intro a
  match a with
  | ⟨0, _⟩ => rfl
  | ⟨1, _⟩ => exact (Nat.zero_add _).symm

/-- The same for row 1. -/
theorem dstA_apply (ei : IVec S2x800000 32) (e : Fin 800000) : dstA ei (ix2 (0 : Fin 1) e) = Cert.Spec.dst ei e := by
  unfold dstA Cert.Spec.dst
  refine (shapeCast_apply _ _ (ix2 (0 : Fin 1) e) (ix1 e) ?_).trans ?_
  · rw [Shape.rowMajor_val_two, Shape.rowMajor_val_one]
    show e.val = (0 : Nat) * _ + e.val
    omega
  refine (shapeCast_apply _ _ (ix1 e) (ix2 (0 : Fin 1) e) ?_).trans ?_
  · rw [Shape.rowMajor_val_two, Shape.rowMajor_val_one]
    show (0 : Nat) * _ + e.val = e.val
    omega
  refine extractStridedSlice_apply _ _ _ _ (ix2 (1 : Fin 2) e) ?_
  intro a
  match a with
  | ⟨0, _⟩ => rfl
  | ⟨1, _⟩ => exact (Nat.zero_add _).symm

/-! ## The padded arrays, read at a node's row -/

/-- The padded rows at a row below 50000 are the rows. -/
theorem padF_apply (x : FVec Ideal S50000x64 .f32) (n : Fin 50176) (p : Fin 50000) (q : Fin 64) (hn : n.val = p.val) :
    padF x (ix2 n q) = x (ix2 p q) := by
  unfold padF
  refine pad_apply_of_inside _ _ _ _ _ _ _ _ (ix2 p q) ?_
  intro a
  match a with
  | ⟨0, _⟩ => show n.val = 0 + p.val * (0 + 1); omega
  | ⟨1, _⟩ => show q.val = 0 + q.val * (0 + 1); omega

theorem padB_apply (x : FVec Ideal S50000x64 .bf16) (n : Fin 50176) (p : Fin 50000) (q : Fin 64) (hn : n.val = p.val) :
    padB x (ix2 n q) = x (ix2 p q) := by
  unfold padB
  refine pad_apply_of_inside _ _ _ _ _ _ _ _ (ix2 p q) ?_
  intro a
  match a with
  | ⟨0, _⟩ => show n.val = 0 + p.val * (0 + 1); omega
  | ⟨1, _⟩ => show q.val = 0 + q.val * (0 + 1); omega

/-- The padded, repeated scale at a row below 50000 is the node's scale. -/
theorem sclArr_apply (D : FVec Ideal S50000 .f32) (n : Fin 50176) (p : Fin 50000) (q : Fin 64) (hn : n.val = p.val) :
    sclArr D (ix2 n q) = Cert.Spec.scale D p := by
  unfold sclArr
  refine (broadcastInDim_apply _ _ _ (ix2 n q) (ix2 n (0 : Fin 1)) ?_).trans ?_
  · intro a
    match a with
    | ⟨0, _⟩ => rfl
    | ⟨1, _⟩ => rfl
  refine (broadcastInDim_apply _ _ _ (ix2 n (0 : Fin 1)) (ix1 n) ?_).trans ?_
  · intro a
    match a with
    | ⟨0, _⟩ => rfl
  refine (pad_apply_of_inside _ _ _ _ _ _ _ _ (ix1 p) ?_).trans ?_
  · intro a
    match a with
    | ⟨0, _⟩ => show n.val = 0 + p.val * (0 + 1); omega
  rfl

/-! ## One-hot sums -/

/-- The one-hot weight against a small number compares the word's unsigned reading with it. -/
theorem oh_ofNat (n : Nat) (hn : n < 2 ^ 32) (w : BitVec 32) : oh (BitVec.ofNat 32 n) w = if w.toNat = n then 1 else 0 := by
  unfold oh
  by_cases h : w.toNat = n
  · rw [if_pos h, if_pos]
    apply BitVec.eq_of_toNat_eq
    rw [BitVec.toNat_ofNat, Nat.mod_eq_of_lt hn, h]
  · rw [if_neg h, if_neg]
    intro heq
    apply h
    rw [← heq, BitVec.toNat_ofNat, Nat.mod_eq_of_lt hn]

/-- A one-hot sum over the padded node numbers against a word that names a node is the one term at that node. -/
theorem sum_oh_single (w : BitVec 32) (hw : w.toNat < 50000) (R : Fin 50176 → EReal) :
    ∑ n : Fin 50176, oh (BitVec.ofNat 32 n.val) w * R n = R ⟨w.toNat, by omega⟩ := by
  rw [Finset.sum_eq_single (⟨w.toNat, by omega⟩ : Fin 50176)]
  · rw [oh_ofNat _ (by omega), if_pos rfl, one_mul]
  · intro n _ hne
    rw [oh_ofNat _ (by have := n.isLt; omega), if_neg, zero_mul]
    intro h
    exact hne (Fin.ext h.symm)
  · intro h
    exact absurd (Finset.mem_univ _) h

/-! ## One step -/

/-- One step of the kernel's program at a node and a feature, with the layout operations read away. -/
theorem kstep_apply (ei : IVec S2x800000 32) (D : FVec Ideal S50000 .f32) (x : FVec Ideal S50000x64 .f32) (p : Fin 50000) (q : Fin 64) :
    kstep ei D x (ix2 p q) =
      (x (ix2 p q) + Cert.Spec.half * ∑ e : Fin 800000, oh (BitVec.ofNat 32 p.val) (Cert.Spec.dst ei e)
          * ∑ n : Fin 50176, oh (BitVec.ofNat 32 n.val) (Cert.Spec.src ei e) * padB (truncf .bf16 x bitsLt_bf16_f32) (ix2 n q))
        * Cert.Spec.scale D p := by
  have hp : p.val < 50176 := by have := p.isLt; omega
  unfold kstep
  refine (extractStridedSlice_apply _ _ _ _ (ix2 (⟨p.val, hp⟩ : Fin 50176) q) ?_).trans ?_
  · intro a
    match a with
    | ⟨0, _⟩ => exact (Nat.zero_add _).symm
    | ⟨1, _⟩ => exact (Nat.zero_add _).symm
  unfold scatterArr gatherArr
  simp only [dstA_apply, srcA_apply]
  rw [padF_apply x ⟨p.val, hp⟩ p q rfl, sclArr_apply D ⟨p.val, hp⟩ p q rfl]

/-- One step of the kernel's program is one smoothing step, for source words that name nodes. -/
theorem kstep_eq (ei : IVec S2x800000 32) (D : FVec Ideal S50000 .f32) (x : FVec Ideal S50000x64 .f32)
    (hr : Cert.Spec.InRange ei) : kstep ei D x = Cert.Spec.step ei D x := by
  funext i
  obtain ⟨p, q, rfl⟩ : ∃ p q, i = ix2 p q := ⟨i 0, i 1, eq_ix2 i⟩
  rw [kstep_apply]
  show _ = (x (ix2 p q) + Cert.Spec.half * Cert.Spec.agg ei x p q) * Cert.Spec.scale D p
  refine congrArg (fun t : EReal => (x (ix2 p q) + Cert.Spec.half * t) * Cert.Spec.scale D p) ?_
  unfold Cert.Spec.agg
  rw [Finset.sum_filter]
  refine Finset.sum_congr rfl fun e _ => ?_
  -- the source word of edge `e` names a node
  obtain ⟨h0, h1⟩ := hr e
  have hs : (Cert.Spec.src ei e).toNat < 50000 := by
    have := BitVec.toInt_eq_toNat_cond (Cert.Spec.src ei e)
    split at this <;> omega
  rw [sum_oh_single _ hs, dif_pos hs, padB_apply _ _ ⟨(Cert.Spec.src ei e).toNat, hs⟩ q rfl]
  rw [oh_ofNat _ (by have := p.isLt; omega)]
  -- the destination word names node `p` read signed exactly when it does read unsigned
  have hd : (Cert.Spec.dst ei e).toNat = p.val ↔ (Cert.Spec.dst ei e).toInt = (p.val : ℤ) := by
    have := BitVec.toInt_eq_toNat_cond (Cert.Spec.dst ei e)
    have hp := p.isLt
    have hlt := (Cert.Spec.dst ei e).isLt
    split at this <;> omega
  by_cases hc : (Cert.Spec.dst ei e).toInt = (p.val : ℤ)
  · rw [if_pos (hd.2 hc), if_pos hc, one_mul]
    rfl
  · rw [if_neg (fun h => hc (hd.1 h)), if_neg hc, zero_mul]

/-- The kernel's two steps are the specification's, for source words that name nodes. -/
theorem K_eq_spec (h : FVec Ideal S50000x64 .f32) (D : FVec Ideal S50000 .f32) (ei : IVec S2x800000 32)
    (hr : Cert.Spec.InRange ei) : K h D ei = Cert.Spec.G h D ei := by
  unfold K Cert.Spec.G
  rw [kstep_eq ei D h hr, kstep_eq ei D _ hr]

end Cert.KernelIdeal.KVal

end
-- ==== Proof.lean ====
/-
  Both programs compute two smoothing steps.  A smoothing step adds to every node's features half the sum, over the
  edges that end at the node, of the features of the edge's source node, and multiplies the result by the node's
  scale 1 / (1 + D/2).  The kernel's program pads the node rows, forms each edge's source row as a one-hot matrix
  product, sums the edges into their destination rows by a second one-hot product, and cuts the padding off; the
  reference gathers and scatter-adds.  The precondition's last two conjuncts say that every source word names a
  node, and for such words each program's result, over the extended reals, is the two smoothing steps of its
  arguments; so from memories that agree on the arguments the two end with equal results.  Each program runs to the
  end without a fault and leaves its three arguments as they were: no operation writes an argument.
-/
import proofs.«402452_j12051678232913_1_alg».proof.Defs
import proofs.«402452_j12051678232913_1_alg».proof.Proof.Gen.Kernel
import proofs.«402452_j12051678232913_1_alg».proof.Proof.Gen.Kernel.Skeleton
import proofs.«402452_j12051678232913_1_alg».proof.Proof.Gen.Kernel.Launch
import proofs.«402452_j12051678232913_1_alg».proof.Proof.Gen.Kernel.Regions
import proofs.«402452_j12051678232913_1_alg».proof.Proof.Gen.Kernel.Points
import proofs.«402452_j12051678232913_1_alg».proof.Proof.Gen.KernelIdeal
import proofs.«402452_j12051678232913_1_alg».proof.Proof.Gen.KernelIdeal.Skeleton
import proofs.«402452_j12051678232913_1_alg».proof.Proof.Gen.KernelIdeal.Launch
import proofs.«402452_j12051678232913_1_alg».proof.Proof.Gen.KernelIdeal.Regions
import proofs.«402452_j12051678232913_1_alg».proof.Proof.Gen.KernelIdeal.Points
import proofs.«402452_j12051678232913_1_alg».proof.Proof.Gen.ReferenceIdeal
import proofs.«402452_j12051678232913_1_alg».proof.Proof.Gen.ReferenceIdeal.Run
import proofs.«402452_j12051678232913_1_alg».proof.Proof.Gen.ReferenceIdeal.Read
import proofs.«402452_j12051678232913_1_alg».proof.Proof.Gen.Pre_finite_inputs
import proofs.«402452_j12051678232913_1_alg».proof.Proof.RunAll
import proofs.«402452_j12051678232913_1_alg».proof.Proof.ArgsKept
import proofs.«402452_j12051678232913_1_alg».proof.Proof.HostGlue
import proofs.«402452_j12051678232913_1_alg».proof.Proof.BRunAll
import proofs.«402452_j12051678232913_1_alg».proof.Proof.BArgsKept
import proofs.«402452_j12051678232913_1_alg».proof.Proof.RefIsSpec
import proofs.«402452_j12051678232913_1_alg».proof.Proof.PreRange
import proofs.«402452_j12051678232913_1_alg».proof.Proof.KIsSpec
import Idealize.ShloMosaic.Adequacy
import Idealize.ShloMosaic.Init

noncomputable section

namespace Cert.Proof

open Idealize.ShloMosaic Idealize.SL.Sem

/-- The bit-exact kernel program runs, and its three argument arrays end as they began: at the end every buffer no
    launch owns holds the last item's contents, and no item writes an argument. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W15_main_arg0 m c),
     (h c _ (Cert.Kernel.Hand.mem_uc Cert.Kernel.main_arg1 (by decide))).trans (Cert.Kernel.Hand.W15_main_arg1 m c),
     (h c _ (Cert.Kernel.Hand.mem_uc Cert.Kernel.main_arg2 (by decide))).trans (Cert.Kernel.Hand.W15_main_arg2 m c)⟩)
    (Cert.Kernel.Hand.run_all (F := Bits) m ρ)

/-- The same of the kernel program read over the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W15_main_arg0 m c),
     (h c _ (Cert.KernelIdeal.Hand.mem_uc Cert.KernelIdeal.main_arg1 (by decide))).trans (Cert.KernelIdeal.Hand.W15_main_arg1 m c),
     (h c _ (Cert.KernelIdeal.Hand.mem_uc Cert.KernelIdeal.main_arg2 (by decide))).trans (Cert.KernelIdeal.Hand.W15_main_arg2 m c)⟩)
    (Cert.KernelIdeal.Hand.run_all (F := Ideal) m ρ)

/-- The reference program runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The reference's result term of arrays equal to the kernel's arguments is the kernel's two steps of them, where
    the source words name nodes: both are the two smoothing steps. -/
theorem ref_eq_K (h' : FVec Ideal Cert.ReferenceIdeal.S50000x64 .f32) (D' : FVec Ideal Cert.ReferenceIdeal.S50000 .f32)
    (ei' : IVec Cert.ReferenceIdeal.S2x800000 32)
    (h : FVec Ideal Cert.KernelIdeal.S50000x64 .f32) (D : FVec Ideal Cert.KernelIdeal.S50000 .f32) (ei : IVec Cert.KernelIdeal.S2x800000 32)
    (e0 : h' = h) (e1 : D' = D) (e2 : ei' = ei) (hr : Cert.Spec.InRange ei) :
    Cert.ReferenceIdeal.Read.val_main_v41 (F := Ideal) h' D' ei' = Cert.KernelIdeal.KVal.K h D ei := by
  subst e0 e1 e2
  exact (Cert.ReferenceIdeal.RefValue.ref_eq _ _ _ hr).trans (Cert.KernelIdeal.KVal.K_eq_spec _ _ _ hr).symm

/-- Over the extended reals, from memories that agree on the arguments, the kernel program and the reference program
    both run, keep their arguments, and end with the same result array: the two smoothing steps of the arguments (the
    precondition makes every source word name a node). -/
theorem algebraic_ki_ri : Cert.algebraic_KernelIdeal_ReferenceIdeal := by
  intro m ρ m' ρ' hpre hagree
  refine ⟨fun c => Cert.KernelIdeal.KVal.K
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v26 (by decide))).trans (Cert.KernelIdeal.Hand.W15_result m c),
       (h c _ (Cert.KernelIdeal.Hand.mem_uc Cert.KernelIdeal.main_arg0 (by decide))).trans (Cert.KernelIdeal.Hand.W15_main_arg0 m c),
       (h c _ (Cert.KernelIdeal.Hand.mem_uc Cert.KernelIdeal.main_arg1 (by decide))).trans (Cert.KernelIdeal.Hand.W15_main_arg1 m c),
       (h c _ (Cert.KernelIdeal.Hand.mem_uc Cert.KernelIdeal.main_arg2 (by decide))).trans (Cert.KernelIdeal.Hand.W15_main_arg2 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    have hr := Cert.Pre_finite_inputs.Range.inRange_of_pre (F := Ideal) _ _ _ (hpre c)
    exact (Cert.ReferenceIdeal.Read.val_main_v41_eq (F := Ideal) m' c).trans
      (ref_eq_K _ _ _ _ _ _ (hagree c).1 (hagree c).2.1 (hagree c).2.2 hr)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic_ki_ri⟩

end Cert.Proof

end
